-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x64 .f32) (main_arg1 : FVec F S4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x64 : Shape := ⟨2, ![4096, 64]⟩
abbrev S4096x4096 : Shape := ⟨2, ![4096, 4096]⟩
abbrev S512x4096 : Shape := ⟨2, ![512, 4096]⟩
abbrev S512x64 : Shape := ⟨2, ![512, 64]⟩
abbrev S1024x4096 : Shape := ⟨2, ![1024, 4096]⟩
abbrev S1024x64 : Shape := ⟨2, ![1024, 64]⟩

abbrev nBuf : Space → Nat
  | .hbm => 3
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .local _ .vmem, ⟨0, _⟩ => ⟨S4096x64, .f32⟩
  | .local _ .vmem, ⟨1, _⟩ => ⟨S512x4096, .f32⟩
  | .local _ .vmem, ⟨2, _⟩ => ⟨S512x4096, .f32⟩
  | .local _ .vmem, ⟨3, _⟩ => ⟨S4096x64, .f32⟩
  | .local _ .vmem, ⟨4, _⟩ => ⟨S4096x4096, .bf16⟩
  | .local _ .vmem, ⟨5, _⟩ => ⟨S4096x64, .f32⟩
  | .local _ .vmem, ⟨6, _⟩ => ⟨S4096x64, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let v6 : Index := Scalar.indexCast v0
  let c0_2 : Index := 0#32
  ![v6.toNat, 0]
def k0_off2 (i : grid0.Coords) : Fin 2 → Nat :=
  let arg0 : BitVec 32 := BitVec.ofNat 32 (i 0).val
  let c512_i32 : BitVec 32 := 512#32
  let v0 : BitVec 32 := Scalar.muli arg0 c512_i32
  let v16 : Index := Scalar.indexCast v0
  let c0_7 : Index := 0#32
  ![v16.toNat, 0]
def k0_cond2 (i : grid0.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  h_S512x64 : 0 < S512x64.numel
  shapeCasts_S512x64_S512x64 : S512x64.ShapeCasts S512x64
  inb_S4096x4096_S1024x4096_0_0 : ∀ a, (![0, 0] : Fin 2 → Nat) a + S1024x4096.size a ≤ S4096x4096.size a
  h_S1024x4096 : 0 < S1024x4096.numel
  inb_S4096x64_S1024x64_0_0 : ∀ a, (![0, 0] : Fin 2 → Nat) a + S1024x64.size a ≤ S4096x64.size a
  h_S1024x64 : 0 < S1024x64.numel
  shapeCasts_S1024x64_S1024x64 : S1024x64.ShapeCasts S1024x64
  inb_S4096x4096_S1024x4096_1024_0 : ∀ a, (![1024, 0] : Fin 2 → Nat) a + S1024x4096.size a ≤ S4096x4096.size a
  inb_S4096x64_S1024x64_1024_0 : ∀ a, (![1024, 0] : Fin 2 → Nat) a + S1024x64.size a ≤ S4096x64.size a
  inb_S4096x4096_S1024x4096_2048_0 : ∀ a, (![2048, 0] : Fin 2 → Nat) a + S1024x4096.size a ≤ S4096x4096.size a
  inb_S4096x64_S1024x64_2048_0 : ∀ a, (![2048, 0] : Fin 2 → Nat) a + S1024x64.size a ≤ S4096x64.size a
  inb_S4096x4096_S1024x4096_3072_0 : ∀ a, (![3072, 0] : Fin 2 → Nat) a + S1024x4096.size a ≤ S4096x4096.size a
  inb_S4096x64_S1024x64_3072_0 : ∀ a, (![3072, 0] : Fin 2 → Nat) a + S1024x64.size a ≤ S4096x64.size a
  dot_S512x4096_S4096x64_S512x64_1_0_0_1_n_n_wf : DotDims.WF S512x4096 S4096x64 S512x64 [1] [0] [0] [1] [] []
  dot_S1024x4096_S4096x64_S1024x64_1_0_0_1_n_n_wf : DotDims.WF S1024x4096 S4096x64 S1024x64 [1] [0] [0] [1] [] []
  hrank0 : 0 < grid0.rank
  k0_off1_inb : ∀ i : grid0.Coords, ∀ a, (k0_off1 i) a + S512x4096.size a ≤ S4096x4096.size a
  k0_off1_packedbf16 : ∀ i : grid0.Coords, (Rect.unit (s := S4096x4096) (k0_off1 i) S512x4096.size (k0_off1_inb i)).PackedRows (EltTy.packing .bf16)
  k0_off2_inb : ∀ i : grid0.Coords, ∀ a, (k0_off2 i) a + S512x64.size a ≤ S4096x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .hbm, ⟨3, _⟩ => ⟨S_, .f32⟩
  | .hbm, ⟨4, _⟩ => ⟨S4096x64, .f32⟩
  | .hbm, ⟨5, _⟩ => ⟨S4096x64, .f32⟩
  | .hbm, ⟨6, _⟩ => ⟨S_, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .f32⟩
  | .hbm, ⟨14, _⟩ => ⟨S_, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S_, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S_, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S_, .f32⟩
  | .hbm, ⟨36, _⟩ => ⟨S4096x64, .f32⟩
  | .hbm, ⟨37, _⟩ => ⟨S4096x64, .f32⟩
  | .hbm, ⟨38, _⟩ => ⟨S_, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S_, .f32⟩
  | .hbm, ⟨44, _⟩ => ⟨S4096x64, .f32⟩
  | .hbm, ⟨45, _⟩ => ⟨S4096x64, .f32⟩
  | .hbm, ⟨46, _⟩ => ⟨S_, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S4096x64, .f32⟩
  | .hbm, ⟨51, _⟩ => ⟨S_, .f32⟩
  | .hbm, ⟨52, _⟩ => ⟨S4096x64, .f32⟩
  | .hbm, ⟨53, _⟩ => ⟨S4096x64, .f32⟩
  | .hbm, ⟨54, _⟩ => ⟨S_, .f32⟩
  | .hbm, ⟨55, _⟩ => ⟨S4096x64, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S4096x64, .f32⟩
  | .hbm, ⟨61, _⟩ => ⟨S4096x64, .f32⟩
  | .hbm, ⟨62, _⟩ => ⟨S_, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S_, .f32⟩
  | .hbm, ⟨68, _⟩ => ⟨S4096x64, .f32⟩
  | .hbm, ⟨69, _⟩ => ⟨S4096x64, .f32⟩
  | .hbm, ⟨70, _⟩ => ⟨S_, .f32⟩
  | .hbm, ⟨71, _⟩ => ⟨S4096x64, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S_, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096x64, .f32⟩
  | .hbm, ⟨80, _⟩ => ⟨S4096x64, .f32⟩
  | .hbm, ⟨81, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_cst_14 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_15 : Ref sig .tc := ⟨.hbm, 67, rfl⟩
abbrev main_v49 : Ref sig .tc := ⟨.hbm, 68, rfl⟩
abbrev main_v50 : Ref sig .tc := ⟨.hbm, 69, rfl⟩
abbrev main_cst_16 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_17 : Ref sig .tc := ⟨.hbm, 75, rfl⟩
abbrev main_v55 : Ref sig .tc := ⟨.hbm, 76, rfl⟩
abbrev main_v56 : Ref sig .tc := ⟨.hbm, 77, rfl⟩
abbrev main_cst_18 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.K.Common.lean ====
/-
  The kernel body of the APPNP propagation kernel: what its two branches test, which staging
  memrefs the pipeline hands it, and the region invariant with the three scratch buffers spelt out.

  The body at grid point `t` (eight points, one per block of 512 rows of the adjacency):
  * at the first point only, rounds the feature matrix `x` into the scratch `hb`;
  * rounds the point's 512-row block of the adjacency into rows `[512 t, 512 t + 512)` of the
    scratch `ab`, multiplies that block with `hb` and stores `c₉ · (block · hb) + c₁ · x` into the
    same rows of the scratch `hf`;
  * at the last point only, runs nine more propagation steps over the whole resident `ab`, four
    1024-row tiles per step, the last step into the output's staging buffer.
-/
import proofs.«114585_g3178275799597_cont_8to1_b_565_8_alg».proof.Proof.Gen.Kernel.Frame
import proofs.«114585_g3178275799597_cont_8to1_b_565_8_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The first branch's test, `program_id == 0`, as the body computes it from the grid coordinate. -/
abbrev condInit (i : grid0.Coords) : Prop :=
  (Scalar.cmpi .ne (Scalar.extui (Scalar.cmpi .eq (BitVec.ofNat 32 (i 0).val) 0#32)) 0#32) = 1#1
/-- It holds at the first point only. -/
theorem hcondInit : ∀ t : Fin cfg0.N, condInit (grid0.coords t) ↔ t.val = 0 :=
  (by decide +kernel : ∀ t : Fin grid0.N, condInit (grid0.coords t) ↔ t.val = 0)

/-- The second branch's test, `program_id == 7`. -/
abbrev condTail (i : grid0.Coords) : Prop := k0_cond2 i = 1#1
/-- It holds at the last point only. -/
theorem hcondTail : ∀ t : Fin cfg0.N, condTail (grid0.coords t) ↔ t.val = 7 :=
  (by decide +kernel : ∀ t : Fin grid0.N, condTail (grid0.coords t) ↔ t.val = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Off the last point the body stores nothing into the output's staging buffer, -/
theorem idle2 : ∀ t : Fin cfg0.N, ¬condTail (grid0.coords t) → cfg0.idle 2 (grid0.coords t) = true := by decide +kernel
/-- and the pipeline does not write it back there; -/
theorem noFlush2 : ∀ t : Fin cfg0.N, ¬condTail (grid0.coords t) → (cfg0.win 2).flush t = false := by decide +kernel
/-- at the last point it stores the whole block. -/
theorem live2 : ∀ t : Fin cfg0.N, condTail (grid0.coords t) → cfg0.idle 2 (grid0.coords t) = false := by decide +kernel

/-! ## The memrefs the body is called with -/

abbrev ms0 (t : Fin cfg0.N) : Memref sig .tc .vmem S4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x64 .f32 := win0_2.stage (cfg0.slots t 2)
abbrev hs2 (t : Fin cfg0.N) : (ms2 t).IsWhole := hstage0_2 ((cfg0.slots t 2).cast nbuf0_2)
/-- The resident rounded adjacency `ab`, the running iterate `hf`, and its rounded copy `hb`. -/
abbrev scA : Memref sig .tc .vmem S4096x4096 .bf16 := Memref.whole cc0_scratch0
abbrev scH : Memref sig .tc .vmem S4096x64 .f32 := Memref.whole cc0_scratch1
abbrev scB : Memref sig .tc .vmem S4096x64 .bf16 := Memref.whole cc0_scratch2

/-- The region's invariant as the launch hands it over: the three scratch buffers at some contents,
    the generator register at some state. -/
theorem PhiA_eq (c : Dev nD) :
    (Pipeline.ΦA spec0 c : sProp 𝕄)
      = iprop(iprop((∃ d, owns (c : Thread nD τ) scA fullShare d) ∗ (∃ d, owns (c : Thread nD τ) scH fullShare d) ∗ (∃ d, owns (c : Thread nD τ) scB fullShare d)) ∗ (∃ r, prngReg c r)) := by
  unfold Pipeline.ΦA; rw [scopedRest0_eq]; simp only [scA, scH, scB, owns_whole]; try rfl

end Cert.Kernel.Body

end
-- ==== Proof.K.Spec.lean ====
/-
  What the kernel's scratch buffers and its output hold, as functions of the two argument arrays,
  stated with the body's own arithmetic (the payloads of its stores) and for any float family.

  `ABs`  — the resident copy of the adjacency: each 512-row block rounded as the body rounds it.
  `HB0`  — the rounded copy of `x` the first point makes.
  `H1`   — the first propagation step, 512 rows at a time: the block of `ABs` times `HB0`, scaled,
            plus the scaled rows of `x`.
  `stepT` — one later step over the whole resident copy, 1024 rows at a time, from the iterate `H`
            (rounded first).
  `OUT`  — nine later steps after the first: what the last point leaves in the output's buffer.
-/
import proofs.«114585_g3178275799597_cont_8to1_b_565_8_alg».proof.Proof.Gen.Kernel.Skeleton
import Idealize.ShloMosaic.Lib.ValueIdx

noncomputable section

namespace Cert.Kernel.Body

open Cert.Kernel Cert.Kernel.Gen
open Idealize.ShloMosaic Idealize.ShloMosaic.ValueIdx

variable {F : FTy → Type} [FloatOps F]

/-! ## Row blocks of the two array shapes -/

/-- Rows `[512 k, 512 k + 512)` of a 4096 × 4096 array. -/
def blkA512 {α : Type} (A : S4096x4096.Idx → α) (k : Fin 8) : S512x4096.Idx → α := fun p =>
  A (ix2 (⟨512 * k.val + (p 0).val, by have h : (p 0).val < 512 := (p 0).isLt; have := k.isLt; omega⟩ : Fin 4096)
         (⟨(p 1).val, (p 1).isLt⟩ : Fin 4096))
/-- Rows `[1024 k, 1024 k + 1024)` of a 4096 × 4096 array. -/
def blkA1024 {α : Type} (A : S4096x4096.Idx → α) (k : Fin 4) : S1024x4096.Idx → α := fun p =>
  A (ix2 (⟨1024 * k.val + (p 0).val, by have h : (p 0).val < 1024 := (p 0).isLt; have := k.isLt; omega⟩ : Fin 4096)
         (⟨(p 1).val, (p 1).isLt⟩ : Fin 4096))
/-- Rows `[512 k, 512 k + 512)` of a 4096 × 64 array. -/
def blkX512 {α : Type} (X : S4096x64.Idx → α) (k : Fin 8) : S512x64.Idx → α := fun p =>
  X (ix2 (⟨512 * k.val + (p 0).val, by have h : (p 0).val < 512 := (p 0).isLt; have := k.isLt; omega⟩ : Fin 4096)
         (⟨(p 1).val, (p 1).isLt⟩ : Fin 64))
/-- Rows `[1024 k, 1024 k + 1024)` of a 4096 × 64 array. -/
def blkX1024 {α : Type} (X : S4096x64.Idx → α) (k : Fin 4) : S1024x64.Idx → α := fun p =>
  X (ix2 (⟨1024 * k.val + (p 0).val, by have h : (p 0).val < 1024 := (p 0).isLt; have := k.isLt; omega⟩ : Fin 4096)
         (⟨(p 1).val, (p 1).isLt⟩ : Fin 64))

/-- The 512-row block a row lies in, and the row inside it. -/
def q512 (y : Fin 4096) : Fin 8 := ⟨y.val / 512, by have := y.isLt; omega⟩
def r512 (y : Fin 4096) : Fin 512 := ⟨y.val % 512, Nat.mod_lt _ (by decide)⟩
/-- The 1024-row tile a row lies in, and the row inside it. -/
def q1024 (y : Fin 4096) : Fin 4 := ⟨y.val / 1024, by have := y.isLt; omega⟩
def r1024 (y : Fin 4096) : Fin 1024 := ⟨y.val % 1024, Nat.mod_lt _ (by decide)⟩

/-! ## The buffers' contents -/

/-- The resident adjacency: each 512-row block of `adj` rounded. -/
def ABs (ADJ : Vec F S4096x4096 .f32) : Vec F S4096x4096 .bf16 := fun y =>
  k0_pay2 (blkA512 ADJ (q512 (y 0))) (ix2 (r512 (y 0)) (⟨(y 1).val, (y 1).isLt⟩ : Fin 4096))

/-- The rounded `x`. -/
def HB0 (X : Vec F S4096x64 .f32) : Vec F S4096x64 .bf16 := k0_pay1 X

/-- The first step, block by block of 512 rows. -/
def H1 (X : Vec F S4096x64 .f32) (ADJ : Vec F S4096x4096 .f32) : Vec F S4096x64 .f32 := fun y =>
  k0_pay3 (blkA512 (ABs ADJ) (q512 (y 0))) (HB0 X) (blkX512 X (q512 (y 0))) (ix2 (r512 (y 0)) (⟨(y 1).val, (y 1).isLt⟩ : Fin 64))

/-- One later step over the resident adjacency `AB` from the iterate `H`, tile by tile of 1024 rows. -/
def stepT (AB : Vec F S4096x4096 .bf16) (X H : Vec F S4096x64 .f32) : Vec F S4096x64 .f32 := fun y =>
  k0_pay5 (blkA1024 AB (q1024 (y 0))) (k0_pay4 H) (blkX1024 X (q1024 (y 0))) (ix2 (r1024 (y 0)) (⟨(y 1).val, (y 1).isLt⟩ : Fin 64))

/-- `n` later steps after the first. -/
def HN (X : Vec F S4096x64 .f32) (ADJ : Vec F S4096x4096 .f32) : ℕ → Vec F S4096x64 .f32
  | 0 => H1 X ADJ
  | n + 1 => stepT (ABs ADJ) X (HN X ADJ n)

/-- What the kernel's last point leaves in the output's staging buffer: nine later steps. -/
def OUT (X : Vec F S4096x64 .f32) (ADJ : Vec F S4096x4096 .f32) : Vec F S4096x64 .f32 := HN X ADJ 9

end Cert.Kernel.Body

end
-- ==== Proof.K.Blocks.lean ====
/-
  Where the body's computed offsets sit, and what the two input windows' blocks are: at point `t`
  the streamed stores go to rows `[512 t, 512 t + 512)`; the first window's block is all of `x`,
  the second's is rows `[512 t, 512 t + 512)` of the adjacency.
-/
import proofs.«114585_g3178275799597_cont_8to1_b_565_8_alg».proof.Proof.K.Common
import proofs.«114585_g3178275799597_cont_8to1_b_565_8_alg».proof.Proof.K.Spec
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The two argument arrays as the region finds them. -/
abbrev xarr (c : Dev nD) : Vec F S4096x64 .f32 := V m c main_arg0
abbrev adjarr (c : Dev nD) : Vec F S4096x4096 .f32 := V m c main_arg1

/-- The grid has eight points. -/
theorem N8 : cfg0.N = 8 := N_0
/-- A point as a block number. -/
def tq (t : Fin cfg0.N) : Fin 8 := ⟨t.val, lt_of_lt_of_eq t.isLt N8⟩
@[simp] theorem tq_val (t : Fin cfg0.N) : (tq t).val = t.val := rfl

/-- The streamed stores' row offset at point `t`: `512 t`, column 0. -/
theorem off1_eq : ∀ t : Fin cfg0.N, k0_off1 (grid0.coords t) = ![512 * t.val, 0] :=
  (by decide +kernel : ∀ t : Fin grid0.N, k0_off1 (grid0.coords t) = ![512 * t.val, 0])
theorem off2_eq : ∀ t : Fin cfg0.N, k0_off2 (grid0.coords t) = ![512 * t.val, 0] :=
  (by decide +kernel : ∀ t : Fin grid0.N, k0_off2 (grid0.coords t) = ![512 * t.val, 0])

/-- The windows' block indices over the grid: the first and the third stay at block 0, the second
    moves one block of rows per point. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The first window's block is all of `x`. -/
theorem iblk0_eq (c : Dev nD) (t : Fin cfg0.N) : iblk m c 0 t = xarr m c := by
  obtain ⟨e0, e1, -, -, -, -⟩ := idx_facts t
  funext j
  show V m c main_arg0 (((cfg0.win 0).blk t).view.emb j) = V m c main_arg0 j
  refine congrArg _ (funext fun a => Fin.ext ?_)
  match a with
  | ⟨0, _⟩ => show win0_0.index t (0 : Fin 2) * 4096 + 1 * (j 0).val = (j 0).val; omega
  | ⟨1, _⟩ => show win0_0.index t (1 : Fin 2) * 64 + 1 * (j 1).val = (j 1).val; omega

/-- The second window's block at point `t` is rows `[512 t, 512 t + 512)` of the adjacency. -/
theorem iblk1_eq (c : Dev nD) (t : Fin cfg0.N) : iblk m c 1 t = blkA512 (adjarr m c) (tq t) := by
  obtain ⟨-, -, e0, e1, -, -⟩ := idx_facts t
  funext j
  show V m c main_arg1 (((cfg0.win 1).blk t).view.emb j) = V m c main_arg1 _
  refine congrArg _ (funext fun a => Fin.ext ?_)
  match a with
  | ⟨0, _⟩ => show win0_1.index t (0 : Fin 2) * 512 + 1 * (j 0).val = 512 * t.val + (j 0).val; omega
  | ⟨1, _⟩ => show win0_1.index t (1 : Fin 2) * 4096 + 1 * (j 1).val = (j 1).val; omega

end Cert.Kernel.Body

end
-- ==== Proof.K.Data.lean ====
/-
  The region's proof data. Between points the kernel keeps three scratch buffers: the resident
  rounded adjacency `ab`, the running iterate `hf` and its rounded copy `hb`. Before point `n`
  (`0 < n < 8`) the rows below `512 n` of `ab` and of `hf` hold the rounded adjacency and the first
  propagation step, and `hb` holds the rounded `x`; the rows from `512 n` on hold whatever the
  buffers held when the region was entered, which nothing reads before it is overwritten. Before the
  first point and after the last nothing is said of the scratch. The two inputs' staging buffers
  hold their blocks at every point; the output's is stored whole at the last point only, with nine
  more steps after the first.
-/
import proofs.«114585_g3178275799597_cont_8to1_b_565_8_alg».proof.Proof.K.Common
import proofs.«114585_g3178275799597_cont_8to1_b_565_8_alg».proof.Proof.K.Blocks
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the scratch buffers hold before point `n`. -/
def Good (c : Dev nD) (n : ℕ) (ab : Vec F S4096x4096 .bf16) (hf : Vec F S4096x64 .f32) (hb : Vec F S4096x64 .bf16) : Prop :=
  (∀ y : S4096x4096.Idx, (y 0).val < 512 * n → ab y = ABs (adjarr m c) y)
  ∧ (∀ y : S4096x64.Idx, (y 0).val < 512 * n → hf y = H1 (xarr m c) (adjarr m c) y)
  ∧ (1 ≤ n → hb = HB0 (xarr m c))

/-- The invariant between points: the scratch buffers at contents good for the point, the generator
    register at some state. -/
def Inv (c : Dev nD) (n : ℕ) : sProp 𝕄 :=
  iprop((∃ ab hf hb, ⌜Good m c n ab hf hb⌝ ∗ owns (c : Thread nD τ) scA fullShare ab ∗ owns (c : Thread nD τ) scH fullShare hf
      ∗ owns (c : Thread nD τ) scB fullShare hb) ∗ (∃ r, prngReg c r))

/-- Before the first point and after the last: the region's own invariant; in between: `Inv`. -/
def PhiS (c : Dev nD) (n : ℕ) : sProp 𝕄 := if n = 0 ∨ n = 8 then Pipeline.ΦA spec0 c else Inv m c n

theorem PhiS_zero (c : Dev nD) : PhiS m c 0 = Pipeline.ΦA spec0 c := if_pos (Or.inl rfl)
theorem PhiS_last (c : Dev nD) : PhiS m c 8 = Pipeline.ΦA spec0 c := if_pos (Or.inr rfl)
theorem PhiS_mid (c : Dev nD) (n : ℕ) (h0 : n ≠ 0) (h8 : n ≠ 8) : PhiS m c n = Inv m c n :=
  if_neg (fun h => h.elim h0 h8)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => OUT (xarr m c) (adjarr m c)
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = OUT (xarr m c) (adjarr m c) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What the launch hands the region is the invariant before the first point, -/
theorem hin (c : Dev nD) : Pipeline.ΦA spec0 c ⊢ (dats m 0 c).Φ 0 := by
  rw [show (dats m 0 c).Φ 0 = PhiS m c 0 from rfl, PhiS_zero]
  try exact Idealize.SL.BI.Entails.refl _
/-- and the invariant after the last point is what the region gives back. -/
theorem hout (c : Dev nD) : (dats m 0 c).Φ (Fin.last cfg0.N) ⊢ Pipeline.ΦA spec0 c := by
  rw [show (dats m 0 c).Φ (Fin.last cfg0.N) = PhiS m c 8 from rfl, PhiS_last]
  try exact Idealize.SL.BI.Entails.refl _

end Cert.Kernel.Body

end
-- ==== Proof.K.Stream.lean ====
/-
  The streamed part of the body, read back: after the store of a point's rounded block into rows
  `[512 t, 512 t + 512)` of the resident adjacency, and of the first propagation step's rows into
  the same rows of the running iterate, both buffers hold their intended contents (`ABs`, `H1`) on
  every row below `512 (t + 1)`, if they did on every row below `512 t` before. Also what the body's
  loads of whole, untouched buffers read.
-/
import proofs.«114585_g3178275799597_cont_8to1_b_565_8_alg».proof.Proof.K.Common
import proofs.«114585_g3178275799597_cont_8to1_b_565_8_alg».proof.Proof.K.Blocks
import Idealize.ShloMosaic.Lib.WritesUnit
import Idealize.ShloMosaic.Lib.WholeRead
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (X : Vec F S4096x64 .f32) (ADJ : Vec F S4096x4096 .f32)

/-- A load of a whole 512 × 4096 buffer held at `a0` reads `a0`. -/
theorem readAt_whole512 {m2 : Memref sig .tc .vmem S512x4096 .f32} (h2 : m2.IsWhole) (a0 : Vec F S512x4096 .f32) :
    View.readAt (Elt F) m2.view (Rect.unit (s := S512x4096) ![0, 0] S512x4096.size inb_S512x4096_S512x4096_0_0).toLoadRect (h2.unread a0) = a0 := by
  funext x
  rw [h2.readAt_unread]
  refine congrArg a0 (funext fun a => Fin.ext ?_)
  match a with
  | ⟨0, _⟩ => show 0 + 1 * (x 0).val = (x 0).val; omega
  | ⟨1, _⟩ => show 0 + 1 * (x 1).val = (x 1).val; omega

/-- A load of a whole 4096 × 64 buffer held at `v` reads `v` (either element type). -/
theorem readAt_wholeW {e : EltTy} {mW : Memref sig .tc .vmem S4096x64 e} (hW : mW.IsWhole) (v : S4096x64.Idx → Elt F e) :
    View.readAt (Elt F) mW.view (Rect.unit (s := S4096x64) ![0, 0] S4096x64.size inb_S4096x64_S4096x64_0_0).toLoadRect (hW.unread v) = v := by
  funext x
  rw [hW.readAt_unread]
  refine congrArg v (funext fun a => Fin.ext ?_)
  match a with
  | ⟨0, _⟩ => show 0 + 1 * (x 0).val = (x 0).val; omega
  | ⟨1, _⟩ => show 0 + 1 * (x 1).val = (x 1).val; omega

/-- A load of rows `[512 t, 512 t + 512)` of `x`'s buffer held at `x0` reads that block of `x0`. -/
theorem readAt_rows512 {mX : Memref sig .tc .vmem S4096x64 .f32} (hX : mX.IsWhole) (x0 : Vec F S4096x64 .f32) (t : Fin cfg0.N)
    (inb : ∀ a, k0_off2 (grid0.coords t) a + S512x64.size a ≤ S4096x64.size a) :
    View.readAt (Elt F) mX.view (Rect.unit (s := S4096x64) (k0_off2 (grid0.coords t)) S512x64.size inb).toLoadRect (hX.unread x0) = blkX512 x0 (tq t) := by
  funext x
  rw [hX.readAt_unread]
  have h0 : k0_off2 (grid0.coords t) 0 = 512 * t.val := congrFun (off2_eq t) 0
  have h1 : k0_off2 (grid0.coords t) 1 = 0 := congrFun (off2_eq t) 1
  refine congrArg x0 (funext fun a => Fin.ext ?_)
  match a with
  | ⟨0, _⟩ =>
    show k0_off2 (grid0.coords t) 0 + 1 * (x 0).val = 512 * t.val + (x 0).val
    omega
  | ⟨1, _⟩ =>
    show k0_off2 (grid0.coords t) 1 + 1 * (x 1).val = (x 1).val
    omega

/-- The rounded block of `ABs`: rows `[512 t, 512 t + 512)` of `ABs ADJ` are the rounded block `t` of `ADJ`. -/
theorem blk_ABs (t : Fin 8) : blkA512 (ABs ADJ) t = k0_pay2 (blkA512 ADJ t) := by
  funext p
  have hq : q512 (⟨512 * t.val + (p 0).val, by have h : (p 0).val < 512 := (p 0).isLt; have := t.isLt; omega⟩ : Fin 4096) = t :=
    Fin.ext (by show (512 * t.val + (p 0).val) / 512 = t.val; have h : (p 0).val < 512 := (p 0).isLt; omega)
  have hr : r512 (⟨512 * t.val + (p 0).val, by have h : (p 0).val < 512 := (p 0).isLt; have := t.isLt; omega⟩ : Fin 4096) = ⟨(p 0).val, (p 0).isLt⟩ :=
    Fin.ext (by show (512 * t.val + (p 0).val) % 512 = (p 0).val; have h : (p 0).val < 512 := (p 0).isLt; omega)
  show k0_pay2 (blkA512 ADJ (q512 _)) (ix2 (r512 _) _) = _
  rw [hq, hr]
  refine congrArg (k0_pay2 (blkA512 ADJ t)) (funext fun a => Fin.ext ?_)
  match a with
  | ⟨0, _⟩ => rfl
  | ⟨1, _⟩ => rfl

/-- After the point's store the resident adjacency is right on every row below `512 (t + 1)`. -/
theorem stream_ab {mA : Memref sig .tc .vmem S4096x4096 .bf16} (hA : mA.IsWhole) (ab0 : Vec F S4096x4096 .bf16)
    (t : Fin cfg0.N) (inb : ∀ a, k0_off1 (grid0.coords t) a + S512x4096.size a ≤ S4096x4096.size a)
    (w : Vec F S512x4096 .bf16) (hw : w = k0_pay2 (blkA512 ADJ (tq t)))
    (hab : ∀ y : S4096x4096.Idx, (y 0).val < 512 * t.val → ab0 y = ABs ADJ y)
    (y : S4096x4096.Idx) (hy : (y 0).val < 512 * (t.val + 1)) :
    mA.view.read (Elt F) (mA.view.writes (Elt F) (hA.unread ab0)
        [(⟨Rect.unit (s := S4096x4096) (k0_off1 (grid0.coords t)) S512x4096.size inb, w⟩ : View.Piece (Elt F) S4096x4096 .bf16)]) y
      = ABs ADJ y := by
  have hN : t.val < 8 := lt_of_lt_of_eq t.isLt N8
  by_cases hlt : (y 0).val < 512 * t.val
  · rw [View.read_writes_cons_rows_of_not_mem mA.view (hA.unread ab0) inb w [] y (off1_eq t) (W := 512) rfl (Or.inl hlt)]
    rw [View.writes_nil, hA.read_unread]
    exact hab y hlt
  · have hlo : (y 0).val - 512 * t.val < 512 := by omega
    rw [View.read_writes_cons_rows_of_mem mA.view (hA.unread ab0) inb w [] y
      (ix2 (⟨(y 0).val - 512 * t.val, hlo⟩ : Fin 512) (⟨(y 1).val, (y 1).isLt⟩ : Fin 4096)) (off1_eq t)
      (by show (y 0).val = 512 * t.val + ((y 0).val - 512 * t.val); omega) rfl]
    have hq : q512 (y 0) = tq t := Fin.ext (by show (y 0).val / 512 = t.val; omega)
    have hr : r512 (y 0) = (⟨(y 0).val - 512 * t.val, hlo⟩ : Fin 512) :=
      Fin.ext (by show (y 0).val % 512 = (y 0).val - 512 * t.val; omega)
    show _ = k0_pay2 (blkA512 ADJ (q512 (y 0))) (ix2 (r512 (y 0)) (⟨(y 1).val, (y 1).isLt⟩ : Fin 4096))
    rw [hw, hq, hr]

/-- After the point's store the running iterate is the first step on every row below `512 (t + 1)`. -/
theorem stream_hf {mH : Memref sig .tc .vmem S4096x64 .f32} (hH : mH.IsWhole) (hf0 : Vec F S4096x64 .f32)
    (t : Fin cfg0.N) (inb : ∀ a, k0_off2 (grid0.coords t) a + S512x64.size a ≤ S4096x64.size a)
    (v11 : Vec F S512x4096 .bf16) (v12 : Vec F S4096x64 .bf16) (v17 : Vec F S512x64 .f32)
    (h11 : v11 = k0_pay2 (blkA512 ADJ (tq t))) (h12 : v12 = HB0 X) (h17 : v17 = blkX512 X (tq t))
    (hhf : ∀ y : S4096x64.Idx, (y 0).val < 512 * t.val → hf0 y = H1 X ADJ y)
    (y : S4096x64.Idx) (hy : (y 0).val < 512 * (t.val + 1)) :
    mH.view.read (Elt F) (mH.view.writes (Elt F) (hH.unread hf0)
        [(⟨Rect.unit (s := S4096x64) (k0_off2 (grid0.coords t)) S512x64.size inb, k0_pay3 v11 v12 v17⟩ : View.Piece (Elt F) S4096x64 .f32)]) y
      = H1 X ADJ y := by
  have hN : t.val < 8 := lt_of_lt_of_eq t.isLt N8
  by_cases hlt : (y 0).val < 512 * t.val
  · rw [View.read_writes_cons_rows_of_not_mem mH.view (hH.unread hf0) inb (k0_pay3 v11 v12 v17) [] y (off2_eq t) (W := 512) rfl (Or.inl hlt)]
    rw [View.writes_nil, hH.read_unread]
    exact hhf y hlt
  · have hlo : (y 0).val - 512 * t.val < 512 := by omega
    rw [View.read_writes_cons_rows_of_mem mH.view (hH.unread hf0) inb (k0_pay3 v11 v12 v17) [] y
      (ix2 (⟨(y 0).val - 512 * t.val, hlo⟩ : Fin 512) (⟨(y 1).val, (y 1).isLt⟩ : Fin 64)) (off2_eq t)
      (by show (y 0).val = 512 * t.val + ((y 0).val - 512 * t.val); omega) rfl]
    have hq : q512 (y 0) = tq t := Fin.ext (by show (y 0).val / 512 = t.val; omega)
    have hr : r512 (y 0) = (⟨(y 0).val - 512 * t.val, hlo⟩ : Fin 512) :=
      Fin.ext (by show (y 0).val % 512 = (y 0).val - 512 * t.val; omega)
    show _ = k0_pay3 (blkA512 (ABs ADJ) (q512 (y 0))) (HB0 X) (blkX512 X (q512 (y 0))) (ix2 (r512 (y 0)) (⟨(y 1).val, (y 1).isLt⟩ : Fin 64))
    rw [h11, h12, h17, hq, hr, blk_ABs]

end Cert.Kernel.Body

end
-- ==== Proof.K.RunA.lean ====
/-
  The body at the first point (the first branch taken, the second not): on whole memrefs at any
  contents it runs to the end, leaving the two inputs and the output's buffer as they were, and one
  store in each scratch buffer — `x` rounded, the point's block of the adjacency rounded, and the
  first propagation step's rows for that block. The three store lists are found by the symbolic run.
-/
import proofs.«114585_g3178275799597_cont_8to1_b_565_8_alg».proof.Proof.K.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : condInit i) (hc1 : ¬condTail i)
    (x0 : Vec F S4096x64 .f32) (a0 : Vec F S512x4096 .f32) (ab0 : Vec F S4096x4096 .bf16) (hf0 : Vec F S4096x64 .f32) (hb0 : Vec F S4096x64 .bf16) :
    Σ' (L4 : List (View.Piece (Elt F) S4096x4096 .bf16)) (L5 : List (View.Piece (Elt F) S4096x64 .f32)), { L6 : List (View.Piece (Elt F) S4096x64 .bf16) //
      ∀ (o0 : Vec F S4096x64 .f32) (E : Set ℕ) (K : PUnit → sProp 𝕄),
        iprop(owns (c : Thread nD τ) arg1 fullShare x0 ∗ owns (c : Thread nD τ) arg2 fullShare a0 ∗ owns (c : Thread nD τ) arg3 fullShare o0
            ∗ owns (c : Thread nD τ) arg4 fullShare ab0 ∗ owns (c : Thread nD τ) arg5 fullShare hf0 ∗ owns (c : Thread nD τ) arg6 fullShare hb0
            ∗ (iprop(owns (c : Thread nD τ) arg1 fullShare x0 ∗ owns (c : Thread nD τ) arg2 fullShare a0 ∗ owns (c : Thread nD τ) arg3 fullShare o0
                ∗ (arg4.view.loc (c : Thread nD τ) ↦[arg4.view.set]{fullShare} arg4.view.writes (Elt F) (harg4.unread ab0) L4)
                ∗ (arg5.view.loc (c : Thread nD τ) ↦[arg5.view.set]{fullShare} arg5.view.writes (Elt F) (harg5.unread hf0) L5)
                ∗ (arg6.view.loc (c : Thread nD τ) ↦[arg6.view.set]{fullShare} arg6.view.writes (Elt F) (harg6.unread hb0) L6)) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, ?_, fun o0 E K => ?run⟩
  case run =>
    simp only [cc0__appnp_body_eq_skeleton]; unfold cc0__appnp_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    iexact H6

end Cert.Kernel.Body

end
-- ==== Proof.K.RunB.lean ====
/-
  The body at a middle point (neither branch taken): on whole memrefs at any contents it runs to the
  end, leaving the two inputs and the output's buffer as they were, the rounded copy of `x` as it
  was, and one store each in the resident adjacency and in the running iterate — the point's block
  rounded, and the first propagation step's rows for that block. The two store lists are found by
  the symbolic run.
-/
import proofs.«114585_g3178275799597_cont_8to1_b_565_8_alg».proof.Proof.K.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬condInit i) (hc1 : ¬condTail i)
    (x0 : Vec F S4096x64 .f32) (a0 : Vec F S512x4096 .f32) (ab0 : Vec F S4096x4096 .bf16) (hf0 : Vec F S4096x64 .f32) (hb0 : Vec F S4096x64 .bf16) :
    Σ' (L4 : List (View.Piece (Elt F) S4096x4096 .bf16)), { L5 : List (View.Piece (Elt F) S4096x64 .f32) //
      ∀ (o0 : Vec F S4096x64 .f32) (E : Set ℕ) (K : PUnit → sProp 𝕄),
        iprop(owns (c : Thread nD τ) arg1 fullShare x0 ∗ owns (c : Thread nD τ) arg2 fullShare a0 ∗ owns (c : Thread nD τ) arg3 fullShare o0
            ∗ owns (c : Thread nD τ) arg4 fullShare ab0 ∗ owns (c : Thread nD τ) arg5 fullShare hf0 ∗ owns (c : Thread nD τ) arg6 fullShare hb0
            ∗ (iprop(owns (c : Thread nD τ) arg1 fullShare x0 ∗ owns (c : Thread nD τ) arg2 fullShare a0 ∗ owns (c : Thread nD τ) arg3 fullShare o0
                ∗ (arg4.view.loc (c : Thread nD τ) ↦[arg4.view.set]{fullShare} arg4.view.writes (Elt F) (harg4.unread ab0) L4)
                ∗ (arg5.view.loc (c : Thread nD τ) ↦[arg5.view.set]{fullShare} arg5.view.writes (Elt F) (harg5.unread hf0) L5)
                ∗ owns (c : Thread nD τ) arg6 fullShare hb0) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, fun o0 E K => ?run⟩
  case run =>
    simp only [cc0__appnp_body_eq_skeleton]; unfold cc0__appnp_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    iexists _; isplitr; · ipureintro; exact harg6.read_unread _
    iexact H6

end Cert.Kernel.Body

end
-- ==== Proof.K.RunC.lean ====
/-
  The body at the last point (the first branch not taken, the second taken): on whole memrefs at
  any contents it runs to the end — the point's block rounded into the resident adjacency, the first
  step's rows for that block, then nine propagation steps of four tiles each, the last into the
  output's buffer —, leaving the two inputs as they were and a list of stores in the output's buffer
  and in each scratch buffer. The four store lists are found by the symbolic run.
-/
import proofs.«114585_g3178275799597_cont_8to1_b_565_8_alg».proof.Proof.K.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬condInit i) (hc1 : condTail i)
    (x0 : Vec F S4096x64 .f32) (a0 : Vec F S512x4096 .f32) (ab0 : Vec F S4096x4096 .bf16) (hf0 : Vec F S4096x64 .f32) (hb0 : Vec F S4096x64 .bf16) :
    Σ' (L3 : List (View.Piece (Elt F) S4096x64 .f32)) (L4 : List (View.Piece (Elt F) S4096x4096 .bf16)) (L5 : List (View.Piece (Elt F) S4096x64 .f32)), { L6 : List (View.Piece (Elt F) S4096x64 .bf16) //
      ∀ (o0 : Vec F S4096x64 .f32) (E : Set ℕ) (K : PUnit → sProp 𝕄),
        iprop(owns (c : Thread nD τ) arg1 fullShare x0 ∗ owns (c : Thread nD τ) arg2 fullShare a0 ∗ owns (c : Thread nD τ) arg3 fullShare o0
            ∗ owns (c : Thread nD τ) arg4 fullShare ab0 ∗ owns (c : Thread nD τ) arg5 fullShare hf0 ∗ owns (c : Thread nD τ) arg6 fullShare hb0
            ∗ (iprop(owns (c : Thread nD τ) arg1 fullShare x0 ∗ owns (c : Thread nD τ) arg2 fullShare a0
                ∗ (arg3.view.loc (c : Thread nD τ) ↦[arg3.view.set]{fullShare} arg3.view.writes (Elt F) (harg3.unread o0) L3)
                ∗ (arg4.view.loc (c : Thread nD τ) ↦[arg4.view.set]{fullShare} arg4.view.writes (Elt F) (harg4.unread ab0) L4)
                ∗ (arg5.view.loc (c : Thread nD τ) ↦[arg5.view.set]{fullShare} arg5.view.writes (Elt F) (harg5.unread hf0) L5)
                ∗ (arg6.view.loc (c : Thread nD τ) ↦[arg6.view.set]{fullShare} arg6.view.writes (Elt F) (harg6.unread hb0) L6)) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, ?_, ?_, fun o0 E K => ?run⟩
  case run =>
    simp only [cc0__appnp_body_eq_skeleton]; unfold cc0__appnp_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec_parts (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    iexact H6

end Cert.Kernel.Body

end
-- ==== Proof.K.Tiles.lean ====
/-
  One propagation step as the body's tail lays it out: four stores of 1024 rows each into a
  4096 × 64 buffer, tile `k` holding the scaled product of rows `[1024 k, 1024 k + 1024)` of the
  resident adjacency with the rounded iterate, plus the scaled rows of `x`. Whatever was stored
  before them, the four tiles leave the buffer at `stepT` of the adjacency, `x` and the iterate.
-/
import proofs.«114585_g3178275799597_cont_8to1_b_565_8_alg».proof.Proof.K.Common
import proofs.«114585_g3178275799597_cont_8to1_b_565_8_alg».proof.Proof.K.Spec
import Idealize.ShloMosaic.Lib.Pipeline.CanonAppend
import Idealize.ShloMosaic.Lib.WholeRead
import Idealize.ShloMosaic.Lib.Pipeline.Value
import Idealize.ShloMosaic.Lib.WritesUnit
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The four tiles of the 4096 × 64 buffers, the four row tiles of the resident adjacency, and the
    whole 4096 × 64 rectangle, as the body spells them. -/
abbrev RT0 : Rect S4096x64 := Rect.unit ![0, 0] S1024x64.size inb_S4096x64_S1024x64_0_0
abbrev RT1 : Rect S4096x64 := Rect.unit ![1024, 0] S1024x64.size inb_S4096x64_S1024x64_1024_0
abbrev RT2 : Rect S4096x64 := Rect.unit ![2048, 0] S1024x64.size inb_S4096x64_S1024x64_2048_0
abbrev RT3 : Rect S4096x64 := Rect.unit ![3072, 0] S1024x64.size inb_S4096x64_S1024x64_3072_0
abbrev RA0 : Rect S4096x4096 := Rect.unit ![0, 0] S1024x4096.size inb_S4096x4096_S1024x4096_0_0
abbrev RA1 : Rect S4096x4096 := Rect.unit ![1024, 0] S1024x4096.size inb_S4096x4096_S1024x4096_1024_0
abbrev RA2 : Rect S4096x4096 := Rect.unit ![2048, 0] S1024x4096.size inb_S4096x4096_S1024x4096_2048_0
abbrev RA3 : Rect S4096x4096 := Rect.unit ![3072, 0] S1024x4096.size inb_S4096x4096_S1024x4096_3072_0
abbrev RW : Rect S4096x64 := Rect.unit ![0, 0] S4096x64.size inb_S4096x64_S4096x64_0_0

/-- A tile's payload is the step's value on the tile's rows: rows `[o, o + 1024)` with `o = 1024 k`. -/
theorem tile_gen {mA : Memref sig .tc .vmem S4096x4096 .bf16} (fA : mA.view.ty.Contents (Elt F))
    {mX : Memref sig .tc .vmem S4096x64 .f32} (hX : mX.IsWhole) (x0 H : Vec F S4096x64 .f32)
    (o : Nat) (k : Fin 4) (ho : o = 1024 * k.val)
    (inbA : ∀ a, (![o, 0] : Fin 2 → Nat) a + S1024x4096.size a ≤ S4096x4096.size a)
    (inbX : ∀ a, (![o, 0] : Fin 2 → Nat) a + S1024x64.size a ≤ S4096x64.size a)
    (x : (Rect.unit (s := S4096x64) ![o, 0] S1024x64.size inbX).shape.Idx) :
    k0_pay5 (View.readAt (Elt F) mA.view (Rect.unit (s := S4096x4096) ![o, 0] S1024x4096.size inbA).toLoadRect fA) (k0_pay4 H)
        (View.readAt (Elt F) mX.view (Rect.unit (s := S4096x64) ![o, 0] S1024x64.size inbX).toLoadRect (hX.unread x0)) x
      = stepT (mA.view.read (Elt F) fA) x0 H ((Rect.unit (s := S4096x64) ![o, 0] S1024x64.size inbX).emb x) := by
  subst ho
  have hx0 : (x 0).val < 1024 := (x 0).isLt
  have hk := k.isLt
  have hy0 : (((Rect.unit (s := S4096x64) ![1024 * k.val, 0] S1024x64.size inbX).emb x) 0).val = 1024 * k.val + (x 0).val := by
    show 1024 * k.val + 1 * (x 0).val = _; omega
  have hy1 : (((Rect.unit (s := S4096x64) ![1024 * k.val, 0] S1024x64.size inbX).emb x) 1).val = (x 1).val := by
    show 0 + 1 * (x 1).val = _; omega
  have hq : q1024 (((Rect.unit (s := S4096x64) ![1024 * k.val, 0] S1024x64.size inbX).emb x) 0) = k :=
    Fin.ext (by show _ / 1024 = k.val; rw [hy0]; omega)
  have hr : r1024 (((Rect.unit (s := S4096x64) ![1024 * k.val, 0] S1024x64.size inbX).emb x) 0) = (⟨(x 0).val, hx0⟩ : Fin 1024) :=
    Fin.ext (by show _ % 1024 = (x 0).val; rw [hy0]; omega)
  unfold stepT
  rw [hq, hr]
  have hA : View.readAt (Elt F) mA.view (Rect.unit (s := S4096x4096) ![1024 * k.val, 0] S1024x4096.size inbA).toLoadRect fA
      = blkA1024 (mA.view.read (Elt F) fA) k := by
    funext p
    show mA.view.read (Elt F) fA ((Rect.unit (s := S4096x4096) ![1024 * k.val, 0] S1024x4096.size inbA).emb p) = _
    unfold blkA1024
    refine congrArg _ (funext fun a => Fin.ext ?_)
    match a with
    | ⟨0, _⟩ => show 1024 * k.val + 1 * (p 0).val = 1024 * k.val + (p 0).val; omega
    | ⟨1, _⟩ => show 0 + 1 * (p 1).val = (p 1).val; omega
  have hC : View.readAt (Elt F) mX.view (Rect.unit (s := S4096x64) ![1024 * k.val, 0] S1024x64.size inbX).toLoadRect (hX.unread x0)
      = blkX1024 x0 k := by
    funext p
    refine (hX.readAt_unread x0 _ p).trans ?_
    unfold blkX1024
    refine congrArg _ (funext fun a => Fin.ext ?_)
    match a with
    | ⟨0, _⟩ => show 1024 * k.val + 1 * (p 0).val = 1024 * k.val + (p 0).val; omega
    | ⟨1, _⟩ => show 0 + 1 * (p 1).val = (p 1).val; omega
  rw [hA, hC]
  refine congrArg _ (funext fun a => Fin.ext ?_)
  match a with
  | ⟨0, _⟩ => rfl
  | ⟨1, _⟩ => exact hy1.symm

/-- The same with the rounded iterate given by an equation. -/
theorem tile_of_hb {mA : Memref sig .tc .vmem S4096x4096 .bf16} (fA : mA.view.ty.Contents (Elt F))
    {mX : Memref sig .tc .vmem S4096x64 .f32} (hX : mX.IsWhole) (x0 H : Vec F S4096x64 .f32)
    (hbv : Vec F S4096x64 .bf16) (hhb : hbv = k0_pay4 H)
    (o : Nat) (k : Fin 4) (ho : o = 1024 * k.val)
    (inbA : ∀ a, (![o, 0] : Fin 2 → Nat) a + S1024x4096.size a ≤ S4096x4096.size a)
    (inbX : ∀ a, (![o, 0] : Fin 2 → Nat) a + S1024x64.size a ≤ S4096x64.size a)
    (x : (Rect.unit (s := S4096x64) ![o, 0] S1024x64.size inbX).shape.Idx) :
    k0_pay5 (View.readAt (Elt F) mA.view (Rect.unit (s := S4096x4096) ![o, 0] S1024x4096.size inbA).toLoadRect fA) hbv
        (View.readAt (Elt F) mX.view (Rect.unit (s := S4096x64) ![o, 0] S1024x64.size inbX).toLoadRect (hX.unread x0)) x
      = stepT (mA.view.read (Elt F) fA) x0 H ((Rect.unit (s := S4096x64) ![o, 0] S1024x64.size inbX).emb x) := by
  subst hhb; exact tile_gen fA hX x0 H o k ho inbA inbX x

/-- The last step's tiles go to the output's buffer without the shape cast the others pass through;
    a shape cast of a shape to itself changes nothing. -/
theorem pay_out_eq (A : Vec F S1024x4096 .bf16) (B : Vec F S4096x64 .bf16) (C : Vec F S1024x64 .f32) :
    k0_pay55 A B C = k0_pay5 A B C :=
  (shapeCast_self (k0_pay55 A B C) shapeCasts_S1024x64_S1024x64).symm

theorem tile_out_of_hb {mA : Memref sig .tc .vmem S4096x4096 .bf16} (fA : mA.view.ty.Contents (Elt F))
    {mX : Memref sig .tc .vmem S4096x64 .f32} (hX : mX.IsWhole) (x0 H : Vec F S4096x64 .f32)
    (hbv : Vec F S4096x64 .bf16) (hhb : hbv = k0_pay4 H)
    (o : Nat) (k : Fin 4) (ho : o = 1024 * k.val)
    (inbA : ∀ a, (![o, 0] : Fin 2 → Nat) a + S1024x4096.size a ≤ S4096x4096.size a)
    (inbX : ∀ a, (![o, 0] : Fin 2 → Nat) a + S1024x64.size a ≤ S4096x64.size a)
    (x : (Rect.unit (s := S4096x64) ![o, 0] S1024x64.size inbX).shape.Idx) :
    k0_pay55 (View.readAt (Elt F) mA.view (Rect.unit (s := S4096x4096) ![o, 0] S1024x4096.size inbA).toLoadRect fA) hbv
        (View.readAt (Elt F) mX.view (Rect.unit (s := S4096x64) ![o, 0] S1024x64.size inbX).toLoadRect (hX.unread x0)) x
      = stepT (mA.view.read (Elt F) fA) x0 H ((Rect.unit (s := S4096x64) ![o, 0] S1024x64.size inbX).emb x) := by
  rw [pay_out_eq]; exact tile_of_hb fA hX x0 H hbv hhb o k ho inbA inbX x

/-- The four tiles cover the 4096 rows. -/
theorem cover_tiles4 (w0 : RT0.shape.Idx → Elt F .f32) (w1 : RT1.shape.Idx → Elt F .f32) (w2 : RT2.shape.Idx → Elt F .f32)
    (w3 : RT3.shape.Idx → Elt F .f32) (y : S4096x64.Idx) :
    ∃ p ∈ [(⟨RT3, w3⟩ : View.Piece (Elt F) S4096x64 .f32), ⟨RT2, w2⟩, ⟨RT1, w1⟩, ⟨RT0, w0⟩], y ∈ p.1.set := by
  have hy : (y 0).val < 4096 := (y 0).isLt
  by_cases c3 : 3072 ≤ (y 0).val
  · exact ⟨⟨RT3, w3⟩, by simp, (Rect.mem_set_unit (s := S4096x64) (off := ![3072, 0]) (size := S1024x64.size) (inb := inb_S4096x64_S1024x64_3072_0)).mpr (Rect.unit_rows_mem y (W := 1024) rfl rfl ⟨c3, by omega⟩)⟩
  by_cases c2 : 2048 ≤ (y 0).val
  · exact ⟨⟨RT2, w2⟩, by simp, (Rect.mem_set_unit (s := S4096x64) (off := ![2048, 0]) (size := S1024x64.size) (inb := inb_S4096x64_S1024x64_2048_0)).mpr (Rect.unit_rows_mem y (W := 1024) rfl rfl ⟨c2, by omega⟩)⟩
  by_cases c1 : 1024 ≤ (y 0).val
  · exact ⟨⟨RT1, w1⟩, by simp, (Rect.mem_set_unit (s := S4096x64) (off := ![1024, 0]) (size := S1024x64.size) (inb := inb_S4096x64_S1024x64_1024_0)).mpr (Rect.unit_rows_mem y (W := 1024) rfl rfl ⟨c1, by omega⟩)⟩
  · exact ⟨⟨RT0, w0⟩, by simp, (Rect.mem_set_unit (s := S4096x64) (off := ![0, 0]) (size := S1024x64.size) (inb := inb_S4096x64_S1024x64_0_0)).mpr (Rect.unit_rows_mem y (W := 1024) rfl rfl ⟨Nat.zero_le _, by omega⟩)⟩

/-- Four tiles, the newest first, over any earlier stores: where each tile's payload is `G` on its
    rows, the stores leave `G`. -/
theorem canon_tiles4 (G : S4096x64.Idx → Elt F .f32)
    (w0 : RT0.shape.Idx → Elt F .f32) (w1 : RT1.shape.Idx → Elt F .f32) (w2 : RT2.shape.Idx → Elt F .f32)
    (w3 : RT3.shape.Idx → Elt F .f32)
    (h0 : ∀ x, w0 x = G (RT0.emb x)) (h1 : ∀ x, w1 x = G (RT1.emb x)) (h2 : ∀ x, w2 x = G (RT2.emb x))
    (h3 : ∀ x, w3 x = G (RT3.emb x)) (L : List (View.Piece (Elt F) S4096x64 .f32)) :
    View.canon ((⟨RT3, w3⟩ : View.Piece (Elt F) S4096x64 .f32) :: ⟨RT2, w2⟩ :: ⟨RT1, w1⟩ :: ⟨RT0, w0⟩ :: L) = G := by
  funext y
  refine View.canon_append_of_pieces G L [(⟨RT3, w3⟩ : View.Piece (Elt F) S4096x64 .f32), ⟨RT2, w2⟩, ⟨RT1, w1⟩, ⟨RT0, w0⟩] ?_ y
    (cover_tiles4 w0 w1 w2 w3 y)
  intro p hp x
  simp only [List.mem_cons, List.not_mem_nil, or_false] at hp
  rcases hp with rfl | rfl | rfl | rfl
  exacts [h3 x, h2 x, h1 x, h0 x]

/-- A load of the whole buffer after such stores reads `G`. -/
theorem readCov_tiles4 {mH : Memref sig .tc .vmem S4096x64 .f32} (G : S4096x64.Idx → Elt F .f32)
    (w0 : RT0.shape.Idx → Elt F .f32) (w1 : RT1.shape.Idx → Elt F .f32) (w2 : RT2.shape.Idx → Elt F .f32)
    (w3 : RT3.shape.Idx → Elt F .f32)
    (h0 : ∀ x, w0 x = G (RT0.emb x)) (h1 : ∀ x, w1 x = G (RT1.emb x)) (h2 : ∀ x, w2 x = G (RT2.emb x))
    (h3 : ∀ x, w3 x = G (RT3.emb x)) (L : List (View.Piece (Elt F) S4096x64 .f32)) :
    mH.view.readCov ((⟨RT3, w3⟩ : View.Piece (Elt F) S4096x64 .f32) :: ⟨RT2, w2⟩ :: ⟨RT1, w1⟩ :: ⟨RT0, w0⟩ :: L) RW.toLoadRect = G := by
  rw [View.readCov_eq_canon_ld _ _ RW (fun y => by
    obtain ⟨p, hp, hy⟩ := cover_tiles4 w0 w1 w2 w3 y
    exact ⟨p, by simp only [List.mem_cons, List.not_mem_nil, or_false] at hp ⊢; rcases hp with h | h | h | h <;> simp [h], hy⟩),
    canon_tiles4 G w0 w1 w2 w3 h0 h1 h2 h3 L]
  exact View.ld_unit_zero (S := S4096x64) (funext fun a => by fin_cases a <;> rfl) _ G

/-- The buffer itself, read whole, after such stores and nothing else: `G`. -/
theorem read_tiles4 {mO : Memref sig .tc .vmem S4096x64 .f32} (f : mO.view.ty.Contents (Elt F)) (G : S4096x64.Idx → Elt F .f32)
    (w0 : RT0.shape.Idx → Elt F .f32) (w1 : RT1.shape.Idx → Elt F .f32) (w2 : RT2.shape.Idx → Elt F .f32)
    (w3 : RT3.shape.Idx → Elt F .f32)
    (h0 : ∀ x, w0 x = G (RT0.emb x)) (h1 : ∀ x, w1 x = G (RT1.emb x)) (h2 : ∀ x, w2 x = G (RT2.emb x))
    (h3 : ∀ x, w3 x = G (RT3.emb x)) :
    mO.view.read (Elt F) (mO.view.writes (Elt F) f [(⟨RT3, w3⟩ : View.Piece (Elt F) S4096x64 .f32), ⟨RT2, w2⟩, ⟨RT1, w1⟩, ⟨RT0, w0⟩]) = G := by
  rw [View.read_writes_eq_canon _ _ _ (cover_tiles4 w0 w1 w2 w3)]
  exact canon_tiles4 G w0 w1 w2 w3 h0 h1 h2 h3 []

/-- One tail step, as a load of the whole iterate reads it back: four tile stores of the step's
    payload over the resident adjacency `fA`, the rounded iterate `hbv` (the rounding of `H`) and
    `x0`, over any earlier stores, read `stepT` of the three. -/
theorem readCov_step {mA : Memref sig .tc .vmem S4096x4096 .bf16} (fA : mA.view.ty.Contents (Elt F))
    {mX : Memref sig .tc .vmem S4096x64 .f32} (hX : mX.IsWhole) (x0 H : Vec F S4096x64 .f32)
    (hbv : Vec F S4096x64 .bf16) (hhb : hbv = k0_pay4 H)
    {mH : Memref sig .tc .vmem S4096x64 .f32} (L : List (View.Piece (Elt F) S4096x64 .f32)) :
    mH.view.readCov ((⟨RT3, k0_pay5 (View.readAt (Elt F) mA.view RA3.toLoadRect fA) hbv (View.readAt (Elt F) mX.view RT3.toLoadRect (hX.unread x0))⟩ : View.Piece (Elt F) S4096x64 .f32)
        :: ⟨RT2, k0_pay5 (View.readAt (Elt F) mA.view RA2.toLoadRect fA) hbv (View.readAt (Elt F) mX.view RT2.toLoadRect (hX.unread x0))⟩
        :: ⟨RT1, k0_pay5 (View.readAt (Elt F) mA.view RA1.toLoadRect fA) hbv (View.readAt (Elt F) mX.view RT1.toLoadRect (hX.unread x0))⟩
        :: ⟨RT0, k0_pay5 (View.readAt (Elt F) mA.view RA0.toLoadRect fA) hbv (View.readAt (Elt F) mX.view RT0.toLoadRect (hX.unread x0))⟩ :: L) RW.toLoadRect
      = stepT (mA.view.read (Elt F) fA) x0 H :=
  readCov_tiles4 _ _ _ _ _
    (fun x => tile_of_hb fA hX x0 H hbv hhb 0 0 rfl _ _ x)
    (fun x => tile_of_hb fA hX x0 H hbv hhb 1024 1 rfl _ _ x)
    (fun x => tile_of_hb fA hX x0 H hbv hhb 2048 2 rfl _ _ x)
    (fun x => tile_of_hb fA hX x0 H hbv hhb 3072 3 rfl _ _ x) L

/-- The last tail step, as the output's buffer holds it: the four tile stores, whatever the buffer
    held before. -/
theorem read_step_out {mA : Memref sig .tc .vmem S4096x4096 .bf16} (fA : mA.view.ty.Contents (Elt F))
    {mX : Memref sig .tc .vmem S4096x64 .f32} (hX : mX.IsWhole) (x0 H : Vec F S4096x64 .f32)
    (hbv : Vec F S4096x64 .bf16) (hhb : hbv = k0_pay4 H)
    {mO : Memref sig .tc .vmem S4096x64 .f32} (f : mO.view.ty.Contents (Elt F)) :
    mO.view.read (Elt F) (mO.view.writes (Elt F) f [(⟨RT3, k0_pay55 (View.readAt (Elt F) mA.view RA3.toLoadRect fA) hbv (View.readAt (Elt F) mX.view RT3.toLoadRect (hX.unread x0))⟩ : View.Piece (Elt F) S4096x64 .f32),
        ⟨RT2, k0_pay55 (View.readAt (Elt F) mA.view RA2.toLoadRect fA) hbv (View.readAt (Elt F) mX.view RT2.toLoadRect (hX.unread x0))⟩,
        ⟨RT1, k0_pay55 (View.readAt (Elt F) mA.view RA1.toLoadRect fA) hbv (View.readAt (Elt F) mX.view RT1.toLoadRect (hX.unread x0))⟩,
        ⟨RT0, k0_pay55 (View.readAt (Elt F) mA.view RA0.toLoadRect fA) hbv (View.readAt (Elt F) mX.view RT0.toLoadRect (hX.unread x0))⟩])
      = stepT (mA.view.read (Elt F) fA) x0 H :=
  read_tiles4 f _ _ _ _ _
    (fun x => tile_out_of_hb fA hX x0 H hbv hhb 0 0 rfl _ _ x)
    (fun x => tile_out_of_hb fA hX x0 H hbv hhb 1024 1 rfl _ _ x)
    (fun x => tile_out_of_hb fA hX x0 H hbv hhb 2048 2 rfl _ _ x)
    (fun x => tile_out_of_hb fA hX x0 H hbv hhb 3072 3 rfl _ _ x)

/-- A load of the whole rounded iterate after its whole store reads what was stored. -/
theorem readCov_whole {mB : Memref sig .tc .vmem S4096x64 .bf16} (w : RW.shape.Idx → Elt F .bf16)
    (L : List (View.Piece (Elt F) S4096x64 .bf16)) :
    mB.view.readCov ((⟨RW, w⟩ : View.Piece (Elt F) S4096x64 .bf16) :: L) RW.toLoadRect = w :=
  View.readCov_cons_toLoadRect _ RW w L

end Cert.Kernel.Body

end
-- ==== Proof.K.TailC.lean ====
/-
  The last point's nine tail steps, read off the symbolic run: each step first rounds the running
  iterate into `hb`, then overwrites the iterate tile by tile with the step's value; so each whole
  load of the iterate reads one more `stepT` of the one before, and the four tiles stored into the
  output's buffer hold the ninth. Nothing here depends on what the buffers held at entry: the
  statements are about the run's own values, for any memrefs and any contents.
-/
import proofs.«114585_g3178275799597_cont_8to1_b_565_8_alg».proof.Proof.K.Common
import proofs.«114585_g3178275799597_cont_8to1_b_565_8_alg».proof.Proof.K.RunC
import proofs.«114585_g3178275799597_cont_8to1_b_565_8_alg».proof.Proof.K.Tiles
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole)
  (hc0 : ¬condInit i) (hc1 : condTail i)
  (x0 : Vec F S4096x64 .f32) (a0 : Vec F S512x4096 .f32) (ab0 : Vec F S4096x4096 .bf16) (hf0 : Vec F S4096x64 .f32) (hb0 : Vec F S4096x64 .bf16)

/-- The resident adjacency's raw contents after the point's store. -/
local notation "AB1c" => arg4.view.writes (Elt F) (harg4.unread ab0) (runC.sl.H4_1 c i arg2 harg2 a0)
/-- The resident adjacency as the tail's loads read it. -/
local notation "ABf" => arg4.view.read (Elt F) AB1c

/-- The iterate as each tail step loads it (nine loads), -/
local notation "hfv0" => runC.sl.v28 c i arg1 harg1 arg2 harg2 arg4 arg5 harg5 arg6 harg6 x0 a0 hf0 hb0
local notation "hfv1" => runC.sl.v81 c i arg1 harg1 arg2 harg2 arg4 harg4 arg5 harg5 arg6 harg6 x0 a0 ab0 hf0 hb0
local notation "hfv2" => runC.sl.v134 c i arg1 harg1 arg2 harg2 arg4 harg4 arg5 harg5 arg6 harg6 x0 a0 ab0 hf0 hb0
local notation "hfv3" => runC.sl.v187 c i arg1 harg1 arg2 harg2 arg4 harg4 arg5 harg5 arg6 harg6 x0 a0 ab0 hf0 hb0
local notation "hfv4" => runC.sl.v240 c i arg1 harg1 arg2 harg2 arg4 harg4 arg5 harg5 arg6 harg6 x0 a0 ab0 hf0 hb0
local notation "hfv5" => runC.sl.v293 c i arg1 harg1 arg2 harg2 arg4 harg4 arg5 harg5 arg6 harg6 x0 a0 ab0 hf0 hb0
local notation "hfv6" => runC.sl.v346 c i arg1 harg1 arg2 harg2 arg4 harg4 arg5 harg5 arg6 harg6 x0 a0 ab0 hf0 hb0
local notation "hfv7" => runC.sl.v399 c i arg1 harg1 arg2 harg2 arg4 harg4 arg5 harg5 arg6 harg6 x0 a0 ab0 hf0 hb0
local notation "hfv8" => runC.sl.v452 c i arg1 harg1 arg2 harg2 arg4 harg4 arg5 harg5 arg6 harg6 x0 a0 ab0 hf0 hb0
/-- and its rounded copy as each step's products load it. -/
local notation "hbv0" => runC.sl.v34 c i arg1 harg1 arg2 harg2 arg4 arg5 harg5 arg6 harg6 x0 a0 hf0 hb0
local notation "hbv1" => runC.sl.v87 c i arg1 harg1 arg2 harg2 arg4 harg4 arg5 harg5 arg6 harg6 x0 a0 ab0 hf0 hb0
local notation "hbv2" => runC.sl.v140 c i arg1 harg1 arg2 harg2 arg4 harg4 arg5 harg5 arg6 harg6 x0 a0 ab0 hf0 hb0
local notation "hbv3" => runC.sl.v193 c i arg1 harg1 arg2 harg2 arg4 harg4 arg5 harg5 arg6 harg6 x0 a0 ab0 hf0 hb0
local notation "hbv4" => runC.sl.v246 c i arg1 harg1 arg2 harg2 arg4 harg4 arg5 harg5 arg6 harg6 x0 a0 ab0 hf0 hb0
local notation "hbv5" => runC.sl.v299 c i arg1 harg1 arg2 harg2 arg4 harg4 arg5 harg5 arg6 harg6 x0 a0 ab0 hf0 hb0
local notation "hbv6" => runC.sl.v352 c i arg1 harg1 arg2 harg2 arg4 harg4 arg5 harg5 arg6 harg6 x0 a0 ab0 hf0 hb0
local notation "hbv7" => runC.sl.v405 c i arg1 harg1 arg2 harg2 arg4 harg4 arg5 harg5 arg6 harg6 x0 a0 ab0 hf0 hb0
local notation "hbv8" => runC.sl.v458 c i arg1 harg1 arg2 harg2 arg4 harg4 arg5 harg5 arg6 harg6 x0 a0 ab0 hf0 hb0

/-! ## The rounded copy is the rounding of the iterate just loaded -/

theorem hb_0 : hbv0 = k0_pay4 hfv0 := readCov_whole _ _
theorem hb_1 : hbv1 = k0_pay4 hfv1 := readCov_whole _ _
theorem hb_2 : hbv2 = k0_pay4 hfv2 := readCov_whole _ _
theorem hb_3 : hbv3 = k0_pay4 hfv3 := readCov_whole _ _
theorem hb_4 : hbv4 = k0_pay4 hfv4 := readCov_whole _ _
theorem hb_5 : hbv5 = k0_pay4 hfv5 := readCov_whole _ _
theorem hb_6 : hbv6 = k0_pay4 hfv6 := readCov_whole _ _
theorem hb_7 : hbv7 = k0_pay4 hfv7 := readCov_whole _ _
theorem hb_8 : hbv8 = k0_pay4 hfv8 := readCov_whole _ _

/-! ## Each load of the iterate reads one more step -/

theorem hf_1 : hfv1 = stepT ABf x0 hfv0 :=
  readCov_step AB1c harg1 x0 _ _ (hb_0 c i arg1 harg1 arg2 harg2 arg4 arg5 harg5 arg6 harg6 x0 a0 hf0 hb0) _
theorem hf_2 : hfv2 = stepT ABf x0 hfv1 :=
  readCov_step AB1c harg1 x0 _ _ (hb_1 c i arg1 harg1 arg2 harg2 arg4 harg4 arg5 harg5 arg6 harg6 x0 a0 ab0 hf0 hb0) _
theorem hf_3 : hfv3 = stepT ABf x0 hfv2 :=
  readCov_step AB1c harg1 x0 _ _ (hb_2 c i arg1 harg1 arg2 harg2 arg4 harg4 arg5 harg5 arg6 harg6 x0 a0 ab0 hf0 hb0) _
theorem hf_4 : hfv4 = stepT ABf x0 hfv3 :=
  readCov_step AB1c harg1 x0 _ _ (hb_3 c i arg1 harg1 arg2 harg2 arg4 harg4 arg5 harg5 arg6 harg6 x0 a0 ab0 hf0 hb0) _
theorem hf_5 : hfv5 = stepT ABf x0 hfv4 :=
  readCov_step AB1c harg1 x0 _ _ (hb_4 c i arg1 harg1 arg2 harg2 arg4 harg4 arg5 harg5 arg6 harg6 x0 a0 ab0 hf0 hb0) _
theorem hf_6 : hfv6 = stepT ABf x0 hfv5 :=
  readCov_step AB1c harg1 x0 _ _ (hb_5 c i arg1 harg1 arg2 harg2 arg4 harg4 arg5 harg5 arg6 harg6 x0 a0 ab0 hf0 hb0) _
theorem hf_7 : hfv7 = stepT ABf x0 hfv6 :=
  readCov_step AB1c harg1 x0 _ _ (hb_6 c i arg1 harg1 arg2 harg2 arg4 harg4 arg5 harg5 arg6 harg6 x0 a0 ab0 hf0 hb0) _
theorem hf_8 : hfv8 = stepT ABf x0 hfv7 :=
  readCov_step AB1c harg1 x0 _ _ (hb_7 c i arg1 harg1 arg2 harg2 arg4 harg4 arg5 harg5 arg6 harg6 x0 a0 ab0 hf0 hb0) _

/-! ## The output's buffer -/

/-- The four tiles stored into the output's buffer hold the ninth step. -/
theorem out_tiles (f3 : arg3.view.ty.Contents (Elt F)) :
    arg3.view.read (Elt F) (arg3.view.writes (Elt F) f3 (runC c i arg1 harg1 arg2 harg2 arg3 harg3 arg4 harg4 arg5 harg5 arg6 harg6 hc0 hc1 x0 a0 ab0 hf0 hb0).1) = stepT ABf x0 hfv8 :=
  read_step_out AB1c harg1 x0 _ _ (hb_8 c i arg1 harg1 arg2 harg2 arg4 harg4 arg5 harg5 arg6 harg6 x0 a0 ab0 hf0 hb0) f3
/-- The output's buffer after the last point: nine steps over the resident adjacency from the
    iterate the tail starts from. -/
theorem tail_eq (AB : Vec F S4096x4096 .bf16) (H0 : Vec F S4096x64 .f32) (hAB : ABf = AB) (hH : hfv0 = H0)
    (f3 : arg3.view.ty.Contents (Elt F)) :
    arg3.view.read (Elt F) (arg3.view.writes (Elt F) f3 (runC c i arg1 harg1 arg2 harg2 arg3 harg3 arg4 harg4 arg5 harg5 arg6 harg6 hc0 hc1 x0 a0 ab0 hf0 hb0).1)
      = stepT AB x0 (stepT AB x0 (stepT AB x0 (stepT AB x0 (stepT AB x0 (stepT AB x0 (stepT AB x0 (stepT AB x0 (stepT AB x0 H0)))))))) := by
  rw [out_tiles, hf_8, hf_7, hf_6, hf_5, hf_4, hf_3, hf_2, hf_1, hAB, hH]

end

end Cert.Kernel.Body

end
-- ==== Proof.K.Good.lean ====
/-
  The invariant is kept: with the scratch buffers good for point `t`, what the body's stores leave
  in them is good for point `t + 1`; and at the last point the four tiles stored into the output's
  buffer hold nine more steps after the first.
-/
import proofs.«114585_g3178275799597_cont_8to1_b_565_8_alg».proof.Proof.K.Common
import proofs.«114585_g3178275799597_cont_8to1_b_565_8_alg».proof.Proof.K.Data
import proofs.«114585_g3178275799597_cont_8to1_b_565_8_alg».proof.Proof.K.Stream
import proofs.«114585_g3178275799597_cont_8to1_b_565_8_alg».proof.Proof.K.RunA
import proofs.«114585_g3178275799597_cont_8to1_b_565_8_alg».proof.Proof.K.RunB
import proofs.«114585_g3178275799597_cont_8to1_b_565_8_alg».proof.Proof.K.TailC
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- After the first point: `x` rounded, the first block rounded, the first step's first block. -/
theorem goodA (c : Dev nD) (t : Fin cfg0.N) (ht : t.val = 0) (hcI : condInit (grid0.coords t)) (hcT : ¬condTail (grid0.coords t))
    (ab0 : Vec F S4096x4096 .bf16) (hf0 : Vec F S4096x64 .f32) (hb0 : Vec F S4096x64 .bf16) :
    Good m c 1
      (scA.view.read (Elt F) (scA.view.writes (Elt F) ((Memref.isWhole_whole cc0_scratch0).unread ab0)
        (runA c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).1))
      (scH.view.read (Elt F) (scH.view.writes (Elt F) ((Memref.isWhole_whole cc0_scratch1).unread hf0)
        (runA c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.1))
      (scB.view.read (Elt F) (scB.view.writes (Elt F) ((Memref.isWhole_whole cc0_scratch2).unread hb0)
        (runA c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.2.1)) := by
  have hV12 : runA.sl.v12 c (ms0 t) (hs0 t) scB (iblk m c 0 t) = HB0 (xarr m c) := by
    show scB.view.readCov (runA.sl.H6_1 c (ms0 t) (hs0 t) (iblk m c 0 t)) _ = _
    refine (View.readCov_cons_toLoadRect _ _ _ _).trans ?_
    rw [readAt_wholeW, iblk0_eq]
    rfl
  refine ⟨fun y hy => ?_, fun y hy => ?_, fun _ => ?_⟩
  · show scA.view.read (Elt F) (scA.view.writes (Elt F) ((Memref.isWhole_whole cc0_scratch0).unread ab0)
        (runA.sl.H4_1 c (grid0.coords t) (ms1 t) (hs1 t) (iblk m c 1 t))) y = _
    refine stream_ab (adjarr m c) (Memref.isWhole_whole _) ab0 t _ _ ?_ (fun y h => absurd h (by omega)) y (by omega)
    rw [readAt_whole512, iblk1_eq]
  · refine stream_hf (xarr m c) (adjarr m c) (Memref.isWhole_whole _) hf0 t _ _ _ _ ?_ hV12 ?_ (fun y h => absurd h (by omega)) y (by omega)
    · show scA.view.readCov (runA.sl.H4_1 c (grid0.coords t) (ms1 t) (hs1 t) (iblk m c 1 t)) _ = _
      refine (View.readCov_cons_toLoadRect _ _ _ _).trans ?_
      rw [readAt_whole512, iblk1_eq]
    · rw [readAt_rows512, iblk0_eq]
  · show scB.view.read (Elt F) (scB.view.writes (Elt F) ((Memref.isWhole_whole cc0_scratch2).unread hb0)
        (runA.sl.H6_1 c (ms0 t) (hs0 t) (iblk m c 0 t))) = _
    funext y
    refine (View.read_writes_cons_rows_of_mem scB.view _ inb_S4096x64_S4096x64_0_0 _ [] y y rfl (Nat.zero_add _).symm rfl).trans ?_
    rw [readAt_wholeW, iblk0_eq]
    rfl

/-- After a middle point: one more block of each. -/
theorem goodB (c : Dev nD) (t : Fin cfg0.N) (ht : t.val ≠ 0) (hcI : ¬condInit (grid0.coords t)) (hcT : ¬condTail (grid0.coords t))
    (ab0 : Vec F S4096x4096 .bf16) (hf0 : Vec F S4096x64 .f32) (hb0 : Vec F S4096x64 .bf16)
    (hG : Good m c t.val ab0 hf0 hb0) :
    Good m c (t.val + 1)
      (scA.view.read (Elt F) (scA.view.writes (Elt F) ((Memref.isWhole_whole cc0_scratch0).unread ab0)
        (runB c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).1))
      (scH.view.read (Elt F) (scH.view.writes (Elt F) ((Memref.isWhole_whole cc0_scratch1).unread hf0)
        (runB c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.1))
      hb0 := by
  obtain ⟨hab, hhf, hhb⟩ := hG
  have h1t : 1 ≤ t.val := Nat.one_le_iff_ne_zero.mpr ht
  refine ⟨fun y hy => ?_, fun y hy => ?_, fun _ => hhb h1t⟩
  · show scA.view.read (Elt F) (scA.view.writes (Elt F) ((Memref.isWhole_whole cc0_scratch0).unread ab0)
        (runB.sl.H4_1 c (grid0.coords t) (ms1 t) (hs1 t) (iblk m c 1 t))) y = _
    refine stream_ab (adjarr m c) (Memref.isWhole_whole _) ab0 t _ _ ?_ hab y hy
    rw [readAt_whole512, iblk1_eq]
  · refine stream_hf (xarr m c) (adjarr m c) (Memref.isWhole_whole _) hf0 t _ _ _ _ ?_ ?_ ?_ hhf y hy
    · show scA.view.readCov (runB.sl.H4_1 c (grid0.coords t) (ms1 t) (hs1 t) (iblk m c 1 t)) _ = _
      refine (View.readCov_cons_toLoadRect _ _ _ _).trans ?_
      rw [readAt_whole512, iblk1_eq]
    · rw [readAt_wholeW]; exact hhb h1t
    · rw [readAt_rows512, iblk0_eq]

/-- At the last point the output's buffer ends at nine more steps after the first. -/
theorem outC (c : Dev nD) (t : Fin cfg0.N) (ht : t.val = 7) (hcI : ¬condInit (grid0.coords t)) (hcT : condTail (grid0.coords t))
    (ab0 : Vec F S4096x4096 .bf16) (hf0 : Vec F S4096x64 .f32) (hb0 : Vec F S4096x64 .bf16)
    (hG : Good m c 7 ab0 hf0 hb0) (f3 : (ms2 t).view.ty.Contents (Elt F)) :
    (ms2 t).view.read (Elt F) ((ms2 t).view.writes (Elt F) f3
        (runC c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).1)
      = OUT (xarr m c) (adjarr m c) := by
  obtain ⟨hab, hhf, hhb⟩ := hG
  have hV11 : runC.sl.v11 c (grid0.coords t) (ms1 t) (hs1 t) scA (iblk m c 1 t) = k0_pay2 (blkA512 (adjarr m c) (tq t)) := by
    show scA.view.readCov (runC.sl.H4_1 c (grid0.coords t) (ms1 t) (hs1 t) (iblk m c 1 t)) _ = _
    refine (View.readCov_cons_toLoadRect _ _ _ _).trans ?_
    rw [readAt_whole512, iblk1_eq]
  have hAB : scA.view.read (Elt F) (scA.view.writes (Elt F) ((Memref.isWhole_whole cc0_scratch0).unread ab0)
      (runC.sl.H4_1 c (grid0.coords t) (ms1 t) (hs1 t) (iblk m c 1 t))) = ABs (adjarr m c) := by
    funext y
    refine stream_ab (adjarr m c) (Memref.isWhole_whole _) ab0 t _ _ ?_ (fun y h => hab y (by omega)) y (by have h4 : (y 0).val < 4096 := (y 0).isLt; omega)
    rw [readAt_whole512, iblk1_eq]
  have hH : runC.sl.v28 c (grid0.coords t) (ms0 t) (hs0 t) (ms1 t) (hs1 t) scA scH (Memref.isWhole_whole _) scB (Memref.isWhole_whole _)
      (iblk m c 0 t) (iblk m c 1 t) hf0 hb0 = H1 (xarr m c) (adjarr m c) := by
    show View.readAt (Elt F) scH.view RW.toLoadRect (scH.view.writes (Elt F) ((Memref.isWhole_whole cc0_scratch1).unread hf0)
      (runC.sl.H5_1 c (grid0.coords t) (ms0 t) (hs0 t) (ms1 t) (hs1 t) scA scB (Memref.isWhole_whole _) (iblk m c 0 t) (iblk m c 1 t) hb0)) = _
    rw [View.readAt_eq_ld, View.ld_unit_zero (S := S4096x64) (funext fun a => by fin_cases a <;> rfl)]
    funext y
    refine stream_hf (xarr m c) (adjarr m c) (Memref.isWhole_whole _) hf0 t _ _ _ _ hV11 ?_ ?_ (fun y h => hhf y (by omega)) y (by have h4 : (y 0).val < 4096 := (y 0).isLt; omega)
    · rw [readAt_wholeW]; exact hhb (by omega)
    · rw [readAt_rows512, iblk0_eq]
  rw [tail_eq c (grid0.coords t) (ms0 t) (hs0 t) (ms1 t) (hs1 t) (ms2 t) (hs2 t) scA (Memref.isWhole_whole _) scH (Memref.isWhole_whole _)
    scB (Memref.isWhole_whole _) hcI hcT (iblk m c 0 t) (iblk m c 1 t) ab0 hf0 hb0 (ABs (adjarr m c)) (H1 (xarr m c) (adjarr m c)) hAB hH f3,
    iblk0_eq]
  rfl

end Cert.Kernel.Body

end
-- ==== Proof.K.Body.lean ====
/-
  The body obligation. At the first point the body finds the scratch at anything and leaves it good
  for point 1; at a middle point it finds it good for the point and leaves it good for the next; at
  the last point it finds it good for point 7 and leaves the output's staging buffer at nine more
  steps after the first, the scratch at whatever the tail left. The inputs' buffers hold their blocks
  throughout; off the last point the output's buffer is handed back untouched.
-/
import proofs.«114585_g3178275799597_cont_8to1_b_565_8_alg».proof.Proof.K.Common
import proofs.«114585_g3178275799597_cont_8to1_b_565_8_alg».proof.Proof.K.Good
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: by cases on the point — first, middle, last. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [Phi_castSucc, Phi_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 8 := lt_of_lt_of_eq t.isLt N8
  by_cases h0 : t.val = 0
  · have hcI : condInit (grid0.coords t) := (hcondInit t).mpr h0
    have hcT : ¬condTail (grid0.coords t) := fun h => by have := (hcondTail t).mp h; omega
    rw [Dat.leavesExact_idle (dats m 0 c) 2 t (idle2 t hcT) (noFlush2 t hcT)]
    rw [show PhiS m c t.val = Pipeline.ΦA spec0 c from by rw [h0]; exact PhiS_zero m c,
      show PhiS m c (t.val + 1) = Inv m c 1 from by rw [h0]; exact PhiS_mid m c 1 (by omega) (by omega), PhiA_eq]
    unfold Inv
    iintro ⟨⟨⟨⟨%ab0, HA⟩, ⟨%hf0, HH⟩, ⟨%hb0, HB⟩⟩, Hg⟩, Ho, ⟨%d0, H0⟩, ⟨%d1, H1⟩, ⟨%d2, H2⟩⟩
    iapply ((runA c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.2.2 _ Set.univ _)
    isplitl [H0]; · iexact H0
    isplitl [H1]; · iexact H1
    isplitl [H2]; · iexact H2
    isplitl [HA]; · iexact HA
    isplitl [HH]; · iexact HH
    isplitl [HB]; · iexact HB
    iintro ⟨H0, H1, H2, HA, HH, HB⟩
    isplitl [HA HH HB Hg]
    · isplitl [HA HH HB]
      · iexists _; iexists _; iexists _
        isplitr
        · ipureintro; exact goodA m c t h0 hcI hcT ab0 hf0 hb0
        isplitl [HA]
        · unfold owns; iexists _; isplitr; swap; · iexact HA
          ipureintro; rfl
        isplitl [HH]
        · unfold owns; iexists _; isplitr; swap; · iexact HH
          ipureintro; rfl
        unfold owns; iexists _; isplitr; swap; · iexact HB
        ipureintro; rfl
      iexact Hg
    isplitl [Ho]; · iexact Ho
    isplitl [H0]; · iexact H0
    isplitl [H1]; · iexact H1
    iexists _; iexact H2
  · by_cases h7 : t.val = 7
    · have hcI : ¬condInit (grid0.coords t) := fun h => h0 ((hcondInit t).mp h)
      have hcT : condTail (grid0.coords t) := (hcondTail t).mpr h7
      rw [show (dats m 0 c).leavesExact 2 t = owns (c : Thread nD τ) (ms2 t) fullShare ((dats m 0 c).after 2 t) from by
        unfold Dat.leavesExact; rw [live2 t hcT], after2]
      rw [show PhiS m c t.val = Inv m c 7 from by rw [h7]; exact PhiS_mid m c 7 (by omega) (by omega),
        show PhiS m c (t.val + 1) = Pipeline.ΦA spec0 c from by rw [h7]; exact PhiS_last m c, PhiA_eq]
      unfold Inv
      iintro ⟨⟨⟨%ab0, %hf0, %hb0, %hG, HA, HH, HB⟩, Hg⟩, Ho, ⟨%d0, H0⟩, ⟨%d1, H1⟩, ⟨%d2, H2⟩⟩
      iapply ((runC c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.2.2.2 _ Set.univ _)
      isplitl [H0]; · iexact H0
      isplitl [H1]; · iexact H1
      isplitl [H2]; · iexact H2
      isplitl [HA]; · iexact HA
      isplitl [HH]; · iexact HH
      isplitl [HB]; · iexact HB
      iintro ⟨H0, H1, H2, HA, HH, HB⟩
      isplitl [HA HH HB Hg]
      · isplitl [HA HH HB]
        · isplitl [HA]
          · iexists _; unfold owns; iexists _; isplitr; swap; · iexact HA
            ipureintro; rfl
          isplitl [HH]
          · iexists _; unfold owns; iexists _; isplitr; swap; · iexact HH
            ipureintro; rfl
          iexists _; unfold owns; iexists _; isplitr; swap; · iexact HB
          ipureintro; rfl
        iexact Hg
      isplitl [Ho]; · iexact Ho
      isplitl [H0]; · iexact H0
      isplitl [H1]; · iexact H1
      unfold owns; iexists _; isplitr; swap; · iexact H2
      ipureintro; exact outC m c t h7 hcI hcT ab0 hf0 hb0 hG _
    · have hcI : ¬condInit (grid0.coords t) := fun h => h0 ((hcondInit t).mp h)
      have hcT : ¬condTail (grid0.coords t) := fun h => h7 ((hcondTail t).mp h)
      rw [Dat.leavesExact_idle (dats m 0 c) 2 t (idle2 t hcT) (noFlush2 t hcT)]
      rw [PhiS_mid m c t.val h0 (by omega), PhiS_mid m c (t.val + 1) (by omega) (by omega)]
      unfold Inv
      iintro ⟨⟨⟨%ab0, %hf0, %hb0, %hG, HA, HH, HB⟩, Hg⟩, Ho, ⟨%d0, H0⟩, ⟨%d1, H1⟩, ⟨%d2, H2⟩⟩
      iapply ((runB c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.2 _ Set.univ _)
      isplitl [H0]; · iexact H0
      isplitl [H1]; · iexact H1
      isplitl [H2]; · iexact H2
      isplitl [HA]; · iexact HA
      isplitl [HH]; · iexact HH
      isplitl [HB]; · iexact HB
      iintro ⟨H0, H1, H2, HA, HH, HB⟩
      isplitl [HA HH HB Hg]
      · isplitl [HA HH HB]
        · iexists _; iexists _; iexists _
          isplitr
          · ipureintro; exact goodB m c t h0 hcI hcT ab0 hf0 hb0 hG
          isplitl [HA]
          · unfold owns; iexists _; isplitr; swap; · iexact HA
            ipureintro; rfl
          isplitl [HH]
          · unfold owns; iexists _; isplitr; swap; · iexact HH
            ipureintro; rfl
          iexact HB
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.K.Frame.lean ====
/-
  The frame run: with the body obligation, the launch runs the eight points to the end, nothing
  faulting, every array of the pipeline at what the proof data computes and the arguments unchanged.
-/
import proofs.«114585_g3178275799597_cont_8to1_b_565_8_alg».proof.Proof.K.Common
import proofs.«114585_g3178275799597_cont_8to1_b_565_8_alg».proof.Proof.K.Body
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every final state has each array of the
    pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float family: the program runs to the end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Common.lean ====
/-
  The kernel body of the APPNP propagation kernel: what its two branches test, which staging
  memrefs the pipeline hands it, and the region invariant with the three scratch buffers spelt out.

  The body at grid point `t` (eight points, one per block of 512 rows of the adjacency):
  * at the first point only, rounds the feature matrix `x` into the scratch `hb`;
  * rounds the point's 512-row block of the adjacency into rows `[512 t, 512 t + 512)` of the
    scratch `ab`, multiplies that block with `hb` and stores `c₉ · (block · hb) + c₁ · x` into the
    same rows of the scratch `hf`;
  * at the last point only, runs nine more propagation steps over the whole resident `ab`, four
    1024-row tiles per step, the last step into the output's staging buffer.
-/
import proofs.«114585_g3178275799597_cont_8to1_b_565_8_alg».proof.Proof.Gen.KernelIdeal.Frame
import proofs.«114585_g3178275799597_cont_8to1_b_565_8_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The first branch's test, `program_id == 0`, as the body computes it from the grid coordinate. -/
abbrev condInit (i : grid0.Coords) : Prop :=
  (Scalar.cmpi .ne (Scalar.extui (Scalar.cmpi .eq (BitVec.ofNat 32 (i 0).val) 0#32)) 0#32) = 1#1
/-- It holds at the first point only. -/
theorem hcondInit : ∀ t : Fin cfg0.N, condInit (grid0.coords t) ↔ t.val = 0 :=
  (by decide +kernel : ∀ t : Fin grid0.N, condInit (grid0.coords t) ↔ t.val = 0)

/-- The second branch's test, `program_id == 7`. -/
abbrev condTail (i : grid0.Coords) : Prop := k0_cond2 i = 1#1
/-- It holds at the last point only. -/
theorem hcondTail : ∀ t : Fin cfg0.N, condTail (grid0.coords t) ↔ t.val = 7 :=
  (by decide +kernel : ∀ t : Fin grid0.N, condTail (grid0.coords t) ↔ t.val = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Off the last point the body stores nothing into the output's staging buffer, -/
theorem idle2 : ∀ t : Fin cfg0.N, ¬condTail (grid0.coords t) → cfg0.idle 2 (grid0.coords t) = true := by decide +kernel
/-- and the pipeline does not write it back there; -/
theorem noFlush2 : ∀ t : Fin cfg0.N, ¬condTail (grid0.coords t) → (cfg0.win 2).flush t = false := by decide +kernel
/-- at the last point it stores the whole block. -/
theorem live2 : ∀ t : Fin cfg0.N, condTail (grid0.coords t) → cfg0.idle 2 (grid0.coords t) = false := by decide +kernel

/-! ## The memrefs the body is called with -/

abbrev ms0 (t : Fin cfg0.N) : Memref sig .tc .vmem S4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x64 .f32 := win0_2.stage (cfg0.slots t 2)
abbrev hs2 (t : Fin cfg0.N) : (ms2 t).IsWhole := hstage0_2 ((cfg0.slots t 2).cast nbuf0_2)
/-- The resident rounded adjacency `ab`, the running iterate `hf`, and its rounded copy `hb`. -/
abbrev scA : Memref sig .tc .vmem S4096x4096 .bf16 := Memref.whole cc0_scratch0
abbrev scH : Memref sig .tc .vmem S4096x64 .f32 := Memref.whole cc0_scratch1
abbrev scB : Memref sig .tc .vmem S4096x64 .bf16 := Memref.whole cc0_scratch2

/-- The region's invariant as the launch hands it over: the three scratch buffers at some contents,
    the generator register at some state. -/
theorem PhiA_eq (c : Dev nD) :
    (Pipeline.ΦA spec0 c : sProp 𝕄)
      = iprop(iprop((∃ d, owns (c : Thread nD τ) scA fullShare d) ∗ (∃ d, owns (c : Thread nD τ) scH fullShare d) ∗ (∃ d, owns (c : Thread nD τ) scB fullShare d)) ∗ (∃ r, prngReg c r)) := by
  unfold Pipeline.ΦA; rw [scopedRest0_eq]; simp only [scA, scH, scB, owns_whole]; try rfl

end Cert.KernelIdeal.Body

end
-- ==== Proof.KI.Spec.lean ====
/-
  What the kernel's scratch buffers and its output hold, as functions of the two argument arrays,
  stated with the body's own arithmetic (the payloads of its stores) and for any float family.

  `ABs`  — the resident copy of the adjacency: each 512-row block rounded as the body rounds it.
  `HB0`  — the rounded copy of `x` the first point makes.
  `H1`   — the first propagation step, 512 rows at a time: the block of `ABs` times `HB0`, scaled,
            plus the scaled rows of `x`.
  `stepT` — one later step over the whole resident copy, 1024 rows at a time, from the iterate `H`
            (rounded first).
  `OUT`  — nine later steps after the first: what the last point leaves in the output's buffer.
-/
import proofs.«114585_g3178275799597_cont_8to1_b_565_8_alg».proof.Proof.Gen.KernelIdeal.Skeleton
import Idealize.ShloMosaic.Lib.ValueIdx

noncomputable section

namespace Cert.KernelIdeal.Body

open Cert.KernelIdeal Cert.KernelIdeal.Gen
open Idealize.ShloMosaic Idealize.ShloMosaic.ValueIdx

variable {F : FTy → Type} [FloatOps F]

/-! ## Row blocks of the two array shapes -/

/-- Rows `[512 k, 512 k + 512)` of a 4096 × 4096 array. -/
def blkA512 {α : Type} (A : S4096x4096.Idx → α) (k : Fin 8) : S512x4096.Idx → α := fun p =>
  A (ix2 (⟨512 * k.val + (p 0).val, by have h : (p 0).val < 512 := (p 0).isLt; have := k.isLt; omega⟩ : Fin 4096)
         (⟨(p 1).val, (p 1).isLt⟩ : Fin 4096))
/-- Rows `[1024 k, 1024 k + 1024)` of a 4096 × 4096 array. -/
def blkA1024 {α : Type} (A : S4096x4096.Idx → α) (k : Fin 4) : S1024x4096.Idx → α := fun p =>
  A (ix2 (⟨1024 * k.val + (p 0).val, by have h : (p 0).val < 1024 := (p 0).isLt; have := k.isLt; omega⟩ : Fin 4096)
         (⟨(p 1).val, (p 1).isLt⟩ : Fin 4096))
/-- Rows `[512 k, 512 k + 512)` of a 4096 × 64 array. -/
def blkX512 {α : Type} (X : S4096x64.Idx → α) (k : Fin 8) : S512x64.Idx → α := fun p =>
  X (ix2 (⟨512 * k.val + (p 0).val, by have h : (p 0).val < 512 := (p 0).isLt; have := k.isLt; omega⟩ : Fin 4096)
         (⟨(p 1).val, (p 1).isLt⟩ : Fin 64))
/-- Rows `[1024 k, 1024 k + 1024)` of a 4096 × 64 array. -/
def blkX1024 {α : Type} (X : S4096x64.Idx → α) (k : Fin 4) : S1024x64.Idx → α := fun p =>
  X (ix2 (⟨1024 * k.val + (p 0).val, by have h : (p 0).val < 1024 := (p 0).isLt; have := k.isLt; omega⟩ : Fin 4096)
         (⟨(p 1).val, (p 1).isLt⟩ : Fin 64))

/-- The 512-row block a row lies in, and the row inside it. -/
def q512 (y : Fin 4096) : Fin 8 := ⟨y.val / 512, by have := y.isLt; omega⟩
def r512 (y : Fin 4096) : Fin 512 := ⟨y.val % 512, Nat.mod_lt _ (by decide)⟩
/-- The 1024-row tile a row lies in, and the row inside it. -/
def q1024 (y : Fin 4096) : Fin 4 := ⟨y.val / 1024, by have := y.isLt; omega⟩
def r1024 (y : Fin 4096) : Fin 1024 := ⟨y.val % 1024, Nat.mod_lt _ (by decide)⟩

/-! ## The buffers' contents -/

/-- The resident adjacency: each 512-row block of `adj` rounded. -/
def ABs (ADJ : Vec F S4096x4096 .f32) : Vec F S4096x4096 .bf16 := fun y =>
  k0_pay2 (blkA512 ADJ (q512 (y 0))) (ix2 (r512 (y 0)) (⟨(y 1).val, (y 1).isLt⟩ : Fin 4096))

/-- The rounded `x`. -/
def HB0 (X : Vec F S4096x64 .f32) : Vec F S4096x64 .bf16 := k0_pay1 X

/-- The first step, block by block of 512 rows. -/
def H1 (X : Vec F S4096x64 .f32) (ADJ : Vec F S4096x4096 .f32) : Vec F S4096x64 .f32 := fun y =>
  k0_pay3 (blkA512 (ABs ADJ) (q512 (y 0))) (HB0 X) (blkX512 X (q512 (y 0))) (ix2 (r512 (y 0)) (⟨(y 1).val, (y 1).isLt⟩ : Fin 64))

/-- One later step over the resident adjacency `AB` from the iterate `H`, tile by tile of 1024 rows. -/
def stepT (AB : Vec F S4096x4096 .bf16) (X H : Vec F S4096x64 .f32) : Vec F S4096x64 .f32 := fun y =>
  k0_pay5 (blkA1024 AB (q1024 (y 0))) (k0_pay4 H) (blkX1024 X (q1024 (y 0))) (ix2 (r1024 (y 0)) (⟨(y 1).val, (y 1).isLt⟩ : Fin 64))

/-- `n` later steps after the first. -/
def HN (X : Vec F S4096x64 .f32) (ADJ : Vec F S4096x4096 .f32) : ℕ → Vec F S4096x64 .f32
  | 0 => H1 X ADJ
  | n + 1 => stepT (ABs ADJ) X (HN X ADJ n)

/-- What the kernel's last point leaves in the output's staging buffer: nine later steps. -/
def OUT (X : Vec F S4096x64 .f32) (ADJ : Vec F S4096x4096 .f32) : Vec F S4096x64 .f32 := HN X ADJ 9

end Cert.KernelIdeal.Body

end
-- ==== Proof.KI.Blocks.lean ====
/-
  Where the body's computed offsets sit, and what the two input windows' blocks are: at point `t`
  the streamed stores go to rows `[512 t, 512 t + 512)`; the first window's block is all of `x`,
  the second's is rows `[512 t, 512 t + 512)` of the adjacency.
-/
import proofs.«114585_g3178275799597_cont_8to1_b_565_8_alg».proof.Proof.KI.Common
import proofs.«114585_g3178275799597_cont_8to1_b_565_8_alg».proof.Proof.KI.Spec
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The two argument arrays as the region finds them. -/
abbrev xarr (c : Dev nD) : Vec F S4096x64 .f32 := V m c main_arg0
abbrev adjarr (c : Dev nD) : Vec F S4096x4096 .f32 := V m c main_arg1

/-- The grid has eight points. -/
theorem N8 : cfg0.N = 8 := N_0
/-- A point as a block number. -/
def tq (t : Fin cfg0.N) : Fin 8 := ⟨t.val, lt_of_lt_of_eq t.isLt N8⟩
@[simp] theorem tq_val (t : Fin cfg0.N) : (tq t).val = t.val := rfl

/-- The streamed stores' row offset at point `t`: `512 t`, column 0. -/
theorem off1_eq : ∀ t : Fin cfg0.N, k0_off1 (grid0.coords t) = ![512 * t.val, 0] :=
  (by decide +kernel : ∀ t : Fin grid0.N, k0_off1 (grid0.coords t) = ![512 * t.val, 0])
theorem off2_eq : ∀ t : Fin cfg0.N, k0_off2 (grid0.coords t) = ![512 * t.val, 0] :=
  (by decide +kernel : ∀ t : Fin grid0.N, k0_off2 (grid0.coords t) = ![512 * t.val, 0])

/-- The windows' block indices over the grid: the first and the third stay at block 0, the second
    moves one block of rows per point. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The first window's block is all of `x`. -/
theorem iblk0_eq (c : Dev nD) (t : Fin cfg0.N) : iblk m c 0 t = xarr m c := by
  obtain ⟨e0, e1, -, -, -, -⟩ := idx_facts t
  funext j
  show V m c main_arg0 (((cfg0.win 0).blk t).view.emb j) = V m c main_arg0 j
  refine congrArg _ (funext fun a => Fin.ext ?_)
  match a with
  | ⟨0, _⟩ => show win0_0.index t (0 : Fin 2) * 4096 + 1 * (j 0).val = (j 0).val; omega
  | ⟨1, _⟩ => show win0_0.index t (1 : Fin 2) * 64 + 1 * (j 1).val = (j 1).val; omega

/-- The second window's block at point `t` is rows `[512 t, 512 t + 512)` of the adjacency. -/
theorem iblk1_eq (c : Dev nD) (t : Fin cfg0.N) : iblk m c 1 t = blkA512 (adjarr m c) (tq t) := by
  obtain ⟨-, -, e0, e1, -, -⟩ := idx_facts t
  funext j
  show V m c main_arg1 (((cfg0.win 1).blk t).view.emb j) = V m c main_arg1 _
  refine congrArg _ (funext fun a => Fin.ext ?_)
  match a with
  | ⟨0, _⟩ => show win0_1.index t (0 : Fin 2) * 512 + 1 * (j 0).val = 512 * t.val + (j 0).val; omega
  | ⟨1, _⟩ => show win0_1.index t (1 : Fin 2) * 4096 + 1 * (j 1).val = (j 1).val; omega

end Cert.KernelIdeal.Body

end
-- ==== Proof.KI.Data.lean ====
/-
  The region's proof data. Between points the kernel keeps three scratch buffers: the resident
  rounded adjacency `ab`, the running iterate `hf` and its rounded copy `hb`. Before point `n`
  (`0 < n < 8`) the rows below `512 n` of `ab` and of `hf` hold the rounded adjacency and the first
  propagation step, and `hb` holds the rounded `x`; the rows from `512 n` on hold whatever the
  buffers held when the region was entered, which nothing reads before it is overwritten. Before the
  first point and after the last nothing is said of the scratch. The two inputs' staging buffers
  hold their blocks at every point; the output's is stored whole at the last point only, with nine
  more steps after the first.
-/
import proofs.«114585_g3178275799597_cont_8to1_b_565_8_alg».proof.Proof.KI.Common
import proofs.«114585_g3178275799597_cont_8to1_b_565_8_alg».proof.Proof.KI.Blocks
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the scratch buffers hold before point `n`. -/
def Good (c : Dev nD) (n : ℕ) (ab : Vec F S4096x4096 .bf16) (hf : Vec F S4096x64 .f32) (hb : Vec F S4096x64 .bf16) : Prop :=
  (∀ y : S4096x4096.Idx, (y 0).val < 512 * n → ab y = ABs (adjarr m c) y)
  ∧ (∀ y : S4096x64.Idx, (y 0).val < 512 * n → hf y = H1 (xarr m c) (adjarr m c) y)
  ∧ (1 ≤ n → hb = HB0 (xarr m c))

/-- The invariant between points: the scratch buffers at contents good for the point, the generator
    register at some state. -/
def Inv (c : Dev nD) (n : ℕ) : sProp 𝕄 :=
  iprop((∃ ab hf hb, ⌜Good m c n ab hf hb⌝ ∗ owns (c : Thread nD τ) scA fullShare ab ∗ owns (c : Thread nD τ) scH fullShare hf
      ∗ owns (c : Thread nD τ) scB fullShare hb) ∗ (∃ r, prngReg c r))

/-- Before the first point and after the last: the region's own invariant; in between: `Inv`. -/
def PhiS (c : Dev nD) (n : ℕ) : sProp 𝕄 := if n = 0 ∨ n = 8 then Pipeline.ΦA spec0 c else Inv m c n

theorem PhiS_zero (c : Dev nD) : PhiS m c 0 = Pipeline.ΦA spec0 c := if_pos (Or.inl rfl)
theorem PhiS_last (c : Dev nD) : PhiS m c 8 = Pipeline.ΦA spec0 c := if_pos (Or.inr rfl)
theorem PhiS_mid (c : Dev nD) (n : ℕ) (h0 : n ≠ 0) (h8 : n ≠ 8) : PhiS m c n = Inv m c n :=
  if_neg (fun h => h.elim h0 h8)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => OUT (xarr m c) (adjarr m c)
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = OUT (xarr m c) (adjarr m c) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What the launch hands the region is the invariant before the first point, -/
theorem hin (c : Dev nD) : Pipeline.ΦA spec0 c ⊢ (dats m 0 c).Φ 0 := by
  rw [show (dats m 0 c).Φ 0 = PhiS m c 0 from rfl, PhiS_zero]
  try exact Idealize.SL.BI.Entails.refl _
/-- and the invariant after the last point is what the region gives back. -/
theorem hout (c : Dev nD) : (dats m 0 c).Φ (Fin.last cfg0.N) ⊢ Pipeline.ΦA spec0 c := by
  rw [show (dats m 0 c).Φ (Fin.last cfg0.N) = PhiS m c 8 from rfl, PhiS_last]
  try exact Idealize.SL.BI.Entails.refl _

end Cert.KernelIdeal.Body

end
-- ==== Proof.KI.Stream.lean ====
/-
  The streamed part of the body, read back: after the store of a point's rounded block into rows
  `[512 t, 512 t + 512)` of the resident adjacency, and of the first propagation step's rows into
  the same rows of the running iterate, both buffers hold their intended contents (`ABs`, `H1`) on
  every row below `512 (t + 1)`, if they did on every row below `512 t` before. Also what the body's
  loads of whole, untouched buffers read.
-/
import proofs.«114585_g3178275799597_cont_8to1_b_565_8_alg».proof.Proof.KI.Common
import proofs.«114585_g3178275799597_cont_8to1_b_565_8_alg».proof.Proof.KI.Blocks
import Idealize.ShloMosaic.Lib.WritesUnit
import Idealize.ShloMosaic.Lib.WholeRead
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (X : Vec F S4096x64 .f32) (ADJ : Vec F S4096x4096 .f32)

/-- A load of a whole 512 × 4096 buffer held at `a0` reads `a0`. -/
theorem readAt_whole512 {m2 : Memref sig .tc .vmem S512x4096 .f32} (h2 : m2.IsWhole) (a0 : Vec F S512x4096 .f32) :
    View.readAt (Elt F) m2.view (Rect.unit (s := S512x4096) ![0, 0] S512x4096.size inb_S512x4096_S512x4096_0_0).toLoadRect (h2.unread a0) = a0 := by
  funext x
  rw [h2.readAt_unread]
  refine congrArg a0 (funext fun a => Fin.ext ?_)
  match a with
  | ⟨0, _⟩ => show 0 + 1 * (x 0).val = (x 0).val; omega
  | ⟨1, _⟩ => show 0 + 1 * (x 1).val = (x 1).val; omega

/-- A load of a whole 4096 × 64 buffer held at `v` reads `v` (either element type). -/
theorem readAt_wholeW {e : EltTy} {mW : Memref sig .tc .vmem S4096x64 e} (hW : mW.IsWhole) (v : S4096x64.Idx → Elt F e) :
    View.readAt (Elt F) mW.view (Rect.unit (s := S4096x64) ![0, 0] S4096x64.size inb_S4096x64_S4096x64_0_0).toLoadRect (hW.unread v) = v := by
  funext x
  rw [hW.readAt_unread]
  refine congrArg v (funext fun a => Fin.ext ?_)
  match a with
  | ⟨0, _⟩ => show 0 + 1 * (x 0).val = (x 0).val; omega
  | ⟨1, _⟩ => show 0 + 1 * (x 1).val = (x 1).val; omega

/-- A load of rows `[512 t, 512 t + 512)` of `x`'s buffer held at `x0` reads that block of `x0`. -/
theorem readAt_rows512 {mX : Memref sig .tc .vmem S4096x64 .f32} (hX : mX.IsWhole) (x0 : Vec F S4096x64 .f32) (t : Fin cfg0.N)
    (inb : ∀ a, k0_off2 (grid0.coords t) a + S512x64.size a ≤ S4096x64.size a) :
    View.readAt (Elt F) mX.view (Rect.unit (s := S4096x64) (k0_off2 (grid0.coords t)) S512x64.size inb).toLoadRect (hX.unread x0) = blkX512 x0 (tq t) := by
  funext x
  rw [hX.readAt_unread]
  have h0 : k0_off2 (grid0.coords t) 0 = 512 * t.val := congrFun (off2_eq t) 0
  have h1 : k0_off2 (grid0.coords t) 1 = 0 := congrFun (off2_eq t) 1
  refine congrArg x0 (funext fun a => Fin.ext ?_)
  match a with
  | ⟨0, _⟩ =>
    show k0_off2 (grid0.coords t) 0 + 1 * (x 0).val = 512 * t.val + (x 0).val
    omega
  | ⟨1, _⟩ =>
    show k0_off2 (grid0.coords t) 1 + 1 * (x 1).val = (x 1).val
    omega

/-- The rounded block of `ABs`: rows `[512 t, 512 t + 512)` of `ABs ADJ` are the rounded block `t` of `ADJ`. -/
theorem blk_ABs (t : Fin 8) : blkA512 (ABs ADJ) t = k0_pay2 (blkA512 ADJ t) := by
  funext p
  have hq : q512 (⟨512 * t.val + (p 0).val, by have h : (p 0).val < 512 := (p 0).isLt; have := t.isLt; omega⟩ : Fin 4096) = t :=
    Fin.ext (by show (512 * t.val + (p 0).val) / 512 = t.val; have h : (p 0).val < 512 := (p 0).isLt; omega)
  have hr : r512 (⟨512 * t.val + (p 0).val, by have h : (p 0).val < 512 := (p 0).isLt; have := t.isLt; omega⟩ : Fin 4096) = ⟨(p 0).val, (p 0).isLt⟩ :=
    Fin.ext (by show (512 * t.val + (p 0).val) % 512 = (p 0).val; have h : (p 0).val < 512 := (p 0).isLt; omega)
  show k0_pay2 (blkA512 ADJ (q512 _)) (ix2 (r512 _) _) = _
  rw [hq, hr]
  refine congrArg (k0_pay2 (blkA512 ADJ t)) (funext fun a => Fin.ext ?_)
  match a with
  | ⟨0, _⟩ => rfl
  | ⟨1, _⟩ => rfl

/-- After the point's store the resident adjacency is right on every row below `512 (t + 1)`. -/
theorem stream_ab {mA : Memref sig .tc .vmem S4096x4096 .bf16} (hA : mA.IsWhole) (ab0 : Vec F S4096x4096 .bf16)
    (t : Fin cfg0.N) (inb : ∀ a, k0_off1 (grid0.coords t) a + S512x4096.size a ≤ S4096x4096.size a)
    (w : Vec F S512x4096 .bf16) (hw : w = k0_pay2 (blkA512 ADJ (tq t)))
    (hab : ∀ y : S4096x4096.Idx, (y 0).val < 512 * t.val → ab0 y = ABs ADJ y)
    (y : S4096x4096.Idx) (hy : (y 0).val < 512 * (t.val + 1)) :
    mA.view.read (Elt F) (mA.view.writes (Elt F) (hA.unread ab0)
        [(⟨Rect.unit (s := S4096x4096) (k0_off1 (grid0.coords t)) S512x4096.size inb, w⟩ : View.Piece (Elt F) S4096x4096 .bf16)]) y
      = ABs ADJ y := by
  have hN : t.val < 8 := lt_of_lt_of_eq t.isLt N8
  by_cases hlt : (y 0).val < 512 * t.val
  · rw [View.read_writes_cons_rows_of_not_mem mA.view (hA.unread ab0) inb w [] y (off1_eq t) (W := 512) rfl (Or.inl hlt)]
    rw [View.writes_nil, hA.read_unread]
    exact hab y hlt
  · have hlo : (y 0).val - 512 * t.val < 512 := by omega
    rw [View.read_writes_cons_rows_of_mem mA.view (hA.unread ab0) inb w [] y
      (ix2 (⟨(y 0).val - 512 * t.val, hlo⟩ : Fin 512) (⟨(y 1).val, (y 1).isLt⟩ : Fin 4096)) (off1_eq t)
      (by show (y 0).val = 512 * t.val + ((y 0).val - 512 * t.val); omega) rfl]
    have hq : q512 (y 0) = tq t := Fin.ext (by show (y 0).val / 512 = t.val; omega)
    have hr : r512 (y 0) = (⟨(y 0).val - 512 * t.val, hlo⟩ : Fin 512) :=
      Fin.ext (by show (y 0).val % 512 = (y 0).val - 512 * t.val; omega)
    show _ = k0_pay2 (blkA512 ADJ (q512 (y 0))) (ix2 (r512 (y 0)) (⟨(y 1).val, (y 1).isLt⟩ : Fin 4096))
    rw [hw, hq, hr]

/-- After the point's store the running iterate is the first step on every row below `512 (t + 1)`. -/
theorem stream_hf {mH : Memref sig .tc .vmem S4096x64 .f32} (hH : mH.IsWhole) (hf0 : Vec F S4096x64 .f32)
    (t : Fin cfg0.N) (inb : ∀ a, k0_off2 (grid0.coords t) a + S512x64.size a ≤ S4096x64.size a)
    (v11 : Vec F S512x4096 .bf16) (v12 : Vec F S4096x64 .bf16) (v17 : Vec F S512x64 .f32)
    (h11 : v11 = k0_pay2 (blkA512 ADJ (tq t))) (h12 : v12 = HB0 X) (h17 : v17 = blkX512 X (tq t))
    (hhf : ∀ y : S4096x64.Idx, (y 0).val < 512 * t.val → hf0 y = H1 X ADJ y)
    (y : S4096x64.Idx) (hy : (y 0).val < 512 * (t.val + 1)) :
    mH.view.read (Elt F) (mH.view.writes (Elt F) (hH.unread hf0)
        [(⟨Rect.unit (s := S4096x64) (k0_off2 (grid0.coords t)) S512x64.size inb, k0_pay3 v11 v12 v17⟩ : View.Piece (Elt F) S4096x64 .f32)]) y
      = H1 X ADJ y := by
  have hN : t.val < 8 := lt_of_lt_of_eq t.isLt N8
  by_cases hlt : (y 0).val < 512 * t.val
  · rw [View.read_writes_cons_rows_of_not_mem mH.view (hH.unread hf0) inb (k0_pay3 v11 v12 v17) [] y (off2_eq t) (W := 512) rfl (Or.inl hlt)]
    rw [View.writes_nil, hH.read_unread]
    exact hhf y hlt
  · have hlo : (y 0).val - 512 * t.val < 512 := by omega
    rw [View.read_writes_cons_rows_of_mem mH.view (hH.unread hf0) inb (k0_pay3 v11 v12 v17) [] y
      (ix2 (⟨(y 0).val - 512 * t.val, hlo⟩ : Fin 512) (⟨(y 1).val, (y 1).isLt⟩ : Fin 64)) (off2_eq t)
      (by show (y 0).val = 512 * t.val + ((y 0).val - 512 * t.val); omega) rfl]
    have hq : q512 (y 0) = tq t := Fin.ext (by show (y 0).val / 512 = t.val; omega)
    have hr : r512 (y 0) = (⟨(y 0).val - 512 * t.val, hlo⟩ : Fin 512) :=
      Fin.ext (by show (y 0).val % 512 = (y 0).val - 512 * t.val; omega)
    show _ = k0_pay3 (blkA512 (ABs ADJ) (q512 (y 0))) (HB0 X) (blkX512 X (q512 (y 0))) (ix2 (r512 (y 0)) (⟨(y 1).val, (y 1).isLt⟩ : Fin 64))
    rw [h11, h12, h17, hq, hr, blk_ABs]

end Cert.KernelIdeal.Body

end
-- ==== Proof.KI.RunA.lean ====
/-
  The body at the first point (the first branch taken, the second not): on whole memrefs at any
  contents it runs to the end, leaving the two inputs and the output's buffer as they were, and one
  store in each scratch buffer — `x` rounded, the point's block of the adjacency rounded, and the
  first propagation step's rows for that block. The three store lists are found by the symbolic run.
-/
import proofs.«114585_g3178275799597_cont_8to1_b_565_8_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : condInit i) (hc1 : ¬condTail i)
    (x0 : Vec F S4096x64 .f32) (a0 : Vec F S512x4096 .f32) (ab0 : Vec F S4096x4096 .bf16) (hf0 : Vec F S4096x64 .f32) (hb0 : Vec F S4096x64 .bf16) :
    Σ' (L4 : List (View.Piece (Elt F) S4096x4096 .bf16)) (L5 : List (View.Piece (Elt F) S4096x64 .f32)), { L6 : List (View.Piece (Elt F) S4096x64 .bf16) //
      ∀ (o0 : Vec F S4096x64 .f32) (E : Set ℕ) (K : PUnit → sProp 𝕄),
        iprop(owns (c : Thread nD τ) arg1 fullShare x0 ∗ owns (c : Thread nD τ) arg2 fullShare a0 ∗ owns (c : Thread nD τ) arg3 fullShare o0
            ∗ owns (c : Thread nD τ) arg4 fullShare ab0 ∗ owns (c : Thread nD τ) arg5 fullShare hf0 ∗ owns (c : Thread nD τ) arg6 fullShare hb0
            ∗ (iprop(owns (c : Thread nD τ) arg1 fullShare x0 ∗ owns (c : Thread nD τ) arg2 fullShare a0 ∗ owns (c : Thread nD τ) arg3 fullShare o0
                ∗ (arg4.view.loc (c : Thread nD τ) ↦[arg4.view.set]{fullShare} arg4.view.writes (Elt F) (harg4.unread ab0) L4)
                ∗ (arg5.view.loc (c : Thread nD τ) ↦[arg5.view.set]{fullShare} arg5.view.writes (Elt F) (harg5.unread hf0) L5)
                ∗ (arg6.view.loc (c : Thread nD τ) ↦[arg6.view.set]{fullShare} arg6.view.writes (Elt F) (harg6.unread hb0) L6)) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, ?_, fun o0 E K => ?run⟩
  case run =>
    simp only [cc0__appnp_body_eq_skeleton]; unfold cc0__appnp_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    iexact H6

end Cert.KernelIdeal.Body

end
-- ==== Proof.KI.RunB.lean ====
/-
  The body at a middle point (neither branch taken): on whole memrefs at any contents it runs to the
  end, leaving the two inputs and the output's buffer as they were, the rounded copy of `x` as it
  was, and one store each in the resident adjacency and in the running iterate — the point's block
  rounded, and the first propagation step's rows for that block. The two store lists are found by
  the symbolic run.
-/
import proofs.«114585_g3178275799597_cont_8to1_b_565_8_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬condInit i) (hc1 : ¬condTail i)
    (x0 : Vec F S4096x64 .f32) (a0 : Vec F S512x4096 .f32) (ab0 : Vec F S4096x4096 .bf16) (hf0 : Vec F S4096x64 .f32) (hb0 : Vec F S4096x64 .bf16) :
    Σ' (L4 : List (View.Piece (Elt F) S4096x4096 .bf16)), { L5 : List (View.Piece (Elt F) S4096x64 .f32) //
      ∀ (o0 : Vec F S4096x64 .f32) (E : Set ℕ) (K : PUnit → sProp 𝕄),
        iprop(owns (c : Thread nD τ) arg1 fullShare x0 ∗ owns (c : Thread nD τ) arg2 fullShare a0 ∗ owns (c : Thread nD τ) arg3 fullShare o0
            ∗ owns (c : Thread nD τ) arg4 fullShare ab0 ∗ owns (c : Thread nD τ) arg5 fullShare hf0 ∗ owns (c : Thread nD τ) arg6 fullShare hb0
            ∗ (iprop(owns (c : Thread nD τ) arg1 fullShare x0 ∗ owns (c : Thread nD τ) arg2 fullShare a0 ∗ owns (c : Thread nD τ) arg3 fullShare o0
                ∗ (arg4.view.loc (c : Thread nD τ) ↦[arg4.view.set]{fullShare} arg4.view.writes (Elt F) (harg4.unread ab0) L4)
                ∗ (arg5.view.loc (c : Thread nD τ) ↦[arg5.view.set]{fullShare} arg5.view.writes (Elt F) (harg5.unread hf0) L5)
                ∗ owns (c : Thread nD τ) arg6 fullShare hb0) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, fun o0 E K => ?run⟩
  case run =>
    simp only [cc0__appnp_body_eq_skeleton]; unfold cc0__appnp_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    iexists _; isplitr; · ipureintro; exact harg6.read_unread _
    iexact H6

end Cert.KernelIdeal.Body

end
-- ==== Proof.KI.RunC.lean ====
/-
  The body at the last point (the first branch not taken, the second taken): on whole memrefs at
  any contents it runs to the end — the point's block rounded into the resident adjacency, the first
  step's rows for that block, then nine propagation steps of four tiles each, the last into the
  output's buffer —, leaving the two inputs as they were and a list of stores in the output's buffer
  and in each scratch buffer. The four store lists are found by the symbolic run.
-/
import proofs.«114585_g3178275799597_cont_8to1_b_565_8_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runC (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole) (hc0 : ¬condInit i) (hc1 : condTail i)
    (x0 : Vec F S4096x64 .f32) (a0 : Vec F S512x4096 .f32) (ab0 : Vec F S4096x4096 .bf16) (hf0 : Vec F S4096x64 .f32) (hb0 : Vec F S4096x64 .bf16) :
    Σ' (L3 : List (View.Piece (Elt F) S4096x64 .f32)) (L4 : List (View.Piece (Elt F) S4096x4096 .bf16)) (L5 : List (View.Piece (Elt F) S4096x64 .f32)), { L6 : List (View.Piece (Elt F) S4096x64 .bf16) //
      ∀ (o0 : Vec F S4096x64 .f32) (E : Set ℕ) (K : PUnit → sProp 𝕄),
        iprop(owns (c : Thread nD τ) arg1 fullShare x0 ∗ owns (c : Thread nD τ) arg2 fullShare a0 ∗ owns (c : Thread nD τ) arg3 fullShare o0
            ∗ owns (c : Thread nD τ) arg4 fullShare ab0 ∗ owns (c : Thread nD τ) arg5 fullShare hf0 ∗ owns (c : Thread nD τ) arg6 fullShare hb0
            ∗ (iprop(owns (c : Thread nD τ) arg1 fullShare x0 ∗ owns (c : Thread nD τ) arg2 fullShare a0
                ∗ (arg3.view.loc (c : Thread nD τ) ↦[arg3.view.set]{fullShare} arg3.view.writes (Elt F) (harg3.unread o0) L3)
                ∗ (arg4.view.loc (c : Thread nD τ) ↦[arg4.view.set]{fullShare} arg4.view.writes (Elt F) (harg4.unread ab0) L4)
                ∗ (arg5.view.loc (c : Thread nD τ) ↦[arg5.view.set]{fullShare} arg5.view.writes (Elt F) (harg5.unread hf0) L5)
                ∗ (arg6.view.loc (c : Thread nD τ) ↦[arg6.view.set]{fullShare} arg6.view.writes (Elt F) (harg6.unread hb0) L6)) -∗ K ⟨⟩))
          ⊢ wp frame (wpE (defs₀ (F := F)) Variants.none c none) E (cc0__appnp_body i arg1 harg1 arg2 harg2 arg3 harg3 arg4 harg4 arg5 harg5 arg6 harg6) K } := by
  refine ⟨?_, ?_, ?_, ?_, fun o0 E K => ?run⟩
  case run =>
    simp only [cc0__appnp_body_eq_skeleton]; unfold cc0__appnp_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec_parts (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    iexact H6

end Cert.KernelIdeal.Body

end
-- ==== Proof.KI.Tiles.lean ====
/-
  One propagation step as the body's tail lays it out: four stores of 1024 rows each into a
  4096 × 64 buffer, tile `k` holding the scaled product of rows `[1024 k, 1024 k + 1024)` of the
  resident adjacency with the rounded iterate, plus the scaled rows of `x`. Whatever was stored
  before them, the four tiles leave the buffer at `stepT` of the adjacency, `x` and the iterate.
-/
import proofs.«114585_g3178275799597_cont_8to1_b_565_8_alg».proof.Proof.KI.Common
import proofs.«114585_g3178275799597_cont_8to1_b_565_8_alg».proof.Proof.KI.Spec
import Idealize.ShloMosaic.Lib.Pipeline.CanonAppend
import Idealize.ShloMosaic.Lib.WholeRead
import Idealize.ShloMosaic.Lib.Pipeline.Value
import Idealize.ShloMosaic.Lib.WritesUnit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The four tiles of the 4096 × 64 buffers, the four row tiles of the resident adjacency, and the
    whole 4096 × 64 rectangle, as the body spells them. -/
abbrev RT0 : Rect S4096x64 := Rect.unit ![0, 0] S1024x64.size inb_S4096x64_S1024x64_0_0
abbrev RT1 : Rect S4096x64 := Rect.unit ![1024, 0] S1024x64.size inb_S4096x64_S1024x64_1024_0
abbrev RT2 : Rect S4096x64 := Rect.unit ![2048, 0] S1024x64.size inb_S4096x64_S1024x64_2048_0
abbrev RT3 : Rect S4096x64 := Rect.unit ![3072, 0] S1024x64.size inb_S4096x64_S1024x64_3072_0
abbrev RA0 : Rect S4096x4096 := Rect.unit ![0, 0] S1024x4096.size inb_S4096x4096_S1024x4096_0_0
abbrev RA1 : Rect S4096x4096 := Rect.unit ![1024, 0] S1024x4096.size inb_S4096x4096_S1024x4096_1024_0
abbrev RA2 : Rect S4096x4096 := Rect.unit ![2048, 0] S1024x4096.size inb_S4096x4096_S1024x4096_2048_0
abbrev RA3 : Rect S4096x4096 := Rect.unit ![3072, 0] S1024x4096.size inb_S4096x4096_S1024x4096_3072_0
abbrev RW : Rect S4096x64 := Rect.unit ![0, 0] S4096x64.size inb_S4096x64_S4096x64_0_0

/-- A tile's payload is the step's value on the tile's rows: rows `[o, o + 1024)` with `o = 1024 k`. -/
theorem tile_gen {mA : Memref sig .tc .vmem S4096x4096 .bf16} (fA : mA.view.ty.Contents (Elt F))
    {mX : Memref sig .tc .vmem S4096x64 .f32} (hX : mX.IsWhole) (x0 H : Vec F S4096x64 .f32)
    (o : Nat) (k : Fin 4) (ho : o = 1024 * k.val)
    (inbA : ∀ a, (![o, 0] : Fin 2 → Nat) a + S1024x4096.size a ≤ S4096x4096.size a)
    (inbX : ∀ a, (![o, 0] : Fin 2 → Nat) a + S1024x64.size a ≤ S4096x64.size a)
    (x : (Rect.unit (s := S4096x64) ![o, 0] S1024x64.size inbX).shape.Idx) :
    k0_pay5 (View.readAt (Elt F) mA.view (Rect.unit (s := S4096x4096) ![o, 0] S1024x4096.size inbA).toLoadRect fA) (k0_pay4 H)
        (View.readAt (Elt F) mX.view (Rect.unit (s := S4096x64) ![o, 0] S1024x64.size inbX).toLoadRect (hX.unread x0)) x
      = stepT (mA.view.read (Elt F) fA) x0 H ((Rect.unit (s := S4096x64) ![o, 0] S1024x64.size inbX).emb x) := by
  subst ho
  have hx0 : (x 0).val < 1024 := (x 0).isLt
  have hk := k.isLt
  have hy0 : (((Rect.unit (s := S4096x64) ![1024 * k.val, 0] S1024x64.size inbX).emb x) 0).val = 1024 * k.val + (x 0).val := by
    show 1024 * k.val + 1 * (x 0).val = _; omega
  have hy1 : (((Rect.unit (s := S4096x64) ![1024 * k.val, 0] S1024x64.size inbX).emb x) 1).val = (x 1).val := by
    show 0 + 1 * (x 1).val = _; omega
  have hq : q1024 (((Rect.unit (s := S4096x64) ![1024 * k.val, 0] S1024x64.size inbX).emb x) 0) = k :=
    Fin.ext (by show _ / 1024 = k.val; rw [hy0]; omega)
  have hr : r1024 (((Rect.unit (s := S4096x64) ![1024 * k.val, 0] S1024x64.size inbX).emb x) 0) = (⟨(x 0).val, hx0⟩ : Fin 1024) :=
    Fin.ext (by show _ % 1024 = (x 0).val; rw [hy0]; omega)
  unfold stepT
  rw [hq, hr]
  have hA : View.readAt (Elt F) mA.view (Rect.unit (s := S4096x4096) ![1024 * k.val, 0] S1024x4096.size inbA).toLoadRect fA
      = blkA1024 (mA.view.read (Elt F) fA) k := by
    funext p
    show mA.view.read (Elt F) fA ((Rect.unit (s := S4096x4096) ![1024 * k.val, 0] S1024x4096.size inbA).emb p) = _
    unfold blkA1024
    refine congrArg _ (funext fun a => Fin.ext ?_)
    match a with
    | ⟨0, _⟩ => show 1024 * k.val + 1 * (p 0).val = 1024 * k.val + (p 0).val; omega
    | ⟨1, _⟩ => show 0 + 1 * (p 1).val = (p 1).val; omega
  have hC : View.readAt (Elt F) mX.view (Rect.unit (s := S4096x64) ![1024 * k.val, 0] S1024x64.size inbX).toLoadRect (hX.unread x0)
      = blkX1024 x0 k := by
    funext p
    refine (hX.readAt_unread x0 _ p).trans ?_
    unfold blkX1024
    refine congrArg _ (funext fun a => Fin.ext ?_)
    match a with
    | ⟨0, _⟩ => show 1024 * k.val + 1 * (p 0).val = 1024 * k.val + (p 0).val; omega
    | ⟨1, _⟩ => show 0 + 1 * (p 1).val = (p 1).val; omega
  rw [hA, hC]
  refine congrArg _ (funext fun a => Fin.ext ?_)
  match a with
  | ⟨0, _⟩ => rfl
  | ⟨1, _⟩ => exact hy1.symm

/-- The same with the rounded iterate given by an equation. -/
theorem tile_of_hb {mA : Memref sig .tc .vmem S4096x4096 .bf16} (fA : mA.view.ty.Contents (Elt F))
    {mX : Memref sig .tc .vmem S4096x64 .f32} (hX : mX.IsWhole) (x0 H : Vec F S4096x64 .f32)
    (hbv : Vec F S4096x64 .bf16) (hhb : hbv = k0_pay4 H)
    (o : Nat) (k : Fin 4) (ho : o = 1024 * k.val)
    (inbA : ∀ a, (![o, 0] : Fin 2 → Nat) a + S1024x4096.size a ≤ S4096x4096.size a)
    (inbX : ∀ a, (![o, 0] : Fin 2 → Nat) a + S1024x64.size a ≤ S4096x64.size a)
    (x : (Rect.unit (s := S4096x64) ![o, 0] S1024x64.size inbX).shape.Idx) :
    k0_pay5 (View.readAt (Elt F) mA.view (Rect.unit (s := S4096x4096) ![o, 0] S1024x4096.size inbA).toLoadRect fA) hbv
        (View.readAt (Elt F) mX.view (Rect.unit (s := S4096x64) ![o, 0] S1024x64.size inbX).toLoadRect (hX.unread x0)) x
      = stepT (mA.view.read (Elt F) fA) x0 H ((Rect.unit (s := S4096x64) ![o, 0] S1024x64.size inbX).emb x) := by
  subst hhb; exact tile_gen fA hX x0 H o k ho inbA inbX x

/-- The last step's tiles go to the output's buffer without the shape cast the others pass through;
    a shape cast of a shape to itself changes nothing. -/
theorem pay_out_eq (A : Vec F S1024x4096 .bf16) (B : Vec F S4096x64 .bf16) (C : Vec F S1024x64 .f32) :
    k0_pay55 A B C = k0_pay5 A B C :=
  (shapeCast_self (k0_pay55 A B C) shapeCasts_S1024x64_S1024x64).symm

theorem tile_out_of_hb {mA : Memref sig .tc .vmem S4096x4096 .bf16} (fA : mA.view.ty.Contents (Elt F))
    {mX : Memref sig .tc .vmem S4096x64 .f32} (hX : mX.IsWhole) (x0 H : Vec F S4096x64 .f32)
    (hbv : Vec F S4096x64 .bf16) (hhb : hbv = k0_pay4 H)
    (o : Nat) (k : Fin 4) (ho : o = 1024 * k.val)
    (inbA : ∀ a, (![o, 0] : Fin 2 → Nat) a + S1024x4096.size a ≤ S4096x4096.size a)
    (inbX : ∀ a, (![o, 0] : Fin 2 → Nat) a + S1024x64.size a ≤ S4096x64.size a)
    (x : (Rect.unit (s := S4096x64) ![o, 0] S1024x64.size inbX).shape.Idx) :
    k0_pay55 (View.readAt (Elt F) mA.view (Rect.unit (s := S4096x4096) ![o, 0] S1024x4096.size inbA).toLoadRect fA) hbv
        (View.readAt (Elt F) mX.view (Rect.unit (s := S4096x64) ![o, 0] S1024x64.size inbX).toLoadRect (hX.unread x0)) x
      = stepT (mA.view.read (Elt F) fA) x0 H ((Rect.unit (s := S4096x64) ![o, 0] S1024x64.size inbX).emb x) := by
  rw [pay_out_eq]; exact tile_of_hb fA hX x0 H hbv hhb o k ho inbA inbX x

/-- The four tiles cover the 4096 rows. -/
theorem cover_tiles4 (w0 : RT0.shape.Idx → Elt F .f32) (w1 : RT1.shape.Idx → Elt F .f32) (w2 : RT2.shape.Idx → Elt F .f32)
    (w3 : RT3.shape.Idx → Elt F .f32) (y : S4096x64.Idx) :
    ∃ p ∈ [(⟨RT3, w3⟩ : View.Piece (Elt F) S4096x64 .f32), ⟨RT2, w2⟩, ⟨RT1, w1⟩, ⟨RT0, w0⟩], y ∈ p.1.set := by
  have hy : (y 0).val < 4096 := (y 0).isLt
  by_cases c3 : 3072 ≤ (y 0).val
  · exact ⟨⟨RT3, w3⟩, by simp, (Rect.mem_set_unit (s := S4096x64) (off := ![3072, 0]) (size := S1024x64.size) (inb := inb_S4096x64_S1024x64_3072_0)).mpr (Rect.unit_rows_mem y (W := 1024) rfl rfl ⟨c3, by omega⟩)⟩
  by_cases c2 : 2048 ≤ (y 0).val
  · exact ⟨⟨RT2, w2⟩, by simp, (Rect.mem_set_unit (s := S4096x64) (off := ![2048, 0]) (size := S1024x64.size) (inb := inb_S4096x64_S1024x64_2048_0)).mpr (Rect.unit_rows_mem y (W := 1024) rfl rfl ⟨c2, by omega⟩)⟩
  by_cases c1 : 1024 ≤ (y 0).val
  · exact ⟨⟨RT1, w1⟩, by simp, (Rect.mem_set_unit (s := S4096x64) (off := ![1024, 0]) (size := S1024x64.size) (inb := inb_S4096x64_S1024x64_1024_0)).mpr (Rect.unit_rows_mem y (W := 1024) rfl rfl ⟨c1, by omega⟩)⟩
  · exact ⟨⟨RT0, w0⟩, by simp, (Rect.mem_set_unit (s := S4096x64) (off := ![0, 0]) (size := S1024x64.size) (inb := inb_S4096x64_S1024x64_0_0)).mpr (Rect.unit_rows_mem y (W := 1024) rfl rfl ⟨Nat.zero_le _, by omega⟩)⟩

/-- Four tiles, the newest first, over any earlier stores: where each tile's payload is `G` on its
    rows, the stores leave `G`. -/
theorem canon_tiles4 (G : S4096x64.Idx → Elt F .f32)
    (w0 : RT0.shape.Idx → Elt F .f32) (w1 : RT1.shape.Idx → Elt F .f32) (w2 : RT2.shape.Idx → Elt F .f32)
    (w3 : RT3.shape.Idx → Elt F .f32)
    (h0 : ∀ x, w0 x = G (RT0.emb x)) (h1 : ∀ x, w1 x = G (RT1.emb x)) (h2 : ∀ x, w2 x = G (RT2.emb x))
    (h3 : ∀ x, w3 x = G (RT3.emb x)) (L : List (View.Piece (Elt F) S4096x64 .f32)) :
    View.canon ((⟨RT3, w3⟩ : View.Piece (Elt F) S4096x64 .f32) :: ⟨RT2, w2⟩ :: ⟨RT1, w1⟩ :: ⟨RT0, w0⟩ :: L) = G := by
  funext y
  refine View.canon_append_of_pieces G L [(⟨RT3, w3⟩ : View.Piece (Elt F) S4096x64 .f32), ⟨RT2, w2⟩, ⟨RT1, w1⟩, ⟨RT0, w0⟩] ?_ y
    (cover_tiles4 w0 w1 w2 w3 y)
  intro p hp x
  simp only [List.mem_cons, List.not_mem_nil, or_false] at hp
  rcases hp with rfl | rfl | rfl | rfl
  exacts [h3 x, h2 x, h1 x, h0 x]

/-- A load of the whole buffer after such stores reads `G`. -/
theorem readCov_tiles4 {mH : Memref sig .tc .vmem S4096x64 .f32} (G : S4096x64.Idx → Elt F .f32)
    (w0 : RT0.shape.Idx → Elt F .f32) (w1 : RT1.shape.Idx → Elt F .f32) (w2 : RT2.shape.Idx → Elt F .f32)
    (w3 : RT3.shape.Idx → Elt F .f32)
    (h0 : ∀ x, w0 x = G (RT0.emb x)) (h1 : ∀ x, w1 x = G (RT1.emb x)) (h2 : ∀ x, w2 x = G (RT2.emb x))
    (h3 : ∀ x, w3 x = G (RT3.emb x)) (L : List (View.Piece (Elt F) S4096x64 .f32)) :
    mH.view.readCov ((⟨RT3, w3⟩ : View.Piece (Elt F) S4096x64 .f32) :: ⟨RT2, w2⟩ :: ⟨RT1, w1⟩ :: ⟨RT0, w0⟩ :: L) RW.toLoadRect = G := by
  rw [View.readCov_eq_canon_ld _ _ RW (fun y => by
    obtain ⟨p, hp, hy⟩ := cover_tiles4 w0 w1 w2 w3 y
    exact ⟨p, by simp only [List.mem_cons, List.not_mem_nil, or_false] at hp ⊢; rcases hp with h | h | h | h <;> simp [h], hy⟩),
    canon_tiles4 G w0 w1 w2 w3 h0 h1 h2 h3 L]
  exact View.ld_unit_zero (S := S4096x64) (funext fun a => by fin_cases a <;> rfl) _ G

/-- The buffer itself, read whole, after such stores and nothing else: `G`. -/
theorem read_tiles4 {mO : Memref sig .tc .vmem S4096x64 .f32} (f : mO.view.ty.Contents (Elt F)) (G : S4096x64.Idx → Elt F .f32)
    (w0 : RT0.shape.Idx → Elt F .f32) (w1 : RT1.shape.Idx → Elt F .f32) (w2 : RT2.shape.Idx → Elt F .f32)
    (w3 : RT3.shape.Idx → Elt F .f32)
    (h0 : ∀ x, w0 x = G (RT0.emb x)) (h1 : ∀ x, w1 x = G (RT1.emb x)) (h2 : ∀ x, w2 x = G (RT2.emb x))
    (h3 : ∀ x, w3 x = G (RT3.emb x)) :
    mO.view.read (Elt F) (mO.view.writes (Elt F) f [(⟨RT3, w3⟩ : View.Piece (Elt F) S4096x64 .f32), ⟨RT2, w2⟩, ⟨RT1, w1⟩, ⟨RT0, w0⟩]) = G := by
  rw [View.read_writes_eq_canon _ _ _ (cover_tiles4 w0 w1 w2 w3)]
  exact canon_tiles4 G w0 w1 w2 w3 h0 h1 h2 h3 []

/-- One tail step, as a load of the whole iterate reads it back: four tile stores of the step's
    payload over the resident adjacency `fA`, the rounded iterate `hbv` (the rounding of `H`) and
    `x0`, over any earlier stores, read `stepT` of the three. -/
theorem readCov_step {mA : Memref sig .tc .vmem S4096x4096 .bf16} (fA : mA.view.ty.Contents (Elt F))
    {mX : Memref sig .tc .vmem S4096x64 .f32} (hX : mX.IsWhole) (x0 H : Vec F S4096x64 .f32)
    (hbv : Vec F S4096x64 .bf16) (hhb : hbv = k0_pay4 H)
    {mH : Memref sig .tc .vmem S4096x64 .f32} (L : List (View.Piece (Elt F) S4096x64 .f32)) :
    mH.view.readCov ((⟨RT3, k0_pay5 (View.readAt (Elt F) mA.view RA3.toLoadRect fA) hbv (View.readAt (Elt F) mX.view RT3.toLoadRect (hX.unread x0))⟩ : View.Piece (Elt F) S4096x64 .f32)
        :: ⟨RT2, k0_pay5 (View.readAt (Elt F) mA.view RA2.toLoadRect fA) hbv (View.readAt (Elt F) mX.view RT2.toLoadRect (hX.unread x0))⟩
        :: ⟨RT1, k0_pay5 (View.readAt (Elt F) mA.view RA1.toLoadRect fA) hbv (View.readAt (Elt F) mX.view RT1.toLoadRect (hX.unread x0))⟩
        :: ⟨RT0, k0_pay5 (View.readAt (Elt F) mA.view RA0.toLoadRect fA) hbv (View.readAt (Elt F) mX.view RT0.toLoadRect (hX.unread x0))⟩ :: L) RW.toLoadRect
      = stepT (mA.view.read (Elt F) fA) x0 H :=
  readCov_tiles4 _ _ _ _ _
    (fun x => tile_of_hb fA hX x0 H hbv hhb 0 0 rfl _ _ x)
    (fun x => tile_of_hb fA hX x0 H hbv hhb 1024 1 rfl _ _ x)
    (fun x => tile_of_hb fA hX x0 H hbv hhb 2048 2 rfl _ _ x)
    (fun x => tile_of_hb fA hX x0 H hbv hhb 3072 3 rfl _ _ x) L

/-- The last tail step, as the output's buffer holds it: the four tile stores, whatever the buffer
    held before. -/
theorem read_step_out {mA : Memref sig .tc .vmem S4096x4096 .bf16} (fA : mA.view.ty.Contents (Elt F))
    {mX : Memref sig .tc .vmem S4096x64 .f32} (hX : mX.IsWhole) (x0 H : Vec F S4096x64 .f32)
    (hbv : Vec F S4096x64 .bf16) (hhb : hbv = k0_pay4 H)
    {mO : Memref sig .tc .vmem S4096x64 .f32} (f : mO.view.ty.Contents (Elt F)) :
    mO.view.read (Elt F) (mO.view.writes (Elt F) f [(⟨RT3, k0_pay55 (View.readAt (Elt F) mA.view RA3.toLoadRect fA) hbv (View.readAt (Elt F) mX.view RT3.toLoadRect (hX.unread x0))⟩ : View.Piece (Elt F) S4096x64 .f32),
        ⟨RT2, k0_pay55 (View.readAt (Elt F) mA.view RA2.toLoadRect fA) hbv (View.readAt (Elt F) mX.view RT2.toLoadRect (hX.unread x0))⟩,
        ⟨RT1, k0_pay55 (View.readAt (Elt F) mA.view RA1.toLoadRect fA) hbv (View.readAt (Elt F) mX.view RT1.toLoadRect (hX.unread x0))⟩,
        ⟨RT0, k0_pay55 (View.readAt (Elt F) mA.view RA0.toLoadRect fA) hbv (View.readAt (Elt F) mX.view RT0.toLoadRect (hX.unread x0))⟩])
      = stepT (mA.view.read (Elt F) fA) x0 H :=
  read_tiles4 f _ _ _ _ _
    (fun x => tile_out_of_hb fA hX x0 H hbv hhb 0 0 rfl _ _ x)
    (fun x => tile_out_of_hb fA hX x0 H hbv hhb 1024 1 rfl _ _ x)
    (fun x => tile_out_of_hb fA hX x0 H hbv hhb 2048 2 rfl _ _ x)
    (fun x => tile_out_of_hb fA hX x0 H hbv hhb 3072 3 rfl _ _ x)

/-- A load of the whole rounded iterate after its whole store reads what was stored. -/
theorem readCov_whole {mB : Memref sig .tc .vmem S4096x64 .bf16} (w : RW.shape.Idx → Elt F .bf16)
    (L : List (View.Piece (Elt F) S4096x64 .bf16)) :
    mB.view.readCov ((⟨RW, w⟩ : View.Piece (Elt F) S4096x64 .bf16) :: L) RW.toLoadRect = w :=
  View.readCov_cons_toLoadRect _ RW w L

end Cert.KernelIdeal.Body

end
-- ==== Proof.KI.TailC.lean ====
/-
  The last point's nine tail steps, read off the symbolic run: each step first rounds the running
  iterate into `hb`, then overwrites the iterate tile by tile with the step's value; so each whole
  load of the iterate reads one more `stepT` of the one before, and the four tiles stored into the
  output's buffer hold the ninth. Nothing here depends on what the buffers held at entry: the
  statements are about the run's own values, for any memrefs and any contents.
-/
import proofs.«114585_g3178275799597_cont_8to1_b_565_8_alg».proof.Proof.KI.Common
import proofs.«114585_g3178275799597_cont_8to1_b_565_8_alg».proof.Proof.KI.RunC
import proofs.«114585_g3178275799597_cont_8to1_b_565_8_alg».proof.Proof.KI.Tiles
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (c : Dev nD) (i : grid0.Coords) (arg1 : Memref sig .tc .vmem S4096x64 .f32) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x64 .f32) (harg5 : arg5.IsWhole) (arg6 : Memref sig .tc .vmem S4096x64 .bf16) (harg6 : arg6.IsWhole)
  (hc0 : ¬condInit i) (hc1 : condTail i)
  (x0 : Vec F S4096x64 .f32) (a0 : Vec F S512x4096 .f32) (ab0 : Vec F S4096x4096 .bf16) (hf0 : Vec F S4096x64 .f32) (hb0 : Vec F S4096x64 .bf16)

/-- The resident adjacency's raw contents after the point's store. -/
local notation "AB1c" => arg4.view.writes (Elt F) (harg4.unread ab0) (runC.sl.H4_1 c i arg2 harg2 a0)
/-- The resident adjacency as the tail's loads read it. -/
local notation "ABf" => arg4.view.read (Elt F) AB1c

/-- The iterate as each tail step loads it (nine loads), -/
local notation "hfv0" => runC.sl.v28 c i arg1 harg1 arg2 harg2 arg4 arg5 harg5 arg6 harg6 x0 a0 hf0 hb0
local notation "hfv1" => runC.sl.v81 c i arg1 harg1 arg2 harg2 arg4 harg4 arg5 harg5 arg6 harg6 x0 a0 ab0 hf0 hb0
local notation "hfv2" => runC.sl.v134 c i arg1 harg1 arg2 harg2 arg4 harg4 arg5 harg5 arg6 harg6 x0 a0 ab0 hf0 hb0
local notation "hfv3" => runC.sl.v187 c i arg1 harg1 arg2 harg2 arg4 harg4 arg5 harg5 arg6 harg6 x0 a0 ab0 hf0 hb0
local notation "hfv4" => runC.sl.v240 c i arg1 harg1 arg2 harg2 arg4 harg4 arg5 harg5 arg6 harg6 x0 a0 ab0 hf0 hb0
local notation "hfv5" => runC.sl.v293 c i arg1 harg1 arg2 harg2 arg4 harg4 arg5 harg5 arg6 harg6 x0 a0 ab0 hf0 hb0
local notation "hfv6" => runC.sl.v346 c i arg1 harg1 arg2 harg2 arg4 harg4 arg5 harg5 arg6 harg6 x0 a0 ab0 hf0 hb0
local notation "hfv7" => runC.sl.v399 c i arg1 harg1 arg2 harg2 arg4 harg4 arg5 harg5 arg6 harg6 x0 a0 ab0 hf0 hb0
local notation "hfv8" => runC.sl.v452 c i arg1 harg1 arg2 harg2 arg4 harg4 arg5 harg5 arg6 harg6 x0 a0 ab0 hf0 hb0
/-- and its rounded copy as each step's products load it. -/
local notation "hbv0" => runC.sl.v34 c i arg1 harg1 arg2 harg2 arg4 arg5 harg5 arg6 harg6 x0 a0 hf0 hb0
local notation "hbv1" => runC.sl.v87 c i arg1 harg1 arg2 harg2 arg4 harg4 arg5 harg5 arg6 harg6 x0 a0 ab0 hf0 hb0
local notation "hbv2" => runC.sl.v140 c i arg1 harg1 arg2 harg2 arg4 harg4 arg5 harg5 arg6 harg6 x0 a0 ab0 hf0 hb0
local notation "hbv3" => runC.sl.v193 c i arg1 harg1 arg2 harg2 arg4 harg4 arg5 harg5 arg6 harg6 x0 a0 ab0 hf0 hb0
local notation "hbv4" => runC.sl.v246 c i arg1 harg1 arg2 harg2 arg4 harg4 arg5 harg5 arg6 harg6 x0 a0 ab0 hf0 hb0
local notation "hbv5" => runC.sl.v299 c i arg1 harg1 arg2 harg2 arg4 harg4 arg5 harg5 arg6 harg6 x0 a0 ab0 hf0 hb0
local notation "hbv6" => runC.sl.v352 c i arg1 harg1 arg2 harg2 arg4 harg4 arg5 harg5 arg6 harg6 x0 a0 ab0 hf0 hb0
local notation "hbv7" => runC.sl.v405 c i arg1 harg1 arg2 harg2 arg4 harg4 arg5 harg5 arg6 harg6 x0 a0 ab0 hf0 hb0
local notation "hbv8" => runC.sl.v458 c i arg1 harg1 arg2 harg2 arg4 harg4 arg5 harg5 arg6 harg6 x0 a0 ab0 hf0 hb0

/-! ## The rounded copy is the rounding of the iterate just loaded -/

theorem hb_0 : hbv0 = k0_pay4 hfv0 := readCov_whole _ _
theorem hb_1 : hbv1 = k0_pay4 hfv1 := readCov_whole _ _
theorem hb_2 : hbv2 = k0_pay4 hfv2 := readCov_whole _ _
theorem hb_3 : hbv3 = k0_pay4 hfv3 := readCov_whole _ _
theorem hb_4 : hbv4 = k0_pay4 hfv4 := readCov_whole _ _
theorem hb_5 : hbv5 = k0_pay4 hfv5 := readCov_whole _ _
theorem hb_6 : hbv6 = k0_pay4 hfv6 := readCov_whole _ _
theorem hb_7 : hbv7 = k0_pay4 hfv7 := readCov_whole _ _
theorem hb_8 : hbv8 = k0_pay4 hfv8 := readCov_whole _ _

/-! ## Each load of the iterate reads one more step -/

theorem hf_1 : hfv1 = stepT ABf x0 hfv0 :=
  readCov_step AB1c harg1 x0 _ _ (hb_0 c i arg1 harg1 arg2 harg2 arg4 arg5 harg5 arg6 harg6 x0 a0 hf0 hb0) _
theorem hf_2 : hfv2 = stepT ABf x0 hfv1 :=
  readCov_step AB1c harg1 x0 _ _ (hb_1 c i arg1 harg1 arg2 harg2 arg4 harg4 arg5 harg5 arg6 harg6 x0 a0 ab0 hf0 hb0) _
theorem hf_3 : hfv3 = stepT ABf x0 hfv2 :=
  readCov_step AB1c harg1 x0 _ _ (hb_2 c i arg1 harg1 arg2 harg2 arg4 harg4 arg5 harg5 arg6 harg6 x0 a0 ab0 hf0 hb0) _
theorem hf_4 : hfv4 = stepT ABf x0 hfv3 :=
  readCov_step AB1c harg1 x0 _ _ (hb_3 c i arg1 harg1 arg2 harg2 arg4 harg4 arg5 harg5 arg6 harg6 x0 a0 ab0 hf0 hb0) _
theorem hf_5 : hfv5 = stepT ABf x0 hfv4 :=
  readCov_step AB1c harg1 x0 _ _ (hb_4 c i arg1 harg1 arg2 harg2 arg4 harg4 arg5 harg5 arg6 harg6 x0 a0 ab0 hf0 hb0) _
theorem hf_6 : hfv6 = stepT ABf x0 hfv5 :=
  readCov_step AB1c harg1 x0 _ _ (hb_5 c i arg1 harg1 arg2 harg2 arg4 harg4 arg5 harg5 arg6 harg6 x0 a0 ab0 hf0 hb0) _
theorem hf_7 : hfv7 = stepT ABf x0 hfv6 :=
  readCov_step AB1c harg1 x0 _ _ (hb_6 c i arg1 harg1 arg2 harg2 arg4 harg4 arg5 harg5 arg6 harg6 x0 a0 ab0 hf0 hb0) _
theorem hf_8 : hfv8 = stepT ABf x0 hfv7 :=
  readCov_step AB1c harg1 x0 _ _ (hb_7 c i arg1 harg1 arg2 harg2 arg4 harg4 arg5 harg5 arg6 harg6 x0 a0 ab0 hf0 hb0) _

/-! ## The output's buffer -/

/-- The four tiles stored into the output's buffer hold the ninth step. -/
theorem out_tiles (f3 : arg3.view.ty.Contents (Elt F)) :
    arg3.view.read (Elt F) (arg3.view.writes (Elt F) f3 (runC c i arg1 harg1 arg2 harg2 arg3 harg3 arg4 harg4 arg5 harg5 arg6 harg6 hc0 hc1 x0 a0 ab0 hf0 hb0).1) = stepT ABf x0 hfv8 :=
  read_step_out AB1c harg1 x0 _ _ (hb_8 c i arg1 harg1 arg2 harg2 arg4 harg4 arg5 harg5 arg6 harg6 x0 a0 ab0 hf0 hb0) f3
/-- The output's buffer after the last point: nine steps over the resident adjacency from the
    iterate the tail starts from. -/
theorem tail_eq (AB : Vec F S4096x4096 .bf16) (H0 : Vec F S4096x64 .f32) (hAB : ABf = AB) (hH : hfv0 = H0)
    (f3 : arg3.view.ty.Contents (Elt F)) :
    arg3.view.read (Elt F) (arg3.view.writes (Elt F) f3 (runC c i arg1 harg1 arg2 harg2 arg3 harg3 arg4 harg4 arg5 harg5 arg6 harg6 hc0 hc1 x0 a0 ab0 hf0 hb0).1)
      = stepT AB x0 (stepT AB x0 (stepT AB x0 (stepT AB x0 (stepT AB x0 (stepT AB x0 (stepT AB x0 (stepT AB x0 (stepT AB x0 H0)))))))) := by
  rw [out_tiles, hf_8, hf_7, hf_6, hf_5, hf_4, hf_3, hf_2, hf_1, hAB, hH]

end

end Cert.KernelIdeal.Body

end
-- ==== Proof.KI.Good.lean ====
/-
  The invariant is kept: with the scratch buffers good for point `t`, what the body's stores leave
  in them is good for point `t + 1`; and at the last point the four tiles stored into the output's
  buffer hold nine more steps after the first.
-/
import proofs.«114585_g3178275799597_cont_8to1_b_565_8_alg».proof.Proof.KI.Common
import proofs.«114585_g3178275799597_cont_8to1_b_565_8_alg».proof.Proof.KI.Data
import proofs.«114585_g3178275799597_cont_8to1_b_565_8_alg».proof.Proof.KI.Stream
import proofs.«114585_g3178275799597_cont_8to1_b_565_8_alg».proof.Proof.KI.RunA
import proofs.«114585_g3178275799597_cont_8to1_b_565_8_alg».proof.Proof.KI.RunB
import proofs.«114585_g3178275799597_cont_8to1_b_565_8_alg».proof.Proof.KI.TailC
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- After the first point: `x` rounded, the first block rounded, the first step's first block. -/
theorem goodA (c : Dev nD) (t : Fin cfg0.N) (ht : t.val = 0) (hcI : condInit (grid0.coords t)) (hcT : ¬condTail (grid0.coords t))
    (ab0 : Vec F S4096x4096 .bf16) (hf0 : Vec F S4096x64 .f32) (hb0 : Vec F S4096x64 .bf16) :
    Good m c 1
      (scA.view.read (Elt F) (scA.view.writes (Elt F) ((Memref.isWhole_whole cc0_scratch0).unread ab0)
        (runA c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).1))
      (scH.view.read (Elt F) (scH.view.writes (Elt F) ((Memref.isWhole_whole cc0_scratch1).unread hf0)
        (runA c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.1))
      (scB.view.read (Elt F) (scB.view.writes (Elt F) ((Memref.isWhole_whole cc0_scratch2).unread hb0)
        (runA c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.2.1)) := by
  have hV12 : runA.sl.v12 c (ms0 t) (hs0 t) scB (iblk m c 0 t) = HB0 (xarr m c) := by
    show scB.view.readCov (runA.sl.H6_1 c (ms0 t) (hs0 t) (iblk m c 0 t)) _ = _
    refine (View.readCov_cons_toLoadRect _ _ _ _).trans ?_
    rw [readAt_wholeW, iblk0_eq]
    rfl
  refine ⟨fun y hy => ?_, fun y hy => ?_, fun _ => ?_⟩
  · show scA.view.read (Elt F) (scA.view.writes (Elt F) ((Memref.isWhole_whole cc0_scratch0).unread ab0)
        (runA.sl.H4_1 c (grid0.coords t) (ms1 t) (hs1 t) (iblk m c 1 t))) y = _
    refine stream_ab (adjarr m c) (Memref.isWhole_whole _) ab0 t _ _ ?_ (fun y h => absurd h (by omega)) y (by omega)
    rw [readAt_whole512, iblk1_eq]
  · refine stream_hf (xarr m c) (adjarr m c) (Memref.isWhole_whole _) hf0 t _ _ _ _ ?_ hV12 ?_ (fun y h => absurd h (by omega)) y (by omega)
    · show scA.view.readCov (runA.sl.H4_1 c (grid0.coords t) (ms1 t) (hs1 t) (iblk m c 1 t)) _ = _
      refine (View.readCov_cons_toLoadRect _ _ _ _).trans ?_
      rw [readAt_whole512, iblk1_eq]
    · rw [readAt_rows512, iblk0_eq]
  · show scB.view.read (Elt F) (scB.view.writes (Elt F) ((Memref.isWhole_whole cc0_scratch2).unread hb0)
        (runA.sl.H6_1 c (ms0 t) (hs0 t) (iblk m c 0 t))) = _
    funext y
    refine (View.read_writes_cons_rows_of_mem scB.view _ inb_S4096x64_S4096x64_0_0 _ [] y y rfl (Nat.zero_add _).symm rfl).trans ?_
    rw [readAt_wholeW, iblk0_eq]
    rfl

/-- After a middle point: one more block of each. -/
theorem goodB (c : Dev nD) (t : Fin cfg0.N) (ht : t.val ≠ 0) (hcI : ¬condInit (grid0.coords t)) (hcT : ¬condTail (grid0.coords t))
    (ab0 : Vec F S4096x4096 .bf16) (hf0 : Vec F S4096x64 .f32) (hb0 : Vec F S4096x64 .bf16)
    (hG : Good m c t.val ab0 hf0 hb0) :
    Good m c (t.val + 1)
      (scA.view.read (Elt F) (scA.view.writes (Elt F) ((Memref.isWhole_whole cc0_scratch0).unread ab0)
        (runB c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).1))
      (scH.view.read (Elt F) (scH.view.writes (Elt F) ((Memref.isWhole_whole cc0_scratch1).unread hf0)
        (runB c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.1))
      hb0 := by
  obtain ⟨hab, hhf, hhb⟩ := hG
  have h1t : 1 ≤ t.val := Nat.one_le_iff_ne_zero.mpr ht
  refine ⟨fun y hy => ?_, fun y hy => ?_, fun _ => hhb h1t⟩
  · show scA.view.read (Elt F) (scA.view.writes (Elt F) ((Memref.isWhole_whole cc0_scratch0).unread ab0)
        (runB.sl.H4_1 c (grid0.coords t) (ms1 t) (hs1 t) (iblk m c 1 t))) y = _
    refine stream_ab (adjarr m c) (Memref.isWhole_whole _) ab0 t _ _ ?_ hab y hy
    rw [readAt_whole512, iblk1_eq]
  · refine stream_hf (xarr m c) (adjarr m c) (Memref.isWhole_whole _) hf0 t _ _ _ _ ?_ ?_ ?_ hhf y hy
    · show scA.view.readCov (runB.sl.H4_1 c (grid0.coords t) (ms1 t) (hs1 t) (iblk m c 1 t)) _ = _
      refine (View.readCov_cons_toLoadRect _ _ _ _).trans ?_
      rw [readAt_whole512, iblk1_eq]
    · rw [readAt_wholeW]; exact hhb h1t
    · rw [readAt_rows512, iblk0_eq]

/-- At the last point the output's buffer ends at nine more steps after the first. -/
theorem outC (c : Dev nD) (t : Fin cfg0.N) (ht : t.val = 7) (hcI : ¬condInit (grid0.coords t)) (hcT : condTail (grid0.coords t))
    (ab0 : Vec F S4096x4096 .bf16) (hf0 : Vec F S4096x64 .f32) (hb0 : Vec F S4096x64 .bf16)
    (hG : Good m c 7 ab0 hf0 hb0) (f3 : (ms2 t).view.ty.Contents (Elt F)) :
    (ms2 t).view.read (Elt F) ((ms2 t).view.writes (Elt F) f3
        (runC c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).1)
      = OUT (xarr m c) (adjarr m c) := by
  obtain ⟨hab, hhf, hhb⟩ := hG
  have hV11 : runC.sl.v11 c (grid0.coords t) (ms1 t) (hs1 t) scA (iblk m c 1 t) = k0_pay2 (blkA512 (adjarr m c) (tq t)) := by
    show scA.view.readCov (runC.sl.H4_1 c (grid0.coords t) (ms1 t) (hs1 t) (iblk m c 1 t)) _ = _
    refine (View.readCov_cons_toLoadRect _ _ _ _).trans ?_
    rw [readAt_whole512, iblk1_eq]
  have hAB : scA.view.read (Elt F) (scA.view.writes (Elt F) ((Memref.isWhole_whole cc0_scratch0).unread ab0)
      (runC.sl.H4_1 c (grid0.coords t) (ms1 t) (hs1 t) (iblk m c 1 t))) = ABs (adjarr m c) := by
    funext y
    refine stream_ab (adjarr m c) (Memref.isWhole_whole _) ab0 t _ _ ?_ (fun y h => hab y (by omega)) y (by have h4 : (y 0).val < 4096 := (y 0).isLt; omega)
    rw [readAt_whole512, iblk1_eq]
  have hH : runC.sl.v28 c (grid0.coords t) (ms0 t) (hs0 t) (ms1 t) (hs1 t) scA scH (Memref.isWhole_whole _) scB (Memref.isWhole_whole _)
      (iblk m c 0 t) (iblk m c 1 t) hf0 hb0 = H1 (xarr m c) (adjarr m c) := by
    show View.readAt (Elt F) scH.view RW.toLoadRect (scH.view.writes (Elt F) ((Memref.isWhole_whole cc0_scratch1).unread hf0)
      (runC.sl.H5_1 c (grid0.coords t) (ms0 t) (hs0 t) (ms1 t) (hs1 t) scA scB (Memref.isWhole_whole _) (iblk m c 0 t) (iblk m c 1 t) hb0)) = _
    rw [View.readAt_eq_ld, View.ld_unit_zero (S := S4096x64) (funext fun a => by fin_cases a <;> rfl)]
    funext y
    refine stream_hf (xarr m c) (adjarr m c) (Memref.isWhole_whole _) hf0 t _ _ _ _ hV11 ?_ ?_ (fun y h => hhf y (by omega)) y (by have h4 : (y 0).val < 4096 := (y 0).isLt; omega)
    · rw [readAt_wholeW]; exact hhb (by omega)
    · rw [readAt_rows512, iblk0_eq]
  rw [tail_eq c (grid0.coords t) (ms0 t) (hs0 t) (ms1 t) (hs1 t) (ms2 t) (hs2 t) scA (Memref.isWhole_whole _) scH (Memref.isWhole_whole _)
    scB (Memref.isWhole_whole _) hcI hcT (iblk m c 0 t) (iblk m c 1 t) ab0 hf0 hb0 (ABs (adjarr m c)) (H1 (xarr m c) (adjarr m c)) hAB hH f3,
    iblk0_eq]
  rfl

end Cert.KernelIdeal.Body

end
-- ==== Proof.KI.Body.lean ====
/-
  The body obligation. At the first point the body finds the scratch at anything and leaves it good
  for point 1; at a middle point it finds it good for the point and leaves it good for the next; at
  the last point it finds it good for point 7 and leaves the output's staging buffer at nine more
  steps after the first, the scratch at whatever the tail left. The inputs' buffers hold their blocks
  throughout; off the last point the output's buffer is handed back untouched.
-/
import proofs.«114585_g3178275799597_cont_8to1_b_565_8_alg».proof.Proof.KI.Common
import proofs.«114585_g3178275799597_cont_8to1_b_565_8_alg».proof.Proof.KI.Good
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: by cases on the point — first, middle, last. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [Phi_castSucc, Phi_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 8 := lt_of_lt_of_eq t.isLt N8
  by_cases h0 : t.val = 0
  · have hcI : condInit (grid0.coords t) := (hcondInit t).mpr h0
    have hcT : ¬condTail (grid0.coords t) := fun h => by have := (hcondTail t).mp h; omega
    rw [Dat.leavesExact_idle (dats m 0 c) 2 t (idle2 t hcT) (noFlush2 t hcT)]
    rw [show PhiS m c t.val = Pipeline.ΦA spec0 c from by rw [h0]; exact PhiS_zero m c,
      show PhiS m c (t.val + 1) = Inv m c 1 from by rw [h0]; exact PhiS_mid m c 1 (by omega) (by omega), PhiA_eq]
    unfold Inv
    iintro ⟨⟨⟨⟨%ab0, HA⟩, ⟨%hf0, HH⟩, ⟨%hb0, HB⟩⟩, Hg⟩, Ho, ⟨%d0, H0⟩, ⟨%d1, H1⟩, ⟨%d2, H2⟩⟩
    iapply ((runA c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.2.2 _ Set.univ _)
    isplitl [H0]; · iexact H0
    isplitl [H1]; · iexact H1
    isplitl [H2]; · iexact H2
    isplitl [HA]; · iexact HA
    isplitl [HH]; · iexact HH
    isplitl [HB]; · iexact HB
    iintro ⟨H0, H1, H2, HA, HH, HB⟩
    isplitl [HA HH HB Hg]
    · isplitl [HA HH HB]
      · iexists _; iexists _; iexists _
        isplitr
        · ipureintro; exact goodA m c t h0 hcI hcT ab0 hf0 hb0
        isplitl [HA]
        · unfold owns; iexists _; isplitr; swap; · iexact HA
          ipureintro; rfl
        isplitl [HH]
        · unfold owns; iexists _; isplitr; swap; · iexact HH
          ipureintro; rfl
        unfold owns; iexists _; isplitr; swap; · iexact HB
        ipureintro; rfl
      iexact Hg
    isplitl [Ho]; · iexact Ho
    isplitl [H0]; · iexact H0
    isplitl [H1]; · iexact H1
    iexists _; iexact H2
  · by_cases h7 : t.val = 7
    · have hcI : ¬condInit (grid0.coords t) := fun h => h0 ((hcondInit t).mp h)
      have hcT : condTail (grid0.coords t) := (hcondTail t).mpr h7
      rw [show (dats m 0 c).leavesExact 2 t = owns (c : Thread nD τ) (ms2 t) fullShare ((dats m 0 c).after 2 t) from by
        unfold Dat.leavesExact; rw [live2 t hcT], after2]
      rw [show PhiS m c t.val = Inv m c 7 from by rw [h7]; exact PhiS_mid m c 7 (by omega) (by omega),
        show PhiS m c (t.val + 1) = Pipeline.ΦA spec0 c from by rw [h7]; exact PhiS_last m c, PhiA_eq]
      unfold Inv
      iintro ⟨⟨⟨%ab0, %hf0, %hb0, %hG, HA, HH, HB⟩, Hg⟩, Ho, ⟨%d0, H0⟩, ⟨%d1, H1⟩, ⟨%d2, H2⟩⟩
      iapply ((runC c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.2.2.2 _ Set.univ _)
      isplitl [H0]; · iexact H0
      isplitl [H1]; · iexact H1
      isplitl [H2]; · iexact H2
      isplitl [HA]; · iexact HA
      isplitl [HH]; · iexact HH
      isplitl [HB]; · iexact HB
      iintro ⟨H0, H1, H2, HA, HH, HB⟩
      isplitl [HA HH HB Hg]
      · isplitl [HA HH HB]
        · isplitl [HA]
          · iexists _; unfold owns; iexists _; isplitr; swap; · iexact HA
            ipureintro; rfl
          isplitl [HH]
          · iexists _; unfold owns; iexists _; isplitr; swap; · iexact HH
            ipureintro; rfl
          iexists _; unfold owns; iexists _; isplitr; swap; · iexact HB
          ipureintro; rfl
        iexact Hg
      isplitl [Ho]; · iexact Ho
      isplitl [H0]; · iexact H0
      isplitl [H1]; · iexact H1
      unfold owns; iexists _; isplitr; swap; · iexact H2
      ipureintro; exact outC m c t h7 hcI hcT ab0 hf0 hb0 hG _
    · have hcI : ¬condInit (grid0.coords t) := fun h => h0 ((hcondInit t).mp h)
      have hcT : ¬condTail (grid0.coords t) := fun h => h7 ((hcondTail t).mp h)
      rw [Dat.leavesExact_idle (dats m 0 c) 2 t (idle2 t hcT) (noFlush2 t hcT)]
      rw [PhiS_mid m c t.val h0 (by omega), PhiS_mid m c (t.val + 1) (by omega) (by omega)]
      unfold Inv
      iintro ⟨⟨⟨%ab0, %hf0, %hb0, %hG, HA, HH, HB⟩, Hg⟩, Ho, ⟨%d0, H0⟩, ⟨%d1, H1⟩, ⟨%d2, H2⟩⟩
      iapply ((runB c (grid0.coords t) (ms0 t) (hs0 t) (ms1 t) (hs1 t) (ms2 t) (hs2 t) scA (Memref.isWhole_whole _) scH (Memref.isWhole_whole _) scB (Memref.isWhole_whole _) hcI hcT (iblk m c 0 t) (iblk m c 1 t) ab0 hf0 hb0).2.2 _ Set.univ _)
      isplitl [H0]; · iexact H0
      isplitl [H1]; · iexact H1
      isplitl [H2]; · iexact H2
      isplitl [HA]; · iexact HA
      isplitl [HH]; · iexact HH
      isplitl [HB]; · iexact HB
      iintro ⟨H0, H1, H2, HA, HH, HB⟩
      isplitl [HA HH HB Hg]
      · isplitl [HA HH HB]
        · iexists _; iexists _; iexists _
          isplitr
          · ipureintro; exact goodB m c t h0 hcI hcT ab0 hf0 hb0 hG
          isplitl [HA]
          · unfold owns; iexists _; isplitr; swap; · iexact HA
            ipureintro; rfl
          isplitl [HH]
          · unfold owns; iexists _; isplitr; swap; · iexact HH
            ipureintro; rfl
          iexact HB
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.KI.Frame.lean ====
/-
  The frame run: with the body obligation, the launch runs the eight points to the end, nothing
  faulting, every array of the pipeline at what the proof data computes and the arguments unchanged.
-/
import proofs.«114585_g3178275799597_cont_8to1_b_565_8_alg».proof.Proof.KI.Common
import proofs.«114585_g3178275799597_cont_8to1_b_565_8_alg».proof.Proof.KI.Body
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every final state has each array of the
    pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float family: the program runs to the end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.Final.lean ====
/-
  The output array after the run: the last point writes its whole staging buffer back over the
  whole array, so the array ends at nine more steps after the first.
-/
import proofs.«114585_g3178275799597_cont_8to1_b_565_8_alg».proof.Proof.KI.Common
import proofs.«114585_g3178275799597_cont_8to1_b_565_8_alg».proof.Proof.KI.Data
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- What the last point writes back is the whole of `OUT`. -/
theorem flushed2_eq (c : Dev nD) (t : Fin cfg0.N) :
    (dats m 0 c).flushed 2 t = ((cfg0.win 2).blk t).view.read (Elt F) (OUT (xarr m c) (adjarr m c)) := by
  show (cfg0.win 2).cut (grid0.coords t) ((dats m 0 c).after 2 t) = _
  rw [after2]
  obtain ⟨-, -, -, -, e0, e1⟩ := idx_facts t
  funext j
  show OUT (xarr m c) (adjarr m c) j = OUT (xarr m c) (adjarr m c) (((cfg0.win 2).blk t).view.emb j)
  refine congrArg _ (funext fun a => Fin.ext ?_)
  match a with
  | ⟨0, _⟩ => show (j 0).val = win0_2.index t (0 : Fin 2) * 4096 + 1 * (j 0).val; omega
  | ⟨1, _⟩ => show (j 1).val = win0_2.index t (1 : Fin 2) * 64 + 1 * (j 1).val; omega

/-- The output array after the run. -/
theorem final2 (c : Dev nD) : (dats m 0 c).arrAt 2 cfg0.N = OUT (xarr m c) (adjarr m c) := by
  refine (dats m 0 c).arrAt_eq_of_cover 2 _ (fun t _ => flushed2_eq m c t) (fun i => ?_)
  have h7 : 7 < cfg0.N := by rw [N8]; decide
  refine ⟨⟨7, h7⟩, (flush0_2 _).mpr rfl, ?_⟩
  obtain ⟨-, -, -, -, e0, e1⟩ := idx_facts (⟨7, h7⟩ : Fin cfg0.N)
  show i ∈ ((View.whole main_v0).slice (win0_2.rect ⟨7, h7⟩)).set
  rw [View.set_slice_whole, Rect.mem_set_unit]
  intro a
  match a with
  | ⟨0, _⟩ =>
    show win0_2.index ⟨7, h7⟩ (0 : Fin 2) * 4096 ≤ (i 0).val ∧ (i 0).val < win0_2.index ⟨7, h7⟩ (0 : Fin 2) * 4096 + 4096
    have hi : (i 0).val < 4096 := (i 0).isLt
    omega
  | ⟨1, _⟩ =>
    show win0_2.index ⟨7, h7⟩ (1 : Fin 2) * 64 ≤ (i 1).val ∧ (i 1).val < win0_2.index ⟨7, h7⟩ (1 : Fin 2) * 64 + 64
    have hi : (i 1).val < 64 := (i 1).isLt
    omega

end Cert.KernelIdeal.Body

end
-- ==== Proof.KI.Value.lean ====
/-
  The value run: the result array ends at nine more propagation steps after the first, as a
  function of the two argument arrays, and the arguments end unchanged.
-/
import proofs.«114585_g3178275799597_cont_8to1_b_565_8_alg».proof.Proof.KI.Common
import proofs.«114585_g3178275799597_cont_8to1_b_565_8_alg».proof.Proof.KI.Frame
import proofs.«114585_g3178275799597_cont_8to1_b_565_8_alg».proof.Proof.KI.Final
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v0) = OUT (xarr m c) (adjarr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Body

end
-- ==== Proof.Math.lean ====
/-
  The propagation both programs compute, on the extended reals: ten steps of
  `h ↦ c₉ · (A h) + c₁ · x` from `h = x`, with `A` a 4096 × 4096 matrix, `x` and `h` 4096 × 64,
  `c₉` and `c₁` the two single-precision constants both programs spell (the words of 0.9 and 0.1),
  and `A h` the plain matrix product, a sum of 4096 products per entry.
-/
import Idealize.ShloMosaic.PureOps.Ideal
import Idealize.ShloMosaic.Lib.ValueIdx

noncomputable section

namespace Cert.Appnp

open Idealize.ShloMosaic

/-- A 4096 × 64 matrix of extended reals, by coordinates. -/
abbrev Mat := Fin 4096 → Fin 64 → EReal
/-- A 4096 × 4096 matrix of extended reals, by coordinates. -/
abbrev Adj := Fin 4096 → Fin 4096 → EReal

/-- The constant both programs write as `0.899999976`. -/
abbrev c9 : EReal := Ideal.ofBits .f32 0x3F666666#32
/-- The constant both programs write as `1.000000e-01`. -/
abbrev c1 : EReal := Ideal.ofBits .f32 0x3DCCCCCD#32

/-- One propagation step: `c₉ · (A h) + c₁ · x`. -/
def step (A : Adj) (X h : Mat) : Mat := fun r j => c9 * (∑ k : Fin 4096, A r k * h k j) + c1 * X r j

/-- `n` steps from `h = x`. -/
def iter (A : Adj) (X : Mat) : ℕ → Mat
  | 0 => X
  | n + 1 => step A X (iter A X n)

theorem iter_succ (A : Adj) (X : Mat) (n : ℕ) : iter A X (n + 1) = step A X (iter A X n) := rfl

end Cert.Appnp

end
-- ==== Proof.KI.KValue.lean ====
/-
  At the ideal instance the kernel's buffers hold the propagation's iterates: rounding to the
  16-bit format is the identity there, a block product into a zero accumulator is the plain sum of
  products, and the blocks are restrictions of one whole-matrix product, so the first step is
  `iter A x 1`, each later step one more, and the output's buffer ends at `iter A x 10`.
-/
import proofs.«114585_g3178275799597_cont_8to1_b_565_8_alg».proof.Proof.KI.Spec
import proofs.«114585_g3178275799597_cont_8to1_b_565_8_alg».proof.Proof.Math
import Idealize.ShloMosaic.PureOps.Ideal.Laws
import Idealize.ShloMosaic.Lib.Pipeline.Value

noncomputable section

namespace Cert.KernelIdeal.Body

open Cert.KernelIdeal Cert.KernelIdeal.Gen
open Idealize.ShloMosaic Idealize.ShloMosaic.ValueIdx Idealize.SL.Sem

namespace KValue

/-! ## Rounding to the 16-bit format is the identity at the ideal values -/

/-- The rounded copy of a 4096 × 64 array is the array. -/
theorem pay1_eq (X : Vec Ideal S4096x64 .f32) : k0_pay1 (F := Ideal) X = X := by
  exact shapeCast_self _ shapeCasts_S4096x64_S4096x64

/-- The same for the copy a later step makes of its iterate. -/
theorem pay4_eq (X : Vec Ideal S4096x64 .f32) : k0_pay4 (F := Ideal) X = X := by
  exact shapeCast_self _ shapeCasts_S4096x64_S4096x64

/-- The rounded copy of a 512 × 4096 block is the block. -/
theorem pay2_eq (a : Vec Ideal S512x4096 .f32) : k0_pay2 (F := Ideal) a = a := by
  exact shapeCast_self _ shapeCasts_S512x4096_S512x4096

/-! ## The coordinates of the operands of the two block products -/

theorem lhs512_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs512_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem rhs512_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem rhs512_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The 512-row block product into the zero accumulator, at an entry: the plain sum of products. -/
theorem matmul512_apply (a : FVec Ideal S512x4096 .bf16) (b : FVec Ideal S4096x64 .bf16) (p : Fin 512) (q : Fin 64) :
    FloatOps.matmul (F := Ideal) dot_S512x4096_S4096x64_S512x64_1_0_0_1_n_n none a b (constant S512x64 .f32 0x00000000#32) (ix2 p q)
      = ∑ k : Fin 4096, a (ix2 p k) * b (ix2 k q) := by
  rw [Ideal.matmul_constant_zero_apply, ← Equiv.sum_comp (ValueIdx.contrEquiv1 dot_S512x4096_S4096x64_S512x64_1_0_0_1_n_n 4096 rfl rfl).symm]
  refine Finset.sum_congr rfl fun k _ => ?_
  have hk := ValueIdx.contrEquiv1_symm_val dot_S512x4096_S4096x64_S512x64_1_0_0_1_n_n 4096 rfl rfl k
  have el : dot_S512x4096_S4096x64_S512x64_1_0_0_1_n_n.lhsIdx (ix2 p q) ((ValueIdx.contrEquiv1 dot_S512x4096_S4096x64_S512x64_1_0_0_1_n_n 4096 rfl rfl).symm k) = ix2 p k := funext fun c => Fin.ext (by
    match c with
    | ⟨0, _⟩ => exact lhs512_0 _ _
    | ⟨1, _⟩ => exact (lhs512_1 _ _).trans hk)
  have er : dot_S512x4096_S4096x64_S512x64_1_0_0_1_n_n.rhsIdx (ix2 p q) ((ValueIdx.contrEquiv1 dot_S512x4096_S4096x64_S512x64_1_0_0_1_n_n 4096 rfl rfl).symm k) = ix2 k q := funext fun c => Fin.ext (by
    match c with
    | ⟨0, _⟩ => exact (rhs512_0 _ _).trans hk
    | ⟨1, _⟩ => exact rhs512_1 _ _)
  rw [el, er]

/-- A 512-row store of the first step, at an entry: `c₉` times the row of the block times the column, plus `c₁` times
    the entry of the block of `x`. -/
theorem pay3_apply (v11 : Vec Ideal S512x4096 .bf16) (v12 : Vec Ideal S4096x64 .bf16) (v17 : Vec Ideal S512x64 .f32)
    (p : Fin 512) (q : Fin 64) :
    k0_pay3 (F := Ideal) v11 v12 v17 (ix2 p q)
      = Cert.Appnp.c9 * (∑ k : Fin 4096, v11 (ix2 p k) * v12 (ix2 k q)) + Cert.Appnp.c1 * v17 (ix2 p q) := by
  have h : k0_pay3 (F := Ideal) v11 v12 v17
      = shapeCast S512x64 (addf (mulf (broadcast S512x64 (Scalar.ofBits (F := Ideal) .f32 0x3F666666#32))
            (matmul dot_S512x4096_S4096x64_S512x64_1_0_0_1_n_n none v11 v12 (constant S512x64 .f32 0x00000000#32)))
          (mulf (broadcast S512x64 (Scalar.ofBits (F := Ideal) .f32 0x3DCCCCCD#32)) v17)) shapeCasts_S512x64_S512x64 := rfl
  rw [h, shapeCast_self]
  exact congrArg (fun t => Cert.Appnp.c9 * t + Cert.Appnp.c1 * v17 (ix2 p q)) (matmul512_apply v11 v12 p q)

theorem lhs1024_0 (i : S1024x64.Idx) (q : dot_S1024x4096_S4096x64_S1024x64_1_0_0_1_n_n.contr.Idx) :
    (dot_S1024x4096_S4096x64_S1024x64_1_0_0_1_n_n.lhsIdx i q 0).val = (i 0).val := by
  unfold DotDims.lhsIdx
  rw [dif_neg (show ¬(0 : Fin S1024x4096.rank) ∈ dot_S1024x4096_S4096x64_S1024x64_1_0_0_1_n_n.lhsBatch by decide), dif_pos (show (0 : Fin S1024x4096.rank) ∈ dot_S1024x4096_S4096x64_S1024x64_1_0_0_1_n_n.lhsNonContracting by decide)]
  rfl
theorem lhs1024_1 (i : S1024x64.Idx) (q : dot_S1024x4096_S4096x64_S1024x64_1_0_0_1_n_n.contr.Idx) :
    (dot_S1024x4096_S4096x64_S1024x64_1_0_0_1_n_n.lhsIdx i q 1).val = (q ⟨0, by decide⟩).val :=
  dot_S1024x4096_S4096x64_S1024x64_1_0_0_1_n_n.lhsIdx_val_of_single rfl i q
theorem rhs1024_0 (i : S1024x64.Idx) (q : dot_S1024x4096_S4096x64_S1024x64_1_0_0_1_n_n.contr.Idx) :
    (dot_S1024x4096_S4096x64_S1024x64_1_0_0_1_n_n.rhsIdx i q 0).val = (q ⟨0, by decide⟩).val :=
  dot_S1024x4096_S4096x64_S1024x64_1_0_0_1_n_n.rhsIdx_val_of_single rfl i q
theorem rhs1024_1 (i : S1024x64.Idx) (q : dot_S1024x4096_S4096x64_S1024x64_1_0_0_1_n_n.contr.Idx) :
    (dot_S1024x4096_S4096x64_S1024x64_1_0_0_1_n_n.rhsIdx i q 1).val = (i 1).val := by
  unfold DotDims.rhsIdx
  rw [dif_neg (show ¬(1 : Fin S4096x64.rank) ∈ dot_S1024x4096_S4096x64_S1024x64_1_0_0_1_n_n.rhsBatch by decide), dif_pos (show (1 : Fin S4096x64.rank) ∈ dot_S1024x4096_S4096x64_S1024x64_1_0_0_1_n_n.rhsNonContracting by decide)]
  rfl

/-- The 1024-row tile product into the zero accumulator, at an entry: the plain sum of products. -/
theorem matmul1024_apply (a : FVec Ideal S1024x4096 .bf16) (b : FVec Ideal S4096x64 .bf16) (p : Fin 1024) (q : Fin 64) :
    FloatOps.matmul (F := Ideal) dot_S1024x4096_S4096x64_S1024x64_1_0_0_1_n_n none a b (constant S1024x64 .f32 0x00000000#32) (ix2 p q)
      = ∑ k : Fin 4096, a (ix2 p k) * b (ix2 k q) := by
  rw [Ideal.matmul_constant_zero_apply, ← Equiv.sum_comp (ValueIdx.contrEquiv1 dot_S1024x4096_S4096x64_S1024x64_1_0_0_1_n_n 4096 rfl rfl).symm]
  refine Finset.sum_congr rfl fun k _ => ?_
  have hk := ValueIdx.contrEquiv1_symm_val dot_S1024x4096_S4096x64_S1024x64_1_0_0_1_n_n 4096 rfl rfl k
  have el : dot_S1024x4096_S4096x64_S1024x64_1_0_0_1_n_n.lhsIdx (ix2 p q) ((ValueIdx.contrEquiv1 dot_S1024x4096_S4096x64_S1024x64_1_0_0_1_n_n 4096 rfl rfl).symm k) = ix2 p k := funext fun c => Fin.ext (by
    match c with
    | ⟨0, _⟩ => exact lhs1024_0 _ _
    | ⟨1, _⟩ => exact (lhs1024_1 _ _).trans hk)
  have er : dot_S1024x4096_S4096x64_S1024x64_1_0_0_1_n_n.rhsIdx (ix2 p q) ((ValueIdx.contrEquiv1 dot_S1024x4096_S4096x64_S1024x64_1_0_0_1_n_n 4096 rfl rfl).symm k) = ix2 k q := funext fun c => Fin.ext (by
    match c with
    | ⟨0, _⟩ => exact (rhs1024_0 _ _).trans hk
    | ⟨1, _⟩ => exact rhs1024_1 _ _)
  rw [el, er]

/-- A 1024-row store of a later step, at an entry: the same expression over the tile. -/
theorem pay5_apply (v33 : Vec Ideal S1024x4096 .bf16) (v34 : Vec Ideal S4096x64 .bf16) (v38 : Vec Ideal S1024x64 .f32)
    (p : Fin 1024) (q : Fin 64) :
    k0_pay5 (F := Ideal) v33 v34 v38 (ix2 p q)
      = Cert.Appnp.c9 * (∑ k : Fin 4096, v33 (ix2 p k) * v34 (ix2 k q)) + Cert.Appnp.c1 * v38 (ix2 p q) := by
  have h : k0_pay5 (F := Ideal) v33 v34 v38
      = shapeCast S1024x64 (addf (mulf (broadcast S1024x64 (Scalar.ofBits (F := Ideal) .f32 0x3F666666#32))
            (matmul dot_S1024x4096_S4096x64_S1024x64_1_0_0_1_n_n none v33 v34 (constant S1024x64 .f32 0x00000000#32)))
          (mulf (broadcast S1024x64 (Scalar.ofBits (F := Ideal) .f32 0x3DCCCCCD#32)) v38)) shapeCasts_S1024x64_S1024x64 := rfl
  rw [h, shapeCast_self]
  exact congrArg (fun t => Cert.Appnp.c9 * t + Cert.Appnp.c1 * v38 (ix2 p q)) (matmul1024_apply v33 v34 p q)

/-! ## Blocks and tiles are restrictions of the whole arrays -/

/-- Equal coordinates give equal indices. -/
theorem ix2_congr {n0 n1 : ℕ} {a a' : Fin n0} {b b' : Fin n1} (ha : a = a') (hb : b = b') :
    (ix2 a b : (⟨2, ![n0, n1]⟩ : Shape).Idx) = ix2 a' b' := by
  subst ha hb; rfl

/-- A row is its 512-row block's offset plus its place in the block: `512 (r / 512) + r % 512 = r`. -/
theorem row512 (r : Fin 4096) (h : 512 * (q512 r).val + (r512 r).val < 4096) :
    (⟨512 * (q512 r).val + (r512 r).val, h⟩ : Fin 4096) = r :=
  Fin.ext (Nat.div_add_mod r.val 512)

/-- Likewise `1024 (r / 1024) + r % 1024 = r`. -/
theorem row1024 (r : Fin 4096) (h : 1024 * (q1024 r).val + (r1024 r).val < 4096) :
    (⟨1024 * (q1024 r).val + (r1024 r).val, h⟩ : Fin 4096) = r :=
  Fin.ext (Nat.div_add_mod r.val 1024)

/-- The resident adjacency is the adjacency. -/
theorem ABs_apply (ADJ : Vec Ideal S4096x4096 .f32) (r c : Fin 4096) :
    ABs (F := Ideal) ADJ (ix2 r c) = ADJ (ix2 r c) := by
  show k0_pay2 (F := Ideal) (blkA512 ADJ (q512 r)) (ix2 (r512 r) c) = _
  rw [pay2_eq]
  exact congrArg ADJ (ix2_congr (row512 r _) rfl)

/-- Row `r % 512` of block `r / 512` of the resident adjacency is row `r` of the adjacency. -/
theorem blkA512_ABs (ADJ : Vec Ideal S4096x4096 .f32) (r k : Fin 4096) :
    blkA512 (ABs (F := Ideal) ADJ) (q512 r) (ix2 (r512 r) k) = ADJ (ix2 r k) := by
  show ABs (F := Ideal) ADJ (ix2 _ k) = _
  rw [ABs_apply]
  exact congrArg ADJ (ix2_congr (row512 r _) rfl)

/-- Row `r % 1024` of tile `r / 1024` of the resident adjacency is row `r` of the adjacency. -/
theorem blkA1024_ABs (ADJ : Vec Ideal S4096x4096 .f32) (r k : Fin 4096) :
    blkA1024 (ABs (F := Ideal) ADJ) (q1024 r) (ix2 (r1024 r) k) = ADJ (ix2 r k) := by
  show ABs (F := Ideal) ADJ (ix2 _ k) = _
  rw [ABs_apply]
  exact congrArg ADJ (ix2_congr (row1024 r _) rfl)

/-- Row `r % 512` of block `r / 512` of `x` is row `r` of `x`. -/
theorem blkX512_apply (X : Vec Ideal S4096x64 .f32) (r : Fin 4096) (j : Fin 64) :
    blkX512 X (q512 r) (ix2 (r512 r) j) = X (ix2 r j) :=
  congrArg X (ix2_congr (row512 r _) rfl)

/-- Row `r % 1024` of tile `r / 1024` of `x` is row `r` of `x`. -/
theorem blkX1024_apply (X : Vec Ideal S4096x64 .f32) (r : Fin 4096) (j : Fin 64) :
    blkX1024 X (q1024 r) (ix2 (r1024 r) j) = X (ix2 r j) :=
  congrArg X (ix2_congr (row1024 r _) rfl)

/-! ## The steps -/

/-- The first step is one propagation step from `x`. -/
theorem H1_apply (X : Vec Ideal S4096x64 .f32) (ADJ : Vec Ideal S4096x4096 .f32) (r : Fin 4096) (j : Fin 64) :
    H1 (F := Ideal) X ADJ (ix2 r j)
      = Cert.Appnp.iter (fun r k => ADJ (ix2 r k)) (fun r j => X (ix2 r j)) 1 r j := by
  show k0_pay3 (F := Ideal) (blkA512 (ABs ADJ) (q512 r)) (HB0 X) (blkX512 X (q512 r)) (ix2 (r512 r) j) = _
  rw [pay3_apply, blkX512_apply]
  show _ = Cert.Appnp.c9 * (∑ k : Fin 4096, ADJ (ix2 r k) * X (ix2 k j)) + Cert.Appnp.c1 * X (ix2 r j)
  refine congrArg (fun t => Cert.Appnp.c9 * t + Cert.Appnp.c1 * X (ix2 r j)) (Finset.sum_congr rfl fun k _ => ?_)
  rw [blkA512_ABs]
  show _ * k0_pay1 (F := Ideal) X (ix2 k j) = _
  rw [pay1_eq]

/-- A later step is one propagation step from the iterate it reads. -/
theorem stepT_apply (X : Vec Ideal S4096x64 .f32) (ADJ : Vec Ideal S4096x4096 .f32) (H : Vec Ideal S4096x64 .f32)
    (h : Cert.Appnp.Mat) (hH : ∀ r j, H (ix2 r j) = h r j) (r : Fin 4096) (j : Fin 64) :
    stepT (F := Ideal) (ABs ADJ) X H (ix2 r j)
      = Cert.Appnp.step (fun r k => ADJ (ix2 r k)) (fun r j => X (ix2 r j)) h r j := by
  show k0_pay5 (F := Ideal) (blkA1024 (ABs ADJ) (q1024 r)) (k0_pay4 H) (blkX1024 X (q1024 r)) (ix2 (r1024 r) j) = _
  rw [pay5_apply, blkX1024_apply, pay4_eq]
  show _ = Cert.Appnp.c9 * (∑ k : Fin 4096, ADJ (ix2 r k) * h k j) + Cert.Appnp.c1 * X (ix2 r j)
  refine congrArg (fun t => Cert.Appnp.c9 * t + Cert.Appnp.c1 * X (ix2 r j)) (Finset.sum_congr rfl fun k _ => ?_)
  rw [blkA1024_ABs, hH]

/-- After the first step and `n` later ones the buffer holds the iterate `n + 1`. -/
theorem HN_apply (X : Vec Ideal S4096x64 .f32) (ADJ : Vec Ideal S4096x4096 .f32) (n : ℕ) (r : Fin 4096) (j : Fin 64) :
    HN (F := Ideal) X ADJ n (ix2 r j)
      = Cert.Appnp.iter (fun r k => ADJ (ix2 r k)) (fun r j => X (ix2 r j)) (n + 1) r j := by
  induction n generalizing r j with
  | zero => exact H1_apply X ADJ r j
  | succ n ih =>
    show stepT (F := Ideal) (ABs ADJ) X (HN X ADJ n) (ix2 r j) = _
    rw [stepT_apply X ADJ (HN X ADJ n) _ ih r j]
    rfl

end KValue

/-- The output's buffer at entry `(r, j)`, at the ideal instance: ten propagation steps from `x`. -/
theorem OUT_eq (X : Vec Ideal S4096x64 .f32) (ADJ : Vec Ideal S4096x4096 .f32) (r : Fin 4096) (j : Fin 64) :
    OUT (F := Ideal) X ADJ (ix2 r j)
      = Cert.Appnp.iter (fun r k => ADJ (ix2 r k)) (fun r j => X (ix2 r j)) 10 r j :=
  KValue.HN_apply X ADJ 9 r j

end Cert.KernelIdeal.Body
end
-- ==== Proof.RefValue.lean ====
/-
  The reference computes the ten-step propagation: its last stage, read at an entry, is
  `iter A x 10` at that entry, `A` and `x` the two arguments by coordinates.

  Each of the ten unrolled iterations is the same eight operations: the matrix product of `A` with the
  previous stage, the constant `c₉` spread over the matrix and multiplied in, the constant `c₁` spread and
  multiplied with `x`, and the sum of the two. Read at an entry `(r, j)` that is
  `c₉ · ∑ k, A r k · h k j + c₁ · x r j`, one `step`; so stage `6n − 1` is `iter A x n`, by induction
  written out once per iteration.
-/
import proofs.«114585_g3178275799597_cont_8to1_b_565_8_alg».proof.Proof.Gen.ReferenceIdeal.Read
import proofs.«114585_g3178275799597_cont_8to1_b_565_8_alg».proof.Proof.Math

noncomputable section

namespace Cert.ReferenceIdeal.RefValue

open Cert.ReferenceIdeal Cert.ReferenceIdeal.Gen Cert.ReferenceIdeal.Read
open Idealize.ShloMosaic Idealize.ShloMosaic.ValueIdx

/-- The left operand of the product at entry `(r, j)`, summand `k`, is read at `(r, k)`. -/
theorem lidx_eq (r : Fin 4096) (j : Fin 64) (k : Fin 4096) : lidx_main_v0 (ix2 r j) k = ix2 r k := by
  funext a
  match a with
  | ⟨0, _⟩ => rfl
  | ⟨1, _⟩ => rfl

/-- The right operand of the product at entry `(r, j)`, summand `k`, is read at `(k, j)`. -/
theorem ridx_eq (r : Fin 4096) (j : Fin 64) (k : Fin 4096) : ridx_main_v0 (ix2 r j) k = ix2 k j := by
  funext a
  match a with
  | ⟨0, _⟩ => rfl
  | ⟨1, _⟩ => rfl

/-- One iteration of the program at an entry: if the previous stage `h` is `H` by coordinates, then
    `c₉` times the product's entry plus `c₁` times the input's entry is `step A X H` at that entry. -/
theorem step_eq (x0 : (⟨S4096x64, .f32⟩ : BufTy).Contents (Elt Ideal)) (x1 : (⟨S4096x4096, .f32⟩ : BufTy).Contents (Elt Ideal))
    (h : (⟨S4096x64, .f32⟩ : BufTy).Contents (Elt Ideal)) (H : Cert.Appnp.Mat)
    (hH : ∀ r j, h (ix2 r j) = H r j) (r : Fin 4096) (j : Fin 64) :
    FloatOps.addf (F := Ideal)
        (FloatOps.mulf (F := Ideal) (FloatOps.ofBits (F := Ideal) .f32 0x3F666666#32)
          (∑ k : Fin 4096, x1 (lidx_main_v0 (ix2 r j) k) * h (ridx_main_v0 (ix2 r j) k)))
        (FloatOps.mulf (F := Ideal) (FloatOps.ofBits (F := Ideal) .f32 0x3DCCCCCD#32) (x0 (ix2 r j)))
      = Cert.Appnp.step (fun r k => x1 (ix2 r k)) (fun r j => x0 (ix2 r j)) H r j := by
  unfold Cert.Appnp.step
  rw [Ideal.addf_def, Ideal.mulf_def, Ideal.mulf_def, Ideal.ofBits_def, Ideal.ofBits_def]
  congr 2
  refine Finset.sum_congr rfl fun k _ => ?_
  rw [lidx_eq, ridx_eq, hH]

/-- The first iteration's result, stage 5, is `iter A x 1`. -/
theorem iter_1 (x0 : (⟨S4096x64, .f32⟩ : BufTy).Contents (Elt Ideal)) (x1 : (⟨S4096x4096, .f32⟩ : BufTy).Contents (Elt Ideal))
    (r : Fin 4096) (j : Fin 64) :
    val_main_v5 (F := Ideal) x0 x1 (ix2 r j)
      = Cert.Appnp.iter (fun r k => x1 (ix2 r k)) (fun r j => x0 (ix2 r j)) 1 r j := by
  rw [Cert.Appnp.iter_succ, val_main_v5_apply, val_main_v2_apply, val_main_v1_apply, val_main_cst_apply,
    val_main_v0_apply, val_main_v4_apply, val_main_v3_apply, val_main_cst_0_apply]
  exact step_eq x0 x1 x0 _ (fun _ _ => rfl) r j

/-- The second iteration's result, stage 11, is `iter A x 2`. -/
theorem iter_2 (x0 : (⟨S4096x64, .f32⟩ : BufTy).Contents (Elt Ideal)) (x1 : (⟨S4096x4096, .f32⟩ : BufTy).Contents (Elt Ideal))
    (r : Fin 4096) (j : Fin 64) :
    val_main_v11 (F := Ideal) x0 x1 (ix2 r j)
      = Cert.Appnp.iter (fun r k => x1 (ix2 r k)) (fun r j => x0 (ix2 r j)) 2 r j := by
  rw [Cert.Appnp.iter_succ, val_main_v11_apply, val_main_v8_apply, val_main_v7_apply, val_main_cst_1_apply,
    val_main_v6_apply, val_main_v10_apply, val_main_v9_apply, val_main_cst_2_apply]
  exact step_eq x0 x1 _ _ (iter_1 x0 x1) r j

/-- The third iteration's result, stage 17, is `iter A x 3`. -/
theorem iter_3 (x0 : (⟨S4096x64, .f32⟩ : BufTy).Contents (Elt Ideal)) (x1 : (⟨S4096x4096, .f32⟩ : BufTy).Contents (Elt Ideal))
    (r : Fin 4096) (j : Fin 64) :
    val_main_v17 (F := Ideal) x0 x1 (ix2 r j)
      = Cert.Appnp.iter (fun r k => x1 (ix2 r k)) (fun r j => x0 (ix2 r j)) 3 r j := by
  rw [Cert.Appnp.iter_succ, val_main_v17_apply, val_main_v14_apply, val_main_v13_apply, val_main_cst_3_apply,
    val_main_v12_apply, val_main_v16_apply, val_main_v15_apply, val_main_cst_4_apply]
  exact step_eq x0 x1 _ _ (iter_2 x0 x1) r j

/-- The fourth iteration's result, stage 23, is `iter A x 4`. -/
theorem iter_4 (x0 : (⟨S4096x64, .f32⟩ : BufTy).Contents (Elt Ideal)) (x1 : (⟨S4096x4096, .f32⟩ : BufTy).Contents (Elt Ideal))
    (r : Fin 4096) (j : Fin 64) :
    val_main_v23 (F := Ideal) x0 x1 (ix2 r j)
      = Cert.Appnp.iter (fun r k => x1 (ix2 r k)) (fun r j => x0 (ix2 r j)) 4 r j := by
  rw [Cert.Appnp.iter_succ, val_main_v23_apply, val_main_v20_apply, val_main_v19_apply, val_main_cst_5_apply,
    val_main_v18_apply, val_main_v22_apply, val_main_v21_apply, val_main_cst_6_apply]
  exact step_eq x0 x1 _ _ (iter_3 x0 x1) r j

/-- The fifth iteration's result, stage 29, is `iter A x 5`. -/
theorem iter_5 (x0 : (⟨S4096x64, .f32⟩ : BufTy).Contents (Elt Ideal)) (x1 : (⟨S4096x4096, .f32⟩ : BufTy).Contents (Elt Ideal))
    (r : Fin 4096) (j : Fin 64) :
    val_main_v29 (F := Ideal) x0 x1 (ix2 r j)
      = Cert.Appnp.iter (fun r k => x1 (ix2 r k)) (fun r j => x0 (ix2 r j)) 5 r j := by
  rw [Cert.Appnp.iter_succ, val_main_v29_apply, val_main_v26_apply, val_main_v25_apply, val_main_cst_7_apply,
    val_main_v24_apply, val_main_v28_apply, val_main_v27_apply, val_main_cst_8_apply]
  exact step_eq x0 x1 _ _ (iter_4 x0 x1) r j

/-- The sixth iteration's result, stage 35, is `iter A x 6`. -/
theorem iter_6 (x0 : (⟨S4096x64, .f32⟩ : BufTy).Contents (Elt Ideal)) (x1 : (⟨S4096x4096, .f32⟩ : BufTy).Contents (Elt Ideal))
    (r : Fin 4096) (j : Fin 64) :
    val_main_v35 (F := Ideal) x0 x1 (ix2 r j)
      = Cert.Appnp.iter (fun r k => x1 (ix2 r k)) (fun r j => x0 (ix2 r j)) 6 r j := by
  rw [Cert.Appnp.iter_succ, val_main_v35_apply, val_main_v32_apply, val_main_v31_apply, val_main_cst_9_apply,
    val_main_v30_apply, val_main_v34_apply, val_main_v33_apply, val_main_cst_10_apply]
  exact step_eq x0 x1 _ _ (iter_5 x0 x1) r j

/-- The seventh iteration's result, stage 41, is `iter A x 7`. -/
theorem iter_7 (x0 : (⟨S4096x64, .f32⟩ : BufTy).Contents (Elt Ideal)) (x1 : (⟨S4096x4096, .f32⟩ : BufTy).Contents (Elt Ideal))
    (r : Fin 4096) (j : Fin 64) :
    val_main_v41 (F := Ideal) x0 x1 (ix2 r j)
      = Cert.Appnp.iter (fun r k => x1 (ix2 r k)) (fun r j => x0 (ix2 r j)) 7 r j := by
  rw [Cert.Appnp.iter_succ, val_main_v41_apply, val_main_v38_apply, val_main_v37_apply, val_main_cst_11_apply,
    val_main_v36_apply, val_main_v40_apply, val_main_v39_apply, val_main_cst_12_apply]
  exact step_eq x0 x1 _ _ (iter_6 x0 x1) r j

/-- The eighth iteration's result, stage 47, is `iter A x 8`. -/
theorem iter_8 (x0 : (⟨S4096x64, .f32⟩ : BufTy).Contents (Elt Ideal)) (x1 : (⟨S4096x4096, .f32⟩ : BufTy).Contents (Elt Ideal))
    (r : Fin 4096) (j : Fin 64) :
    val_main_v47 (F := Ideal) x0 x1 (ix2 r j)
      = Cert.Appnp.iter (fun r k => x1 (ix2 r k)) (fun r j => x0 (ix2 r j)) 8 r j := by
  rw [Cert.Appnp.iter_succ, val_main_v47_apply, val_main_v44_apply, val_main_v43_apply, val_main_cst_13_apply,
    val_main_v42_apply, val_main_v46_apply, val_main_v45_apply, val_main_cst_14_apply]
  exact step_eq x0 x1 _ _ (iter_7 x0 x1) r j

/-- The ninth iteration's result, stage 53, is `iter A x 9`. -/
theorem iter_9 (x0 : (⟨S4096x64, .f32⟩ : BufTy).Contents (Elt Ideal)) (x1 : (⟨S4096x4096, .f32⟩ : BufTy).Contents (Elt Ideal))
    (r : Fin 4096) (j : Fin 64) :
    val_main_v53 (F := Ideal) x0 x1 (ix2 r j)
      = Cert.Appnp.iter (fun r k => x1 (ix2 r k)) (fun r j => x0 (ix2 r j)) 9 r j := by
  rw [Cert.Appnp.iter_succ, val_main_v53_apply, val_main_v50_apply, val_main_v49_apply, val_main_cst_15_apply,
    val_main_v48_apply, val_main_v52_apply, val_main_v51_apply, val_main_cst_16_apply]
  exact step_eq x0 x1 _ _ (iter_8 x0 x1) r j

/-- The tenth iteration's result, stage 59, is `iter A x 10`. -/
theorem iter_10 (x0 : (⟨S4096x64, .f32⟩ : BufTy).Contents (Elt Ideal)) (x1 : (⟨S4096x4096, .f32⟩ : BufTy).Contents (Elt Ideal))
    (r : Fin 4096) (j : Fin 64) :
    val_main_v59 (F := Ideal) x0 x1 (ix2 r j)
      = Cert.Appnp.iter (fun r k => x1 (ix2 r k)) (fun r j => x0 (ix2 r j)) 10 r j := by
  rw [Cert.Appnp.iter_succ, val_main_v59_apply, val_main_v56_apply, val_main_v55_apply, val_main_cst_17_apply,
    val_main_v54_apply, val_main_v58_apply, val_main_v57_apply, val_main_cst_18_apply]
  exact step_eq x0 x1 _ _ (iter_9 x0 x1) r j

/-- The reference's result at entry `(r, j)`: ten propagation steps from `x`. -/
theorem ref_eq (x0 : (⟨S4096x64, .f32⟩ : BufTy).Contents (Elt Ideal)) (x1 : (⟨S4096x4096, .f32⟩ : BufTy).Contents (Elt Ideal))
    (r : Fin 4096) (j : Fin 64) :
    val_main_v59 (F := Ideal) x0 x1 (ix2 r j)
      = Cert.Appnp.iter (fun r k => x1 (ix2 r k)) (fun r j => x0 (ix2 r j)) 10 r j :=
  iter_10 x0 x1 r j

end Cert.ReferenceIdeal.RefValue

end
-- ==== Proof.lean ====
/-
  The certificate. Both programs compute the ten-step propagation `h ← c₉ · (A h) + c₁ · x` from
  `h = x` on the extended reals, `c₉` and `c₁` the same two single-precision words on both sides.

  The kernel streams the adjacency through eight points of 512 rows each: each point rounds its
  block into a resident copy (at the ideal instance rounding is the identity) and computes the first
  step for the block's rows; the last point then runs nine more steps over the resident copy, four
  tiles of 1024 rows per step, the last step into the output's block. Row blocks of a matrix product
  are restrictions of the whole product, a block product into a zero accumulator is the plain sum of
  4096 products, and the order of the steps is the reference's: the two results agree entry by entry,
  with no algebraic law beyond that — in particular finiteness of the inputs is not used.

  The three frames: the kernel's (at the bit-exact and at the ideal instance) from the body's
  symbolic run under an invariant on the three scratch buffers it carries between points; the
  reference's from its run with the result dropped. The ideal pass rewrote nothing, so `preserves`
  is trivial.
-/
import proofs.«114585_g3178275799597_cont_8to1_b_565_8_alg».proof.Defs
import proofs.«114585_g3178275799597_cont_8to1_b_565_8_alg».proof.Proof.Gen.Kernel
import proofs.«114585_g3178275799597_cont_8to1_b_565_8_alg».proof.Proof.Gen.KernelIdeal
import proofs.«114585_g3178275799597_cont_8to1_b_565_8_alg».proof.Proof.Gen.ReferenceIdeal
import proofs.«114585_g3178275799597_cont_8to1_b_565_8_alg».proof.Proof.Gen.Pre_finite_inputs
import proofs.«114585_g3178275799597_cont_8to1_b_565_8_alg».proof.Proof.Gen.ReferenceIdeal.Run
import proofs.«114585_g3178275799597_cont_8to1_b_565_8_alg».proof.Proof.Gen.ReferenceIdeal.Read
import proofs.«114585_g3178275799597_cont_8to1_b_565_8_alg».proof.Proof.K.Frame
import proofs.«114585_g3178275799597_cont_8to1_b_565_8_alg».proof.Proof.KI.Value
import proofs.«114585_g3178275799597_cont_8to1_b_565_8_alg».proof.Proof.KI.KValue
import proofs.«114585_g3178275799597_cont_8to1_b_565_8_alg».proof.Proof.RefValue

noncomputable section

namespace Cert.Proof

open Idealize.ShloMosaic Idealize.ShloMosaic.TcCoe Idealize.SL.Sem Idealize.ShloMosaic.ValueIdx

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's result array ends at nine more steps after the first, the
    reference's at the composed term of its eighty operations; both are the ten-step propagation of
    arguments that agree. -/
theorem algebraic : Cert.algebraic_KernelIdeal_ReferenceIdeal := by
  intro m ρ m' ρ' _ hagree
  refine ⟨fun c => Cert.KernelIdeal.Body.OUT (F := Ideal) (Cert.KernelIdeal.Body.xarr m c) (Cert.KernelIdeal.Body.adjarr m c),
    Cert.KernelIdeal.Body.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v59_eq _ _).trans ?_
  funext y
  obtain ⟨r, j, rfl⟩ : ∃ (r : Fin 4096) (j : Fin 64), y = ix2 r j := ⟨y 0, y 1, eq_ix2 y⟩
  rw [Cert.ReferenceIdeal.RefValue.ref_eq]
  exact (Cert.KernelIdeal.Body.OUT_eq _ _ r j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
